-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.sign_bit.Statement Cert.KernelIdeal.S2000x512 .f32
  ∧ IdealRules.sign_bit.Statement Cert.KernelIdeal.S2000x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x128 .f32) (main_arg3 : FVec F S128 .f32) (main_arg4 : FVec F S128x64 .f32) (main_arg5 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x512 : Shape := ⟨2, ![1, 512]⟩
abbrev S2000x512 : Shape := ⟨2, ![2000, 512]⟩
abbrev S512 : Shape := ⟨1, ![512]⟩
abbrev S_ : Shape := ⟨0, ![]⟩
abbrev S1x128 : Shape := ⟨2, ![1, 128]⟩
abbrev S50000x128 : Shape := ⟨2, ![50000, 128]⟩
abbrev S2000x128 : Shape := ⟨2, ![2000, 128]⟩
abbrev S2000 : Shape := ⟨1, ![2000]⟩
abbrev S2000x1 : Shape := ⟨2, ![2000, 1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x128 : Shape := ⟨2, ![850000, 128]⟩
abbrev S1x64 : Shape := ⟨2, ![1, 64]⟩
abbrev S50000x64 : Shape := ⟨2, ![50000, 64]⟩
abbrev S2000x64 : Shape := ⟨2, ![2000, 64]⟩
abbrev S850000x64 : Shape := ⟨2, ![850000, 64]⟩

abbrev nBuf : Space → Nat
  | .hbm => 126
  | .vmem => 20
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x512, .f32⟩
  | .hbm, ⟨7, _⟩ => ⟨S1x512, .f32⟩
  | .hbm, ⟨8, _⟩ => ⟨S_, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S_, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S1x128, .f32⟩
  | .hbm, ⟨28, _⟩ => ⟨S512x128, .f32⟩
  | .hbm, ⟨29, _⟩ => ⟨S512x128, .f32⟩
  | .hbm, ⟨30, _⟩ => ⟨S512x128, .bf16⟩
  | .hbm, ⟨31, _⟩ => ⟨S50000x128, .f32⟩
  | .hbm, ⟨32, _⟩ => ⟨S50000, .i32⟩
  | .hbm, ⟨33, _⟩ => ⟨S1x800000, .i32⟩
  | .hbm, ⟨34, _⟩ => ⟨S800000, .i32⟩
  | .hbm, ⟨35, _⟩ => ⟨S850000, .i32⟩
  | .hbm, ⟨36, _⟩ => ⟨S1x800000, .i32⟩
  | .hbm, ⟨37, _⟩ => ⟨S800000, .i32⟩
  | .hbm, ⟨38, _⟩ => ⟨S850000, .i32⟩
  | .hbm, ⟨39, _⟩ => ⟨S_, .f32⟩
  | .hbm, ⟨40, _⟩ => ⟨S850000, .f32⟩
  | .hbm, ⟨41, _⟩ => ⟨S_, .f32⟩
  | .hbm, ⟨42, _⟩ => ⟨S50000, .f32⟩
  | .hbm, ⟨43, _⟩ => ⟨S850000x1, .i32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .i1⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000, .f32⟩
  | .hbm, ⟨52, _⟩ => ⟨S_, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S_, .i32⟩
  | .hbm, ⟨57, _⟩ => ⟨S850000, .i32⟩
  | .hbm, ⟨58, _⟩ => ⟨S850000, .i1⟩
  | .hbm, ⟨59, _⟩ => ⟨S_, .i32⟩
  | .hbm, ⟨60, _⟩ => ⟨S850000, .i32⟩
  | .hbm, ⟨61, _⟩ => ⟨S850000, .i32⟩
  | .hbm, ⟨62, _⟩ => ⟨S850000, .i32⟩
  | .hbm, ⟨63, _⟩ => ⟨S850000x1, .i32⟩
  | .hbm, ⟨64, _⟩ => ⟨S850000, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000, .f32⟩
  | .hbm, ⟨74, _⟩ => ⟨S850000, .f32⟩
  | .hbm, ⟨75, _⟩ => ⟨S850000x1, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x128, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S128x64, .f32⟩
  | .hbm, ⟨95, _⟩ => ⟨S128x64, .f32⟩
  | .hbm, ⟨96, _⟩ => ⟨S_, .f32⟩
  | .hbm, ⟨97, _⟩ => ⟨S64, .f32⟩
  | .hbm, ⟨98, _⟩ => ⟨S1x64, .f32⟩
  | .hbm, ⟨99, _⟩ => ⟨S_, .f32⟩
  | .hbm, ⟨100, _⟩ => ⟨S1x64, .f32⟩
  | .hbm, ⟨101, _⟩ => ⟨S1x64, .f32⟩
  | .hbm, ⟨102, _⟩ => ⟨S128x64, .f32⟩
  | .hbm, ⟨103, _⟩ => ⟨S128x64, .f32⟩
  | .hbm, ⟨104, _⟩ => ⟨S128x64, .bf16⟩
  | .hbm, ⟨105, _⟩ => ⟨S50000x64, .f32⟩
  | .hbm, ⟨106, _⟩ => ⟨S850000x1, .f32⟩
  | .hbm, ⟨107, _⟩ => ⟨S_, .i32⟩
  | .hbm, ⟨108, _⟩ => ⟨S850000, .i32⟩
  | .hbm, ⟨109, _⟩ => ⟨S850000, .i1⟩
  | .hbm, ⟨110, _⟩ => ⟨S_, .i32⟩
  | .hbm, ⟨111, _⟩ => ⟨S850000, .i32⟩
  | .hbm, ⟨112, _⟩ => ⟨S850000, .i32⟩
  | .hbm, ⟨113, _⟩ => ⟨S850000, .i32⟩
  | .hbm, ⟨114, _⟩ => ⟨S850000x1, .i32⟩
  | .hbm, ⟨115, _⟩ => ⟨S850000x64, .f32⟩
  | .hbm, ⟨116, _⟩ => ⟨S850000x64, .f32⟩
  | .hbm, ⟨117, _⟩ => ⟨S850000x64, .f32⟩
  | .hbm, ⟨118, _⟩ => ⟨S_, .f32⟩
  | .hbm, ⟨119, _⟩ => ⟨S50000x64, .f32⟩
  | .hbm, ⟨120, _⟩ => ⟨S850000x1, .i32⟩
  | .hbm, ⟨121, _⟩ => ⟨S50000x64, .f32⟩
  | .hbm, ⟨122, _⟩ => ⟨S1x64, .f32⟩
  | .hbm, ⟨123, _⟩ => ⟨S50000x64, .f32⟩
  | .hbm, ⟨124, _⟩ => ⟨S50000x64, .f32⟩
  | .hbm, ⟨125, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S1x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S1x512, .f32⟩
  | .local _ .vmem, ⟨7, _⟩ => ⟨S1x512, .f32⟩
  | .local _ .vmem, ⟨8, _⟩ => ⟨S512x128, .bf16⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x64, .bf16⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_call0_v0 : Ref sig .tc := ⟨.hbm, 53, rfl⟩
abbrev main_call0_v1 : Ref sig .tc := ⟨.hbm, 54, rfl⟩
abbrev main_v36 : Ref sig .tc := ⟨.hbm, 55, rfl⟩
abbrev main_c : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_v44 : Ref sig .tc := ⟨.hbm, 66, rfl⟩
abbrev main_v45 : Ref sig .tc := ⟨.hbm, 67, rfl⟩
abbrev main_c_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_12 : Ref sig .tc := ⟨.hbm, 76, rfl⟩
abbrev main_v53 : Ref sig .tc := ⟨.hbm, 77, rfl⟩
abbrev main_v54 : Ref sig .tc := ⟨.hbm, 78, rfl⟩
abbrev main_c_13 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_15 : Ref sig .tc := ⟨.hbm, 96, rfl⟩
abbrev main_v70 : Ref sig .tc := ⟨.hbm, 97, rfl⟩
abbrev main_v71 : Ref sig .tc := ⟨.hbm, 98, rfl⟩
abbrev main_cst_16 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_17 : Ref sig .tc := ⟨.hbm, 107, rfl⟩
abbrev main_v79 : Ref sig .tc := ⟨.hbm, 108, rfl⟩
abbrev main_v80 : Ref sig .tc := ⟨.hbm, 109, rfl⟩
abbrev main_c_18 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_19 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19

abbrev nD : Nat := 1
abbrev τ : Topo := Topo.v7x

variable {F : FTy → Type} [BitOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  inb_S1x512_S1x512_0_0 : ∀ a, (![0, 0] : Fin 2 → Nat) a + S1x512.size a ≤ S1x512.size a
  h_S1x512 : 0 < S1x512.numel
  inb_S2000x512_S2000x512_0_0 : ∀ a, (![0, 0] : Fin 2 → Nat) a + S2000x512.size a ≤ S2000x512.size a
  h_S2000x512 : 0 < S2000x512.numel
  shapeCasts_S1x512_S1x512 : S1x512.ShapeCasts S1x512
  reduces_S2000x512_S512 : S2000x512.Reduces [0] S512
  shapeCasts_S512_S1x512 : S512.ShapeCasts S1x512
  bcast_S_S1x512 : S_.BroadcastsInDim S1x512 (![] : Fin 0 → Fin S1x512.rank)
  reducesTo_S512x128_S128_d0 : S512x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S512x128_0_1 : S1x128.BroadcastsInDim S512x128 (![0, 1] : Fin 2 → Fin S512x128.rank)
  bitsLt_bf16_f32 : FTy.bits .bf16 < FTy.bits .f32
  broadcasts_S1x512_S2000x512 : S1x512.Broadcasts S2000x512
  reduces_S2000x512_S2000 : S2000x512.Reduces [1] S2000
  shapeCasts_S2000_S2000x1 : S2000.ShapeCasts S2000x1
  broadcasts_S2000x1_S2000x512 : S2000x1.Broadcasts S2000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x128_S2000x128_0_0 : ∀ a, (![0, 0] : Fin 2 → Nat) a + S2000x128.size a ≤ S2000x128.size a
  h_S2000x128 : 0 < S2000x128.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  reducesTo_S128x64_S64_d0 : S128x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  bcast_S1x64_S128x64_0_1 : S1x64.BroadcastsInDim S128x64 (![0, 1] : Fin 2 → Fin S128x64.rank)
  shapeCasts_S2000x128_S2000x128 : S2000x128.ShapeCasts S2000x128
  reduces_S2000x128_S2000 : S2000x128.Reduces [1] S2000
  broadcasts_S2000x1_S2000x128 : S2000x1.Broadcasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S1x64_S50000x64_0_1 : S1x64.BroadcastsInDim S50000x64 (![0, 1] : Fin 2 → Fin S50000x64.rank)
  shapeCasts_S2000x64_S2000x64 : S2000x64.ShapeCasts S2000x64
  reduces_S2000x64_S2000 : S2000x64.Reduces [1] S2000
  broadcasts_S2000x1_S2000x64 : S2000x1.Broadcasts S2000x64
  dot_S2000x512_S512x128_S2000x128_1_0_0_1_n_n_wf : DotDims.WF S2000x512 S512x128 S2000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S512x128.size a
  hwx1_3 : ∀ i : grid1.Coords, EltTy.bits .bf16 = 32 ∨ (Rect.block (s := S512x128) S512x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .bf16 = 32 ∨ (Rect.block (s := S128x64) S128x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x512.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S512x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v67) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v77) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v93) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v94) S2000x64.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩
abbrev S512 : Shape := ⟨1, ![512]⟩
abbrev S1x512 : Shape := ⟨2, ![1, 512]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S50000x1 : Shape := ⟨2, ![50000, 1]⟩
abbrev S1x128 : Shape := ⟨2, ![1, 128]⟩
abbrev S50000x128 : Shape := ⟨2, ![50000, 128]⟩
abbrev S850000x128 : Shape := ⟨2, ![850000, 128]⟩
abbrev S1x64 : Shape := ⟨2, ![1, 64]⟩
abbrev S50000x64 : Shape := ⟨2, ![50000, 64]⟩
abbrev S850000x64 : Shape := ⟨2, ![850000, 64]⟩

abbrev nBuf : Space → Nat
  | .hbm => 182
  | .vmem => 0
  | .smem => 0
  | _ => 0

abbrev hbmTy0_0 (i : Nat) : BufTy := match i % 128 with
  | 0 => ⟨S50000x512, .f32⟩
  | 1 => ⟨S2x800000, .i32⟩
  | 2 => ⟨S512x128, .f32⟩
  | 3 => ⟨S128, .f32⟩
  | 4 => ⟨S128x64, .f32⟩
  | 5 => ⟨S64, .f32⟩
  | 6 => ⟨S_, .f32⟩
  | 7 => ⟨S512, .f32⟩
  | 8 => ⟨S_, .f32⟩
  | 9 => ⟨S512, .f32⟩
  | 10 => ⟨S512, .f32⟩
  | 11 => ⟨S_, .i32⟩
  | 12 => ⟨S_, .f32⟩
  | 13 => ⟨S512, .f32⟩
  | 14 => ⟨S1x512, .f32⟩
  | 15 => ⟨S_, .f32⟩
  | 16 => ⟨S1x512, .f32⟩
  | 17 => ⟨S1x512, .f32⟩
  | 18 => ⟨S50000x512, .f32⟩
  | 19 => ⟨S50000x512, .f32⟩
  | 20 => ⟨S50000x512, .f32⟩
  | 21 => ⟨S_, .f32⟩
  | 22 => ⟨S_, .f32⟩
  | 23 => ⟨S_, .f32⟩
  | 24 => ⟨S_, .f32⟩
  | 25 => ⟨S512, .f32⟩
  | 26 => ⟨S512, .f32⟩
  | 27 => ⟨S512, .f32⟩
  | 28 => ⟨S_, .f32⟩
  | 29 => ⟨S_, .i1⟩
  | 30 => ⟨S_, .f32⟩
  | 31 => ⟨S_, .f32⟩
  | 32 => ⟨S512, .f32⟩
  | 33 => ⟨S512, .f32⟩
  | 34 => ⟨S1x512, .f32⟩
  | 35 => ⟨S50000x512, .f32⟩
  | 36 => ⟨S50000x512, .f32⟩
  | 37 => ⟨S_, .f32⟩
  | 38 => ⟨S512, .f32⟩
  | 39 => ⟨S512, .f32⟩
  | 40 => ⟨S512, .f32⟩
  | 41 => ⟨S1x512, .f32⟩
  | 42 => ⟨S50000x512, .f32⟩
  | 43 => ⟨S50000x512, .f32⟩
  | 44 => ⟨S50000, .i32⟩
  | 45 => ⟨S1x800000, .i32⟩
  | 46 => ⟨S800000, .i32⟩
  | 47 => ⟨S850000, .i32⟩
  | 48 => ⟨S1x800000, .i32⟩
  | 49 => ⟨S800000, .i32⟩
  | 50 => ⟨S850000, .i32⟩
  | 51 => ⟨S_, .f32⟩
  | 52 => ⟨S850000, .f32⟩
  | 53 => ⟨S_, .f32⟩
  | 54 => ⟨S50000, .f32⟩
  | 55 => ⟨S850000x1, .i32⟩
  | 56 => ⟨S50000, .f32⟩
  | 57 => ⟨S_, .f32⟩
  | 58 => ⟨S50000, .f32⟩
  | 59 => ⟨S50000, .i1⟩
  | 60 => ⟨S_, .f32⟩
  | 61 => ⟨S50000, .f32⟩
  | 62 => ⟨S50000, .f32⟩
  | 63 => ⟨S50000, .f32⟩
  | 64 => ⟨S_, .f32⟩
  | 65 => ⟨S_, .f32⟩
  | 66 => ⟨S50000, .f32⟩
  | 67 => ⟨S50000, .f32⟩
  | 68 => ⟨S_, .i32⟩
  | 69 => ⟨S850000, .i32⟩
  | 70 => ⟨S850000, .i1⟩
  | 71 => ⟨S_, .i32⟩
  | 72 => ⟨S850000, .i32⟩
  | 73 => ⟨S850000, .i32⟩
  | 74 => ⟨S850000, .i32⟩
  | 75 => ⟨S850000x1, .i32⟩
  | 76 => ⟨S850000, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000, .f32⟩
  | 86 => ⟨S850000, .f32⟩
  | 87 => ⟨S50000x512, .f32⟩
  | 88 => ⟨S50000x512, .f32⟩
  | 89 => ⟨S_, .f32⟩
  | 90 => ⟨S50000, .f32⟩
  | 91 => ⟨S50000x1, .f32⟩
  | 92 => ⟨S_, .f32⟩
  | 93 => ⟨S50000x1, .f32⟩
  | 94 => ⟨S50000x1, .f32⟩
  | 95 => ⟨S50000x512, .f32⟩
  | 96 => ⟨S50000x512, .f32⟩
  | 97 => ⟨S512x128, .f32⟩
  | 98 => ⟨S512x128, .f32⟩
  | 99 => ⟨S_, .f32⟩
  | 100 => ⟨S128, .f32⟩
  | 101 => ⟨S1x128, .f32⟩
  | 102 => ⟨S_, .f32⟩
  | 103 => ⟨S1x128, .f32⟩
  | 104 => ⟨S1x128, .f32⟩
  | 105 => ⟨S512x128, .f32⟩
  | 106 => ⟨S512x128, .f32⟩
  | 107 => ⟨S50000x128, .f32⟩
  | 108 => ⟨S850000x1, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x128, .f32⟩
  | 118 => ⟨S850000x128, .f32⟩
  | 119 => ⟨S850000x128, .f32⟩
  | 120 => ⟨S_, .f32⟩
  | 121 => ⟨S50000x128, .f32⟩
  | 122 => ⟨S850000x1, .i32⟩
  | 123 => ⟨S50000x128, .f32⟩
  | 124 => ⟨S1x128, .f32⟩
  | 125 => ⟨S50000x128, .f32⟩
  | 126 => ⟨S50000x128, .f32⟩
  | 127 => ⟨S50000x128, .f32⟩
  | _ => ⟨S50000x512, .f32⟩

abbrev hbmTy0_1 (i : Nat) : BufTy := match i % 128 with
  | 0 => ⟨S50000x128, .f32⟩
  | 1 => ⟨S_, .f32⟩
  | 2 => ⟨S50000, .f32⟩
  | 3 => ⟨S50000x1, .f32⟩
  | 4 => ⟨S_, .f32⟩
  | 5 => ⟨S50000x1, .f32⟩
  | 6 => ⟨S50000x1, .f32⟩
  | 7 => ⟨S50000x128, .f32⟩
  | 8 => ⟨S50000x128, .f32⟩
  | 9 => ⟨S128x64, .f32⟩
  | 10 => ⟨S128x64, .f32⟩
  | 11 => ⟨S_, .f32⟩
  | 12 => ⟨S64, .f32⟩
  | 13 => ⟨S1x64, .f32⟩
  | 14 => ⟨S_, .f32⟩
  | 15 => ⟨S1x64, .f32⟩
  | 16 => ⟨S1x64, .f32⟩
  | 17 => ⟨S128x64, .f32⟩
  | 18 => ⟨S128x64, .f32⟩
  | 19 => ⟨S50000x64, .f32⟩
  | 20 => ⟨S850000x1, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S850000x64, .f32⟩
  | 30 => ⟨S850000x64, .f32⟩
  | 31 => ⟨S850000x64, .f32⟩
  | 32 => ⟨S_, .f32⟩
  | 33 => ⟨S50000x64, .f32⟩
  | 34 => ⟨S850000x1, .i32⟩
  | 35 => ⟨S50000x64, .f32⟩
  | 36 => ⟨S1x64, .f32⟩
  | 37 => ⟨S50000x64, .f32⟩
  | 38 => ⟨S50000x64, .f32⟩
  | 39 => ⟨S_, .f32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x64, .f32⟩
  | 46 => ⟨S50000x64, .f32⟩
  | 47 => ⟨S50000x64, .f32⟩
  | 48 => ⟨S_, .f32⟩
  | 49 => ⟨S50000, .f32⟩
  | 50 => ⟨S50000x1, .f32⟩
  | 51 => ⟨S50000x1, .f32⟩
  | 52 => ⟨S50000x64, .f32⟩
  | 53 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_cst_3 : Ref sig .tc := ⟨.hbm, 28, rfl⟩
abbrev main_call0_v12 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_6 : Ref sig .tc := ⟨.hbm, 64, rfl⟩
abbrev main_call1_v0 : Ref sig .tc := ⟨.hbm, 65, rfl⟩
abbrev main_call1_v1 : Ref sig .tc := ⟨.hbm, 66, rfl⟩
abbrev main_v29 : Ref sig .tc := ⟨.hbm, 67, rfl⟩
abbrev main_c_7 : Ref sig .tc := ⟨.hbm, 68, rfl⟩
abbrev main_v30 : Ref sig .tc := ⟨.hbm, 69, rfl⟩
abbrev main_v31 : Ref sig .tc := ⟨.hbm, 70, rfl⟩
abbrev main_c_8 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_c_9 : Ref sig .tc := ⟨.hbm, 77, rfl⟩
abbrev main_v37 : Ref sig .tc := ⟨.hbm, 78, rfl⟩
abbrev main_v38 : Ref sig .tc := ⟨.hbm, 79, rfl⟩
abbrev main_c_10 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_11 : Ref sig .tc := ⟨.hbm, 89, rfl⟩
abbrev main_v47 : Ref sig .tc := ⟨.hbm, 90, rfl⟩
abbrev main_v48 : Ref sig .tc := ⟨.hbm, 91, rfl⟩
abbrev main_cst_12 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_13 : Ref sig .tc := ⟨.hbm, 99, rfl⟩
abbrev main_v55 : Ref sig .tc := ⟨.hbm, 100, rfl⟩
abbrev main_v56 : Ref sig .tc := ⟨.hbm, 101, rfl⟩
abbrev main_cst_14 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_c_15 : Ref sig .tc := ⟨.hbm, 109, rfl⟩
abbrev main_v63 : Ref sig .tc := ⟨.hbm, 110, rfl⟩
abbrev main_v64 : Ref sig .tc := ⟨.hbm, 111, rfl⟩
abbrev main_c_16 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_17 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_cst_18 : Ref sig .tc := ⟨.hbm, 129, rfl⟩
abbrev main_v80 : Ref sig .tc := ⟨.hbm, 130, rfl⟩
abbrev main_v81 : Ref sig .tc := ⟨.hbm, 131, rfl⟩
abbrev main_cst_19 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_cst_20 : Ref sig .tc := ⟨.hbm, 139, rfl⟩
abbrev main_v88 : Ref sig .tc := ⟨.hbm, 140, rfl⟩
abbrev main_v89 : Ref sig .tc := ⟨.hbm, 141, rfl⟩
abbrev main_cst_21 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_c_22 : Ref sig .tc := ⟨.hbm, 149, rfl⟩
abbrev main_v96 : Ref sig .tc := ⟨.hbm, 150, rfl⟩
abbrev main_v97 : Ref sig .tc := ⟨.hbm, 151, rfl⟩
abbrev main_c_23 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_cst_24 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_call2_cst : Ref sig .tc := ⟨.hbm, 167, rfl⟩
abbrev main_call2_v0 : Ref sig .tc := ⟨.hbm, 168, rfl⟩
abbrev main_call2_cst_0 : Ref sig .tc := ⟨.hbm, 169, rfl⟩
abbrev main_call2_v1 : Ref sig .tc := ⟨.hbm, 170, rfl⟩
abbrev main_call2_v2 : Ref sig .tc := ⟨.hbm, 171, rfl⟩
abbrev main_call2_v3 : Ref sig .tc := ⟨.hbm, 172, rfl⟩
abbrev main_call2_v4 : Ref sig .tc := ⟨.hbm, 173, rfl⟩
abbrev main_call2_v5 : Ref sig .tc := ⟨.hbm, 174, rfl⟩
abbrev main_call2_v6 : Ref sig .tc := ⟨.hbm, 175, rfl⟩
abbrev main_call2_cst_1 : Ref sig .tc := ⟨.hbm, 176, rfl⟩
abbrev main_call2_v7 : Ref sig .tc := ⟨.hbm, 177, rfl⟩
abbrev main_call2_v8 : Ref sig .tc := ⟨.hbm, 178, rfl⟩
abbrev main_call2_v9 : Ref sig .tc := ⟨.hbm, 179, rfl⟩
abbrev main_call2_v10 : Ref sig .tc := ⟨.hbm, 180, rfl⟩
abbrev main_v111 : Ref sig .tc := ⟨.hbm, 181, rfl⟩

abbrev nD : Nat := 1
abbrev τ : Topo := Topo.v7x

variable {F : FTy → Type} [FloatOps F]

class Facts₀ : Prop where
  reducesTo_S50000x512_S512_d0 : S50000x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S50000x512_0_1 : S1x512.BroadcastsInDim S50000x512 (![0, 1] : Fin 2 → Fin S50000x512.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  reducesTo_S50000x512_S50000_d1 : S50000x512.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x512_0_1 : S50000x1.BroadcastsInDim S50000x512 (![0, 1] : Fin 2 → Fin S50000x512.rank)
  reducesTo_S512x128_S128_d0 : S512x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  bcast_S1x128_S512x128_0_1 : S1x128.BroadcastsInDim S512x128 (![0, 1] : Fin 2 → Fin S512x128.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  reducesTo_S50000x128_S50000_d1 : S50000x128.ReducesTo [1] S50000
  bcast_S50000x1_S50000x128_0_1 : S50000x1.BroadcastsInDim S50000x128 (![0, 1] : Fin 2 → Fin S50000x128.rank)
  reducesTo_S128x64_S64_d0 : S128x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  bcast_S1x64_S128x64_0_1 : S1x64.BroadcastsInDim S128x64 (![0, 1] : Fin 2 → Fin S128x64.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S1x64_S50000x64_0_1 : S1x64.BroadcastsInDim S50000x64 (![0, 1] : Fin 2 → Fin S50000x64.rank)
  reducesTo_S50000x64_S50000_d1 : S50000x64.ReducesTo [1] S50000
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x128_S50000x128_1_0_0_1_n_n_wf : DotDims.WF S50000x512 S512x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The mathematics both programs compute, index by index over the extended reals, with no program in sight.

  * column sums of x and of x*x (the batch statistics), the mean and the reciprocal standard deviation made of
    them: mean = s/n, rstd = (ss/n - mean*mean + eps)^(-1/2);
  * the sign-and-scale binarisation of a row: sign(z) * (sum over the row of |z|) / d, where d is the row length
    as the float word both programs print;
  * a dense layer: the binarised rows contracted with a weight matrix;
  * the row-wise log-softmax: (z - max) - log (sum of exp (z - max)), the maximum a fold of max from -inf.
-/
import Idealize.ShloMosaic.Lib.ValueIdx
import Idealize.ShloMosaic.PureOps.Ideal.Laws
import Mathlib.Algebra.BigOperators.Fin

noncomputable section

namespace Cert.Spec

open Idealize.ShloMosaic Idealize.ShloMosaic.ValueIdx

/-- An M by N array of extended reals. -/
abbrev Mat (M N : ℕ) : Type := (⟨2, ![M, N]⟩ : Shape).Idx → EReal

/-- Column j's sum over all 50000 rows. -/
def colSum (x : Mat 50000 512) : Mat 1 512 := fun j => ∑ r : Fin 50000, x (ix2 r (j 1))

/-- Column j's sum of squares. -/
def colSumSq (x : Mat 50000 512) : Mat 1 512 := fun j => ∑ r : Fin 50000, x (ix2 r (j 1)) * x (ix2 r (j 1))

/-- The column mean: the sum divided by the float 50000.0. -/
def mean (s : Mat 1 512) : Mat 1 512 := fun j => Ideal.div (s j) (Ideal.ofBits .f32 0x47435000#32)

/-- The reciprocal standard deviation from the two sums: (ss/n - mean*mean + eps)^(-1/2), eps the float word of 1e-5. -/
def rstd (s ss : Mat 1 512) : Mat 1 512 := fun j =>
  Ideal.rsqrt ((Ideal.div (ss j) (Ideal.ofBits .f32 0x47435000#32) - mean s j * mean s j) + Ideal.ofBits .f32 0x3727C5AC#32)

/-- Batch normalisation without affine part: (x - mean) * rstd, column by column. -/
def bn (x : Mat 50000 512) (mu rs : Mat 1 512) : Mat 50000 512 :=
  fun a => (x a - mu (ix2 (0 : Fin 1) (a 1))) * rs (ix2 (0 : Fin 1) (a 1))

/-- The binarised entry (p, k) of z: its sign times the row's mean absolute value (the row sum divided by the
    float word dw). -/
def binActAt {M K : ℕ} (dw : BitVec 32) (z : Mat M K) (p : Fin M) (k : Fin K) : EReal :=
  Ideal.sign (z (ix2 p k)) * Ideal.div (∑ k' : Fin K, max (z (ix2 p k')) (-(z (ix2 p k')))) (Ideal.ofBits .f32 dw)

/-- A dense layer on binarised rows: entry (p, q) is the sum over k of binarised z (p, k) times w (k, q). -/
def dense {M K N : ℕ} (dw : BitVec 32) (z : Mat M K) (w : Mat K N) : Mat M N :=
  fun i => ∑ k : Fin K, binActAt dw z (i 0) k * w (ix2 k (i 1))

/-- Layer 1: normalise, binarise (row length 512.0), contract with the weights. -/
def layer1 (x : Mat 50000 512) (mu rs : Mat 1 512) (w : Mat 512 128) : Mat 50000 128 :=
  dense 0x44000000#32 (bn x mu rs) w

/-- Layer 2: binarise (row length 128.0), contract with the weights. -/
def layer2 (z : Mat 50000 128) (w : Mat 128 64) : Mat 50000 64 := dense 0x43000000#32 z w

/-- A row's maximum: the fold of max from -inf over the row. -/
def rowMax {M N : ℕ} (z : Mat M N) (p : Fin M) : EReal :=
  (Finset.univ : Finset (Fin N)).fold max (Ideal.ofBits .f32 0xFF800000#32) (fun k => z (ix2 p k))

/-- Row-wise log-softmax. -/
def lsm {M N : ℕ} (z : Mat M N) : Mat M N :=
  fun i => (z i - rowMax z (i 0)) - Ideal.log (∑ k : Fin N, Ideal.exp (z (ix2 (i 0) k) - rowMax z (i 0)))

end Cert.Spec

end
-- ==== Proof.KFn.lean ====
/-
  The host operations of the kernel's @main between its four regions, cut into named pure functions: the mean and the
  reciprocal standard deviation from the two column sums, the weight binarisations (then narrowed to bf16), the graph
  normalisation and the two graph convolutions.
-/
import proofs.«134459_j27161373180324_1_alg».proof.KernelIdeal
import proofs.«134459_j27161373180324_1_alg».proof.Proof.Gen.KernelIdeal

noncomputable section

namespace Cert.KernelIdeal.Fn

open Idealize.ShloMosaic Cert.KernelIdeal
open Cert.KernelIdeal.Facts₀ Cert.KernelIdeal.Facts

variable {F : FTy → Type} [FloatOps F]

/-- The column mean from the column sum. -/
abbrev meanK (s : Vec F S1x512 .f32) : Vec F S1x512 .f32 :=
  Host.divf s (broadcastInDim S1x512 ![] bcast_S_S1x512 (constant S_ .f32 0x47435000#32))

/-- The reciprocal standard deviation from the column sum and the column sum of squares. -/
abbrev rstdK (s ss : Vec F S1x512 .f32) : Vec F S1x512 .f32 :=
  Host.rsqrt (addf (subf (Host.divf ss (broadcastInDim S1x512 ![] bcast_S_S1x512 (constant S_ .f32 0x47435000#32))) (mulf (meanK s) (meanK s)))
    (broadcastInDim S1x512 ![] bcast_S_S1x512 (constant S_ .f32 0x3727C5AC#32)))

/-- Sign times the column's mean absolute value (over 512 rows): the binarised first weight matrix. -/
abbrev binW1 (w : Vec F S512x128 .f32) : Vec F S512x128 .f32 :=
  mulf (Host.sign w) (broadcastInDim S512x128 ![0, 1] bcast_S1x128_S512x128_0_1
    (Host.divf (broadcastInDim S1x128 ![1] bcast_S128_S1x128_1 (Host.reduceAdd (Host.absf w) (constant S_ .f32 0x00000000#32) reducesTo_S512x128_S128_d0 h_S_))
      (broadcastInDim S1x128 ![] bcast_S_S1x128 (constant S_ .f32 0x44000000#32))))

/-- The binarised second weight matrix (128 rows). -/
abbrev binW2 (w : Vec F S128x64 .f32) : Vec F S128x64 .f32 :=
  mulf (Host.sign w) (broadcastInDim S128x64 ![0, 1] bcast_S1x64_S128x64_0_1
    (Host.divf (broadcastInDim S1x64 ![1] bcast_S64_S1x64_1 (Host.reduceAdd (Host.absf w) (constant S_ .f32 0x00000000#32) reducesTo_S128x64_S64_d0 h_S_))
      (broadcastInDim S1x64 ![] bcast_S_S1x64 (constant S_ .f32 0x43000000#32))))

/-- The edges' source nodes, the self loops appended. -/
abbrev row (ei : Vec F S2x800000 .i32) : Vec F S850000 .i32 :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

/-- The edges' target nodes, the self loops appended. -/
abbrev col (ei : Vec F S2x800000 .i32) : Vec F S850000 .i32 :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

/-- In-degrees: ones scattered onto the targets. -/
abbrev deg (ei : Vec F S2x800000 .i32) : Vec F S50000 .f32 :=
  Host.scatterAdd scatter_S50000_S850000x1_S850000_n_0_0_1 (broadcastInDim S50000 ![] bcast_S_S50000 (constant S_ .f32 0x00000000#32))
    (broadcastInDim S850000x1 ![0] bcast_S850000_S850000x1_0 (col ei)) (broadcastInDim S850000 ![] bcast_S_S850000 (constant S_ .f32 0x3F800000#32))

/-- deg^(-1/2) where the degree is positive, else 0. -/
abbrev dinv (ei : Vec F S2x800000 .i32) : Vec F S50000 .f32 :=
  select (cmpf .ogt (deg ei) (broadcastInDim S50000 ![] bcast_S_S50000 (constant S_ .f32 0x00000000#32)))
    (Host.rsqrt (maximumf (deg ei) (broadcastInDim S50000 ![] bcast_S_S50000 (constant S_ .f32 0x3F800000#32))))
    (broadcastInDim S50000 ![] bcast_S_S50000 (id (constant S_ .f32 0x00000000#32)))

/-- A node index made ready for a gather: negative ones wrapped by the node count, as a column. -/
abbrev gidx (v : Vec F S850000 .i32) : Vec F S850000x1 .i32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The symmetric normalisation per edge: dinv at the source times dinv at the target. -/
abbrev norm (ei : Vec F S2x800000 .i32) : Vec F S850000 .f32 :=
  mulf (Host.gather gather_S50000_S850000x1_S850000_n_0_n_n_0_1_1 (dinv ei) (gidx (row ei)))
    (Host.gather gather_S50000_S850000x1_S850000_n_0_n_n_0_1_1 (dinv ei) (gidx (col ei)))

/-- Graph convolution on 128 features: gather the sources' rows, scale by the edge norm, scatter-add onto the targets,
    add the bias. -/
abbrev conv1 (h : Vec F S50000x128 .f32) (ei : Vec F S2x800000 .i32) (b : Vec F S128 .f32) : Vec F S50000x128 .f32 :=
  addf (Host.scatterAdd scatter_S50000x128_S850000x1_S850000x128_1_0_0_1 (broadcastInDim S50000x128 ![] bcast_S_S50000x128 (constant S_ .f32 0x00000000#32))
      (broadcastInDim S850000x1 ![0] bcast_S850000_S850000x1_0 (col ei))
      (mulf (broadcastInDim S850000x128 ![0, 1] bcast_S850000x1_S850000x128_0_1 (broadcastInDim S850000x1 ![0] bcast_S850000_S850000x1_0 (norm ei)))
        (Host.gather gather_S50000x128_S850000x1_S850000x128_1_0_n_n_0_1_1128 h (gidx (row ei)))))
    (broadcastInDim S50000x128 ![0, 1] bcast_S1x128_S50000x128_0_1 (broadcastInDim S1x128 ![1] bcast_S128_S1x128_1 b))

/-- Graph convolution on 64 features. -/
abbrev conv2 (h : Vec F S50000x64 .f32) (ei : Vec F S2x800000 .i32) (b : Vec F S64 .f32) : Vec F S50000x64 .f32 :=
  addf (Host.scatterAdd scatter_S50000x64_S850000x1_S850000x64_1_0_0_1 (broadcastInDim S50000x64 ![] bcast_S_S50000x64 (constant S_ .f32 0x00000000#32))
      (broadcastInDim S850000x1 ![0] bcast_S850000_S850000x1_0 (col ei))
      (mulf (broadcastInDim S850000x64 ![0, 1] bcast_S850000x1_S850000x64_0_1 (broadcastInDim S850000x1 ![0] bcast_S850000_S850000x1_0 (norm ei)))
        (Host.gather gather_S50000x64_S850000x1_S850000x64_1_0_n_n_0_1_164 h (gidx (row ei)))))
    (broadcastInDim S50000x64 ![0, 1] bcast_S1x64_S50000x64_0_1 (broadcastInDim S1x64 ![1] bcast_S64_S1x64_1 b))

/-- The first binarised weight matrix as the region receives it. -/
abbrev wbin1 (w : Vec F S512x128 .f32) : Vec F S512x128 .bf16 := truncf .bf16 (binW1 w) bitsLt_bf16_f32

/-- The second binarised weight matrix as the region receives it. -/
abbrev wbin2 (w : Vec F S128x64 .f32) : Vec F S128x64 .bf16 := truncf .bf16 (binW2 w) bitsLt_bf16_f32

end Cert.KernelIdeal.Fn

end
-- ==== Proof.Stats.lean ====
/-
  The batch-statistics stage. A grid of 25 points walks the 50000 rows of x in blocks of 2000 rows. Two running
  [1,512] rows are kept: at the first point both are set to zero, and at every point the column sums of the block
  and of its entrywise square are added to them. After the last point the two rows are written out. Over the
  extended reals addition is associative and commutative, so what is written out is, column by column, the sum of
  x over all 50000 rows and the sum of x*x over all 50000 rows: the 25 partial sums over 2000 rows regroup into one
  sum over 50000 rows, row 2000*t + r being row r of block t.
-/
import proofs.«134459_j27161373180324_1_alg».proof.Proof.Gen.KernelIdeal.Frame
import proofs.«134459_j27161373180324_1_alg».proof.Proof.Spec
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

theorem stats_hz : (![0, 0] : Fin 2 → Nat) = fun _ => 0 := funext fun a => by fin_cases a <;> rfl

/-- Away from the first point, the first running row becomes itself plus the block's column sums. -/
theorem stats_out_B_1 {F : FTy → Type} [FloatOps F] (c : Dev nD) (i : grid0.Coords)
    (a1 : Memref sig .tc .vmem S2000x512 .f32) (h1 : a1.IsWhole) (a2 : Memref sig .tc .vmem S1x512 .f32) (h2 : a2.IsWhole)
    (a3 : Memref sig .tc .vmem S1x512 .f32) (h3 : a3.IsWhole) (hc : ¬cond0_0 i)
    (x : Vec F S2000x512 .f32) (xo1 xo2 : Vec F S1x512 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  sl_unfold_words
  rw [View.canon_unit_zero stats_hz]
  simp only [View.readAt_eq_ld, h1.read_unread, h2.read_unread, View.ld_unit_zero (S := S2000x512) stats_hz,
    View.ld_unit_zero (S := S1x512) stats_hz]

/-- Away from the first point, the second running row becomes itself plus the column sums of the block's squares. -/
theorem stats_out_B_2 {F : FTy → Type} [FloatOps F] (c : Dev nD) (i : grid0.Coords)
    (a1 : Memref sig .tc .vmem S2000x512 .f32) (h1 : a1.IsWhole) (a2 : Memref sig .tc .vmem S1x512 .f32) (h2 : a2.IsWhole)
    (a3 : Memref sig .tc .vmem S1x512 .f32) (h3 : a3.IsWhole) (hc : ¬cond0_0 i)
    (x : Vec F S2000x512 .f32) (xo1 xo2 : Vec F S1x512 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  sl_unfold_words
  rw [View.canon_unit_zero stats_hz]
  simp only [View.readAt_eq_ld, h1.read_unread, h3.read_unread, View.ld_unit_zero (S := S2000x512) stats_hz,
    View.ld_unit_zero (S := S1x512) stats_hz]

/-- At the first point, the first running row becomes the zero row plus the block's column sums. -/
theorem stats_out_A_1 {F : FTy → Type} [FloatOps F] (c : Dev nD) (i : grid0.Coords)
    (a1 : Memref sig .tc .vmem S2000x512 .f32) (h1 : a1.IsWhole) (a2 : Memref sig .tc .vmem S1x512 .f32) (h2 : a2.IsWhole)
    (a3 : Memref sig .tc .vmem S1x512 .f32) (h3 : a3.IsWhole) (hc : cond0_0 i)
    (x : Vec F S2000x512 .f32) :
    out0_A_1 c i a1 h1 a2 h2 a3 h3 hc x = k0_pay3 x k0_pay1 := by
  unfold out0_A_1
  rw [View.read_writes_eq_canon _ _ _ (cover0_A_1 c i a1 h1 a2 h2 a3 h3 hc x)]
  unfold kernelRun0_A
  dsimp only
  sl_unfold_words
  rw [View.canon_cons_unit_zero (S := S1x512) stats_hz, View.readCov_unit_zero (S := S1x512) _ stats_hz]
  simp only [View.readAt_eq_ld, h1.read_unread, View.ld_unit_zero (S := S2000x512) stats_hz]

/-- At the first point, the second running row becomes the zero row plus the column sums of the block's squares. -/
theorem stats_out_A_2 {F : FTy → Type} [FloatOps F] (c : Dev nD) (i : grid0.Coords)
    (a1 : Memref sig .tc .vmem S2000x512 .f32) (h1 : a1.IsWhole) (a2 : Memref sig .tc .vmem S1x512 .f32) (h2 : a2.IsWhole)
    (a3 : Memref sig .tc .vmem S1x512 .f32) (h3 : a3.IsWhole) (hc : cond0_0 i)
    (x : Vec F S2000x512 .f32) :
    out0_A_2 c i a1 h1 a2 h2 a3 h3 hc x = k0_pay4 x k0_pay2 := by
  unfold out0_A_2
  rw [View.read_writes_eq_canon _ _ _ (cover0_A_2 c i a1 h1 a2 h2 a3 h3 hc x)]
  unfold kernelRun0_A
  dsimp only
  sl_unfold_words
  rw [View.canon_cons_unit_zero (S := S1x512) stats_hz, View.readCov_unit_zero (S := S1x512) _ stats_hz]
  simp only [View.readAt_eq_ld, h1.read_unread, View.ld_unit_zero (S := S2000x512) stats_hz]

open Idealize.ShloMosaic.ValueIdx

/-! ## The two updates, index by index over the extended reals -/

/-- Putting row k back in front of column j gives the block index (k, j). -/
theorem stats_lift_eq (j : Fin 512) (k : Fin 2000) : reduces_S2000x512_S512.lift (ix1 j) k = ix2 k j := by
  funext a
  apply Fin.ext
  match a with
  | ⟨0, _⟩ => rfl
  | ⟨1, _⟩ => rfl

/-- The update of the first running row at column j: the old entry plus the block's column sum. -/
theorem stats_pay3_apply (x : Vec Ideal S2000x512 .f32) (xo : Vec Ideal S1x512 .f32) (u : Fin 1) (j : Fin 512) :
    k0_pay3 (F := Ideal) x xo (ix2 u j) = xo (ix2 u j) + ∑ r : Fin 2000, x (ix2 r j) := by
  unfold k0_pay3
  refine (addf_apply _ _ _).trans ?_
  refine congrArg₂ (· + ·) ?_ ?_
  · exact congrFun (shapeCast_self xo _) (ix2 u j)
  · refine (shapeCast_a_1a_apply _ _ u j).trans ?_
    refine (Ideal.multiReduction_add_single x 0x00000000#32 reduces_S2000x512_S512 (.inl rfl) rfl (ix1 j)).trans ?_
    exact Finset.sum_congr rfl fun k _ => congrArg x (stats_lift_eq j k)

/-- The update of the second running row at column j: the old entry plus the column sum of the block's squares. -/
theorem stats_pay4_apply (x : Vec Ideal S2000x512 .f32) (xo : Vec Ideal S1x512 .f32) (u : Fin 1) (j : Fin 512) :
    k0_pay4 (F := Ideal) x xo (ix2 u j) = xo (ix2 u j) + ∑ r : Fin 2000, x (ix2 r j) * x (ix2 r j) := by
  unfold k0_pay4
  refine (addf_apply _ _ _).trans ?_
  refine congrArg₂ (· + ·) ?_ ?_
  · exact congrFun (shapeCast_self xo _) (ix2 u j)
  · refine (shapeCast_a_1a_apply _ _ u j).trans ?_
    refine (Ideal.multiReduction_add_single (mulf x x) 0x00000000#32 reduces_S2000x512_S512 (.inl rfl) rfl (ix1 j)).trans ?_
    exact Finset.sum_congr rfl fun k _ => congrArg (fun i => x i * x i) (stats_lift_eq j k)

/-- The reset rows are zero everywhere. -/
theorem stats_pay1_apply (i : S1x512.Idx) : k0_pay1 (F := Ideal) i = 0 := Ideal.ofBits_zero_f32
theorem stats_pay2_apply (i : S1x512.Idx) : k0_pay2 (F := Ideal) i = 0 := Ideal.ofBits_zero_f32

/-! ## Regrouping n blocks of b consecutive terms into one run of b*n terms -/

theorem stats_sum_blocks {M : Type} [AddCommMonoid M] (f : ℕ → M) (b : ℕ) :
    ∀ n : ℕ, ∑ t ∈ Finset.range n, ∑ r ∈ Finset.range b, f (b * t + r) = ∑ k ∈ Finset.range (b * n), f k
  | 0 => by simp
  | n + 1 => by
    rw [Finset.sum_range_succ, stats_sum_blocks f b n, Nat.mul_succ, Finset.sum_range_add]

/-- 25 blocks of 2000 rows are the 50000 rows. -/
theorem stats_sum_rows (f : ℕ → EReal) :
    ∑ t ∈ Finset.range 25, ∑ r : Fin 2000, f (2000 * t + r.val) = ∑ k : Fin 50000, f k.val := by
  rw [Fin.sum_univ_eq_sum_range f 50000, show (50000 : ℕ) = 2000 * 25 from rfl, ← stats_sum_blocks f 2000 25]
  exact Finset.sum_congr rfl fun t _ => Fin.sum_univ_eq_sum_range (fun r => f (2000 * t + r)) 2000

variable (V : (c : Dev nD) → (b : Ref sig .tc) → Buf (Elt Ideal) ((c : Thread nD τ).loc b))

/-- The input array at its literal shape, and its block of 2000 rows at grid point t. -/
abbrev stats_xarr (c : Dev nD) : Cert.Spec.Mat 50000 512 := V c main_arg0
abbrev stats_xblk (c : Dev nD) (t : Fin cfg0.N) : Vec Ideal S2000x512 .f32 := iblk0 V c 0 t

/-- Entry (k, j) of x for a plain natural k, zero past the last row: lets sums over rows be indexed by naturals. -/
def stats_rowAt (x : Cert.Spec.Mat 50000 512) (k : ℕ) (j : Fin 512) : EReal :=
  if h : k < 50000 then x (ix2 ⟨k, h⟩ j) else 0

/-- Row r of block t is row 2000*t + r of x: a block's coordinate is block index times block size plus the
    coordinate inside the block, and the block index along the rows is the grid point, along the columns zero. -/
theorem stats_xblk_apply (c : Dev nD) (t : Fin cfg0.N) (r : Fin 2000) (j : Fin 512) :
    stats_xblk V c t (ix2 r j) = stats_rowAt (stats_xarr V c) (2000 * t.val + r.val) j := by
  have hN : t.val < 25 := lt_of_lt_of_eq t.isLt (show cfg0.N = 25 from N_0)
  have hi : win0_0.index t 0 = t.val ∧ win0_0.index t 1 = 0 :=
    (by decide +kernel : ∀ t : Fin grid0.N, win0_0.index t 0 = t.val ∧ win0_0.index t 1 = 0) t
  have hr : r.val < 2000 := r.isLt
  have hlt : 2000 * t.val + r.val < 50000 := by omega
  unfold stats_rowAt
  rw [dif_pos hlt]
  unfold stats_xblk stats_xarr iblk0
  rw [View.read_apply]
  show V c main_arg0 _ = V c main_arg0 _
  congr 1
  funext a
  apply Fin.ext
  match a with
  | ⟨0, _⟩ => show win0_0.index t 0 * 2000 + 1 * r.val = 2000 * t.val + r.val; rw [hi.1]; omega
  | ⟨1, _⟩ => show win0_0.index t 1 * 512 + 1 * j.val = j.val; rw [hi.2]; omega

/-- THE INVARIANT. After point n the two running rows hold, at column j, the sum over the first n+1 blocks of the
    block's column sum of x, and of x*x. By induction on the point: the first point starts from zero, every later
    point adds its block to what the point before left. -/
theorem stats_outs_inv (c : Dev nD) : ∀ (n : ℕ) (h : n < cfg0.N) (u : Fin 1) (j : Fin 512),
    (outsAt0 V c n h).1 (ix2 u j)
        = ∑ t ∈ Finset.range (n + 1), ∑ r : Fin 2000, stats_rowAt (stats_xarr V c) (2000 * t + r.val) j
    ∧ (outsAt0 V c n h).2 (ix2 u j)
        = ∑ t ∈ Finset.range (n + 1), ∑ r : Fin 2000,
            stats_rowAt (stats_xarr V c) (2000 * t + r.val) j * stats_rowAt (stats_xarr V c) (2000 * t + r.val) j
  | 0, h, u, j => by
    rw [outsAt0_A V c ⟨0, h⟩ rfl]
    dsimp only
    constructor
    · refine (congrFun (stats_out_A_1 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) ((hcond0_0 ⟨0, h⟩).mpr rfl) (iblk0 V c 0 ⟨0, h⟩)) (ix2 u j)).trans ?_
      refine (stats_pay3_apply _ _ u j).trans ?_
      rw [stats_pay1_apply, zero_add, Finset.sum_range_one]
      exact Finset.sum_congr rfl fun r _ => stats_xblk_apply V c ⟨0, h⟩ r j
    · refine (congrFun (stats_out_A_2 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) ((hcond0_0 ⟨0, h⟩).mpr rfl) (iblk0 V c 0 ⟨0, h⟩)) (ix2 u j)).trans ?_
      refine (stats_pay4_apply _ _ u j).trans ?_
      rw [stats_pay2_apply, zero_add, Finset.sum_range_one]
      exact Finset.sum_congr rfl fun r _ => congrArg (fun e => e * e) (stats_xblk_apply V c ⟨0, h⟩ r j)
  | n + 1, h, u, j => by
    have hN : cfg0.N = 25 := N_0
    have hB : ¬(⟨n + 1, h⟩ : Fin cfg0.N).val % 25 = 0 := by dsimp only; omega
    have ih := stats_outs_inv c n (Nat.lt_of_succ_lt h) u j
    rw [outsAt0_B V c ⟨n + 1, h⟩ hB]
    dsimp only
    constructor
    · refine (congrFun (stats_out_B_1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (fun hh => hB ((hcond0_0 ⟨n + 1, h⟩).mp hh)) (iblk0 V c 0 ⟨n + 1, h⟩)
        (outsAt0 V c n (Nat.lt_of_succ_lt h)).1 (outsAt0 V c n (Nat.lt_of_succ_lt h)).2) (ix2 u j)).trans ?_
      refine (stats_pay3_apply _ _ u j).trans ?_
      rw [Finset.sum_range_succ _ (n + 1)]
      exact congrArg₂ (· + ·) ih.1 (Finset.sum_congr rfl fun r _ => stats_xblk_apply V c ⟨n + 1, h⟩ r j)
    · refine (congrFun (stats_out_B_2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (fun hh => hB ((hcond0_0 ⟨n + 1, h⟩).mp hh)) (iblk0 V c 0 ⟨n + 1, h⟩)
        (outsAt0 V c n (Nat.lt_of_succ_lt h)).1 (outsAt0 V c n (Nat.lt_of_succ_lt h)).2) (ix2 u j)).trans ?_
      refine (stats_pay4_apply _ _ u j).trans ?_
      rw [Finset.sum_range_succ _ (n + 1)]
      exact congrArg₂ (· + ·) ih.2 (Finset.sum_congr rfl fun r _ => congrArg (fun e => e * e) (stats_xblk_apply V c ⟨n + 1, h⟩ r j))

/-- The last grid point exists. -/
theorem stats_h24 : 24 < cfg0.N := by rw [show cfg0.N = 25 from N_0]; decide

/-- After the last point the first running row is the column sums of x over all 50000 rows: the invariant at
    n = 24, the 25 blocks regrouped into one run of rows. -/
theorem stats_last_1 (c : Dev nD) (h : 24 < cfg0.N) : (outsAt0 V c 24 h).1 = Cert.Spec.colSum (V c main_arg0) := by
  funext i
  obtain ⟨u, j, rfl⟩ : ∃ (u : Fin 1) (j : Fin 512), i = ix2 u j := ⟨i 0, i 1, eq_ix2 i⟩
  refine (stats_outs_inv V c 24 h u j).1.trans ?_
  refine (stats_sum_rows (fun k => stats_rowAt (stats_xarr V c) k j)).trans ?_
  unfold Cert.Spec.colSum
  refine Finset.sum_congr rfl fun k _ => ?_
  unfold stats_rowAt
  exact (dif_pos k.isLt).trans rfl

/-- Likewise the second running row is the column sums of x*x. -/
theorem stats_last_2 (c : Dev nD) (h : 24 < cfg0.N) : (outsAt0 V c 24 h).2 = Cert.Spec.colSumSq (V c main_arg0) := by
  funext i
  obtain ⟨u, j, rfl⟩ : ∃ (u : Fin 1) (j : Fin 512), i = ix2 u j := ⟨i 0, i 1, eq_ix2 i⟩
  refine (stats_outs_inv V c 24 h u j).2.trans ?_
  refine (stats_sum_rows (fun k => stats_rowAt (stats_xarr V c) k j * stats_rowAt (stats_xarr V c) k j)).trans ?_
  unfold Cert.Spec.colSumSq
  refine Finset.sum_congr rfl fun k _ => ?_
  unfold stats_rowAt
  exact (congrArg (fun e => e * e) (dif_pos k.isLt)).trans rfl

/-- The one write-back of output 1, at the last point, writes the column sums: its block is the whole [1,512] array
    read through zero offsets. -/
theorem stats_flushed_1 (c : Dev nD) (t : Fin cfg0.N) (hf : (cfg0.win 1).flush t = true) :
    (dat0 (F := Ideal) V c).flushed 1 t = ((cfg0.win 1).blk t).view.read (Elt Ideal) (Cert.Spec.colSum (V c main_arg0)) := by
  have hN : cfg0.N = 25 := N_0
  have ht : t.val = 24 := by have := (flush0_1 t).mp hf; have := t.isLt; omega
  obtain rfl : t = ⟨24, stats_h24⟩ := Fin.ext ht
  show (cfg0.win 1).cut (grid0.coords ⟨24, stats_h24⟩) ((dat0 (F := Ideal) V c).after 1 ⟨24, stats_h24⟩) = _
  rw [after0_1, stats_last_1 V c]
  have hz' : (fun a => win0_1.index ⟨24, stats_h24⟩ a * main_v0_0.ty.shape.size a) = fun _ => 0 :=
    funext fun a => by fin_cases a <;> decide +kernel
  exact (Memref.read_access_unit_zero (Elt Ideal) main_v0_0 hz' (fun a => by rw [congrFun hz' a]; simp)
    (Cert.Spec.colSum (V c main_arg0))).symm

/-- The one write-back of output 2 writes the column sums of squares. -/
theorem stats_flushed_2 (c : Dev nD) (t : Fin cfg0.N) (hf : (cfg0.win 2).flush t = true) :
    (dat0 (F := Ideal) V c).flushed 2 t = ((cfg0.win 2).blk t).view.read (Elt Ideal) (Cert.Spec.colSumSq (V c main_arg0)) := by
  have hN : cfg0.N = 25 := N_0
  have ht : t.val = 24 := by have := (flush0_2 t).mp hf; have := t.isLt; omega
  obtain rfl : t = ⟨24, stats_h24⟩ := Fin.ext ht
  show (cfg0.win 2).cut (grid0.coords ⟨24, stats_h24⟩) ((dat0 (F := Ideal) V c).after 2 ⟨24, stats_h24⟩) = _
  rw [after0_2, stats_last_2 V c]
  have hz' : (fun a => win0_2.index ⟨24, stats_h24⟩ a * main_v0_1.ty.shape.size a) = fun _ => 0 :=
    funext fun a => by fin_cases a <;> decide +kernel
  exact (Memref.read_access_unit_zero (Elt Ideal) main_v0_1 hz' (fun a => by rw [congrFun hz' a]; simp)
    (Cert.Spec.colSumSq (V c main_arg0))).symm

/-- Every index of the [1,512] result lies in the last point's block, so the array ends holding what that point wrote. -/
theorem stats_final_1 (c : Dev nD) : (dat0 (F := Ideal) V c).arrAt 1 cfg0.N = Cert.Spec.colSum (V c main_arg0) :=
  (dat0 (F := Ideal) V c).arrAt_eq_of_cover 1 (Cert.Spec.colSum (V c main_arg0)) (stats_flushed_1 V c) fun i =>
    ⟨⟨24, stats_h24⟩, (flush0_1 ⟨24, stats_h24⟩).mpr rfl, by
      show i ∈ ((View.whole main_v0_0).slice (win0_1.rect ⟨24, stats_h24⟩)).set
      rw [View.set_slice_whole, Rect.mem_set_unit]
      intro a
      have h0 : (i 0 : Nat) < 1 := (i 0).isLt
      have h1 : (i 1 : Nat) < 512 := (i 1).isLt
      match a with
      | ⟨0, _⟩ =>
        show win0_1.index ⟨24, stats_h24⟩ 0 * win0_1.size 0 ≤ (i 0 : Nat)
          ∧ (i 0 : Nat) < win0_1.index ⟨24, stats_h24⟩ 0 * win0_1.size 0 + win0_1.xsize (grid0.coords ⟨24, stats_h24⟩) 0
        rw [show win0_1.index ⟨24, stats_h24⟩ 0 * win0_1.size 0 = 0 from by decide +kernel,
          show win0_1.xsize (grid0.coords ⟨24, stats_h24⟩) 0 = 1 from by decide +kernel]; omega
      | ⟨1, _⟩ =>
        show win0_1.index ⟨24, stats_h24⟩ 1 * win0_1.size 1 ≤ (i 1 : Nat)
          ∧ (i 1 : Nat) < win0_1.index ⟨24, stats_h24⟩ 1 * win0_1.size 1 + win0_1.xsize (grid0.coords ⟨24, stats_h24⟩) 1
        rw [show win0_1.index ⟨24, stats_h24⟩ 1 * win0_1.size 1 = 0 from by decide +kernel,
          show win0_1.xsize (grid0.coords ⟨24, stats_h24⟩) 1 = 512 from by decide +kernel]; omega⟩

theorem stats_final_2 (c : Dev nD) : (dat0 (F := Ideal) V c).arrAt 2 cfg0.N = Cert.Spec.colSumSq (V c main_arg0) :=
  (dat0 (F := Ideal) V c).arrAt_eq_of_cover 2 (Cert.Spec.colSumSq (V c main_arg0)) (stats_flushed_2 V c) fun i =>
    ⟨⟨24, stats_h24⟩, (flush0_2 ⟨24, stats_h24⟩).mpr rfl, by
      show i ∈ ((View.whole main_v0_1).slice (win0_2.rect ⟨24, stats_h24⟩)).set
      rw [View.set_slice_whole, Rect.mem_set_unit]
      intro a
      have h0 : (i 0 : Nat) < 1 := (i 0).isLt
      have h1 : (i 1 : Nat) < 512 := (i 1).isLt
      match a with
      | ⟨0, _⟩ =>
        show win0_2.index ⟨24, stats_h24⟩ 0 * win0_2.size 0 ≤ (i 0 : Nat)
          ∧ (i 0 : Nat) < win0_2.index ⟨24, stats_h24⟩ 0 * win0_2.size 0 + win0_2.xsize (grid0.coords ⟨24, stats_h24⟩) 0
        rw [show win0_2.index ⟨24, stats_h24⟩ 0 * win0_2.size 0 = 0 from by decide +kernel,
          show win0_2.xsize (grid0.coords ⟨24, stats_h24⟩) 0 = 1 from by decide +kernel]; omega
      | ⟨1, _⟩ =>
        show win0_2.index ⟨24, stats_h24⟩ 1 * win0_2.size 1 ≤ (i 1 : Nat)
          ∧ (i 1 : Nat) < win0_2.index ⟨24, stats_h24⟩ 1 * win0_2.size 1 + win0_2.xsize (grid0.coords ⟨24, stats_h24⟩) 1
        rw [show win0_2.index ⟨24, stats_h24⟩ 1 * win0_2.size 1 = 0 from by decide +kernel,
          show win0_2.xsize (grid0.coords ⟨24, stats_h24⟩) 1 = 512 from by decide +kernel]; omega⟩

theorem stats_sum (c : Dev nD) : (dat0 (F := Ideal) V c).arrAt 1 cfg0.N = Cert.Spec.colSum (V c main_arg0) := stats_final_1 V c

theorem stats_sumsq (c : Dev nD) : (dat0 (F := Ideal) V c).arrAt 2 cfg0.N = Cert.Spec.colSumSq (V c main_arg0) := stats_final_2 V c

end Cert.KernelIdeal.Val

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.Layer1.lean ====
/-
  Layer 1 of the network, on the device side. The kernel walks the 50000 rows in 25 blocks of 2000. At each block it
  subtracts the mean row from the rows of x and multiplies by the reciprocal-deviation row, replaces every entry by
  its sign times the row's mean absolute value (the lane sum of |z| divided by the float 512.0), and multiplies the
  2000 x 512 result by the 512 x 128 weights. Read entry by entry this is, at (p, q), the sum over k of
  sign(z p k) * (sum over k' of max (z p k') (-(z p k'))) / 512.0 * w k q, with z the normalised block; row p of
  block t is row 2000 t + p of the array, the small operands are whole at every block, and the 25 row blocks tile the
  output. Hence the output array after the 25 points is the specification's layer 1 of the four input arrays.
-/
import proofs.«134459_j27161373180324_1_alg».proof.Proof.Gen.KernelIdeal.Frame
import proofs.«134459_j27161373180324_1_alg».proof.Proof.Spec
import proofs.«134459_j27161373180324_1_alg».proof.Proof.LibPlainDot
import Idealize.ShloMosaic.Lib.Pipeline.Value
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen
open Idealize.ShloMosaic.ValueIdx

/-! ## The body's arithmetic at one entry of the block -/

/-- The index the lane reduction inserts: row p of the reduced vector with lane k put back is entry (p, k). -/
theorem layer1_lift_row (p : Fin 2000) (k : Fin 512) :
    reduces_S2000x512_S2000.lift (ix1 p) k = ix2 p k := by
  funext a; apply Fin.ext
  match a with
  | ⟨0, _⟩ => rfl
  | ⟨1, _⟩ => rfl

/-- The lane sum of the absolute values of a block, at row p. -/
theorem layer1_rowAbsSum (v : FVec Ideal S2000x512 .f32) (p : Fin 2000) :
    multiReduction (F := Ideal) .add [1] S2000 (absf v) 0x00000000#32 reduces_S2000x512_S2000 (.inl rfl) rfl (ix1 p)
      = ∑ k : Fin 512, max (v (ix2 p k)) (-(v (ix2 p k))) := by
  refine (Ideal.multiReduction_add_single (absf v) 0x00000000#32 reduces_S2000x512_S2000 (.inl rfl) rfl (ix1 p)).trans ?_
  refine Finset.sum_congr rfl fun k _ => ?_
  show FloatOps.absf (v (reduces_S2000x512_S2000.lift (ix1 p) k)) = _
  rw [layer1_lift_row p k, Ideal.absf_def]

/-- A vector of 2000 row values laid out as a column reads, at (p, 0), row p's value. -/
theorem layer1_colCast (u : FVec Ideal S2000 .f32) (p : Fin 2000) (z : Fin 1) :
    shapeCast S2000x1 u shapeCasts_S2000_S2000x1 (ix2 p z) = u (ix1 p) :=
  shapeCast_apply u _ _ _ (by
    have hz : z.val = 0 := by omega
    rw [Shape.rowMajor_val_two, Shape.rowMajor_val_one]
    show p.val = p.val * 1 + z.val
    omega)

/-- A column broadcast along the 512 lanes reads, at (p, k), the column's entry p. -/
theorem layer1_colBroadcast (u : FVec Ideal S2000x1 .f32) (p : Fin 2000) (k : Fin 512) :
    broadcastTo S2000x512 u broadcasts_S2000x1_S2000x512 (ix2 p k) = u (ix2 p (0 : Fin 1)) := by
  refine broadcastTo_apply u _ (ix2 p k) (ix2 p (0 : Fin 1)) fun ax => ?_
  match ax with
  | ⟨0, _⟩ => rfl
  | ⟨1, _⟩ => rfl

/-- The normalised block: the input block minus the mean row, times the reciprocal-deviation row. -/
abbrev layer1_bnBlock (x0 : FVec Ideal S2000x512 .f32) (x1 x2 : FVec Ideal S1x512 .f32) : FVec Ideal S2000x512 .f32 :=
  mulf (subf x0 (broadcastTo S2000x512 (shapeCast S1x512 x1 shapeCasts_S1x512_S1x512) broadcasts_S1x512_S2000x512))
    (broadcastTo S2000x512 (shapeCast S1x512 x2 shapeCasts_S1x512_S1x512) broadcasts_S1x512_S2000x512)

theorem layer1_bnBlock_apply (x0 : FVec Ideal S2000x512 .f32) (x1 x2 : FVec Ideal S1x512 .f32) (p : Fin 2000) (k : Fin 512) :
    layer1_bnBlock x0 x1 x2 (ix2 p k) = (x0 (ix2 p k) - x1 (ix2 (0 : Fin 1) k)) * x2 (ix2 (0 : Fin 1) k) := by
  unfold layer1_bnBlock
  rw [mulf_apply, subf_apply, shapeCast_self, shapeCast_self, broadcastTo_1b_ab_apply, broadcastTo_1b_ab_apply]

/-- The binarised block of a block v: the sign term times the row's mean absolute value, narrowed (the identity). -/
abbrev layer1_binBlock (v : FVec Ideal S2000x512 .f32) : FVec Ideal S2000x512 .bf16 :=
  truncf .bf16 (mulf
    (select (cmpf .ogt (absf v) (broadcast S2000x512 (Scalar.ofBits .f32 0x00000000#32)))
      (select (cmpf .olt v (constant S2000x512 .f32 0x00000000#32)) (constant S2000x512 .f32 0xBF800000#32) (constant S2000x512 .f32 0x3F800000#32)) v)
    (broadcastTo S2000x512 (divf (shapeCast S2000x1 (multiReduction .add [1] S2000 (absf v) 0x00000000#32 reduces_S2000x512_S2000 (.inl rfl) rfl) shapeCasts_S2000_S2000x1)
      (broadcast S2000x1 (Scalar.ofBits .f32 0x44000000#32))) broadcasts_S2000x1_S2000x512)) bitsLt_bf16_f32

theorem layer1_binBlock_apply (v : FVec Ideal S2000x512 .f32) (p : Fin 2000) (k : Fin 512) :
    layer1_binBlock v (ix2 p k) = Ideal.sign (v (ix2 p k))
      * Ideal.div (∑ k' : Fin 512, max (v (ix2 p k')) (-(v (ix2 p k')))) (Ideal.ofBits .f32 0x44000000#32) := by
  unfold layer1_binBlock
  rw [truncf_apply, mulf_apply, layer1_colBroadcast, divf_apply, layer1_colCast, layer1_rowAbsSum, broadcast_apply]
  exact congrArg (· * _) (Ideal.jnp_sign_eq_sign_f32 (v (ix2 p k)))

/-- The body's payload is the product of the binarised normalised block with the weights. -/
theorem layer1_pay_eq (x0 : Vec Ideal S2000x512 .f32) (x1 x2 : Vec Ideal S1x512 .f32) (x3 : Vec Ideal S512x128 .bf16) :
    k1_pay1 (F := Ideal) x0 x1 x2 x3
      = matmul dot_S2000x512_S512x128_S2000x128_1_0_0_1_n_n none (layer1_binBlock (layer1_bnBlock x0 x1 x2))
          (shapeCast S512x128 x3 shapeCasts_S512x128_S512x128 : FVec Ideal S512x128 .bf16) (constant S2000x128 .f32 0x00000000#32) := rfl

/-- The payload at entry (p, q). -/
theorem layer1_pay_apply (x0 : Vec Ideal S2000x512 .f32) (x1 x2 : Vec Ideal S1x512 .f32) (x3 : Vec Ideal S512x128 .bf16)
    (p : Fin 2000) (q : Fin 128) :
    k1_pay1 (F := Ideal) x0 x1 x2 x3 (ix2 p q)
      = ∑ k : Fin 512, (Ideal.sign ((x0 (ix2 p k) - x1 (ix2 (0 : Fin 1) k)) * x2 (ix2 (0 : Fin 1) k))
          * Ideal.div (∑ k' : Fin 512, max ((x0 (ix2 p k') - x1 (ix2 (0 : Fin 1) k')) * x2 (ix2 (0 : Fin 1) k'))
              (-((x0 (ix2 p k') - x1 (ix2 (0 : Fin 1) k')) * x2 (ix2 (0 : Fin 1) k')))) (Ideal.ofBits .f32 0x44000000#32))
          * x3 (ix2 k q) := by
  rw [layer1_pay_eq]
  refine (Cert.PlainDot.matmul_zero_apply dot_S2000x512_S512x128_S2000x128_1_0_0_1_n_n rfl none _ _ p q).trans ?_
  refine Finset.sum_congr rfl fun k _ => ?_
  rw [shapeCast_self, layer1_binBlock_apply]
  simp only [layer1_bnBlock_apply]

/-! ## One entry of a block against the specification -/

/-- If the loaded x block's row p is row r of the array, and the three whole-array windows hold the mean row, the
    reciprocal-deviation row and the weights, the payload at (p, q) is layer 1 of the arrays at (r, q). -/
theorem layer1_block_entry (X : Cert.Spec.Mat 50000 512) (mu rs : Cert.Spec.Mat 1 512) (w : Cert.Spec.Mat 512 128)
    (x0 : Vec Ideal S2000x512 .f32) (x1 x2 : Vec Ideal S1x512 .f32) (x3 : Vec Ideal S512x128 .bf16)
    (r : Fin 50000) (p : Fin 2000) (q : Fin 128)
    (h0 : ∀ k : Fin 512, x0 (ix2 p k) = X (ix2 r k)) (h1 : x1 = mu) (h2 : x2 = rs) (h3 : x3 = w) :
    k1_pay1 (F := Ideal) x0 x1 x2 x3 (ix2 p q) = Cert.Spec.layer1 X mu rs w (ix2 r q) := by
  subst h1 h2 h3
  rw [layer1_pay_apply]
  simp only [h0]
  rfl

/-! ## From the 25 row blocks to the array -/

variable (V : (c : Dev nD) → (b : Ref sig .tc) → Buf (Elt Ideal) ((c : Thread nD τ).loc b))

theorem layer1_zero_off : (![0, 0] : Fin 2 → Nat) = fun _ => 0 := funext fun a => by fin_cases a <;> rfl

/-- The printed block-index maps over the grid: the x window and the output window sit at row block t, column block 0;
    the three small windows at block (0, 0) at every point. -/
theorem layer1_idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is row block t of layer 1 of the arrays as the region finds them. -/
theorem layer1_flushed_eq (c : Dev nD) (t : Fin cfg1.N) :
    (dat1 (F := Ideal) V c).flushed 4 t = ((cfg1.win 4).blk t).view.read (Elt Ideal)
      (Cert.Spec.layer1 (V c main_arg0) (V c main_v2) (V c main_v9) (V c main_v18)) := by
  show (cfg1.win 4).cut (grid1.coords t) ((dat1 V c).after 4 t) = _
  rw [after1_4]
  unfold out1_4
  rw [View.canon_unit_zero layer1_zero_off]
  simp only [View.ld_unit_zero (S := S2000x512) layer1_zero_off, View.ld_unit_zero (S := S1x512) layer1_zero_off,
    View.ld_unit_zero (S := S512x128) layer1_zero_off]
  obtain ⟨e00, e01, e10, e11, e20, e21, e30, e31, e40, e41⟩ := layer1_idx_facts t
  have hN : t.val < 25 := Nat.lt_of_lt_of_eq t.isLt N_1
  funext j
  obtain ⟨p, q, rfl⟩ : ∃ (p : Fin 2000) (q : Fin 128), j = ix2 p q := ⟨j 0, j 1, eq_ix2 j⟩
  have hr : ((cfg1.win 4).blk t).view.emb (ix2 p q) = ix2 (⟨t.val * 2000 + p.val, by omega⟩ : Fin 50000) q := by
    funext a; apply Fin.ext
    match a with
    | ⟨0, _⟩ => show win1_4.index t (0 : Fin 2) * 2000 + 1 * p.val = t.val * 2000 + p.val; rw [e40]; omega
    | ⟨1, _⟩ => show win1_4.index t (1 : Fin 2) * 128 + 1 * q.val = q.val; rw [e41]; omega
  show k1_pay1 (F := Ideal) (iblk1 V c 0 t) (iblk1 V c 1 t) (iblk1 V c 2 t) (iblk1 V c 3 t) (ix2 p q)
    = Cert.Spec.layer1 (V c main_arg0) (V c main_v2) (V c main_v9) (V c main_v18) (((cfg1.win 4).blk t).view.emb (ix2 p q))
  rw [hr]
  refine layer1_block_entry _ _ _ _ _ _ _ _ _ p q (fun k => ?_) ?_ ?_ ?_
  · show V c main_arg0 (((cfg1.win 0).blk t).view.emb (ix2 p k)) = V c main_arg0 _
    refine congrArg _ (funext fun a => Fin.ext ?_)
    match a with
    | ⟨0, _⟩ => show win1_0.index t (0 : Fin 2) * 2000 + 1 * p.val = t.val * 2000 + p.val; rw [e00]; omega
    | ⟨1, _⟩ => show win1_0.index t (1 : Fin 2) * 512 + 1 * k.val = k.val; rw [e01]; omega
  · funext y
    show V c main_v2 (((cfg1.win 1).blk t).view.emb y) = V c main_v2 y
    refine congrArg _ (funext fun a => Fin.ext ?_)
    match a with
    | ⟨0, _⟩ => show win1_1.index t (0 : Fin 2) * 1 + 1 * (y 0).val = (y 0).val; rw [e10]; omega
    | ⟨1, _⟩ => show win1_1.index t (1 : Fin 2) * 512 + 1 * (y 1).val = (y 1).val; rw [e11]; omega
  · funext y
    show V c main_v9 (((cfg1.win 2).blk t).view.emb y) = V c main_v9 y
    refine congrArg _ (funext fun a => Fin.ext ?_)
    match a with
    | ⟨0, _⟩ => show win1_2.index t (0 : Fin 2) * 1 + 1 * (y 0).val = (y 0).val; rw [e20]; omega
    | ⟨1, _⟩ => show win1_2.index t (1 : Fin 2) * 512 + 1 * (y 1).val = (y 1).val; rw [e21]; omega
  · funext y
    show V c main_v18 (((cfg1.win 3).blk t).view.emb y) = V c main_v18 y
    refine congrArg _ (funext fun a => Fin.ext ?_)
    match a with
    | ⟨0, _⟩ => show win1_3.index t (0 : Fin 2) * 512 + 1 * (y 0).val = (y 0).val; rw [e30]; omega
    | ⟨1, _⟩ => show win1_3.index t (1 : Fin 2) * 128 + 1 * (y 1).val = (y 1).val; rw [e31]; omega

/-- An index of the output array is in point t's block iff each coordinate is in the block's range on its axis. -/
theorem layer1_mem_blk (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v19).slice (win1_4.rect t)).set ↔ _
  rw [View.set_slice_whole, Rect.mem_set_unit]
  exact Iff.rfl

/-- Every index of the output array is in the block of the point its row falls in: row r in block r / 2000. -/
theorem layer1_covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  have ht : (i 0).val / 2000 < cfg1.N := by rw [hN]; omega
  obtain ⟨-, -, -, -, -, -, -, -, e40, e41⟩ := layer1_idx_facts ⟨(i 0).val / 2000, ht⟩
  refine ⟨⟨(i 0).val / 2000, ht⟩, flush1_4 _, ?_⟩
  rw [layer1_mem_blk]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    rw [e40]
    show (i 0).val / 2000 * 2000 ≤ (i 0).val ∧ (i 0).val < (i 0).val / 2000 * 2000 + 2000
    omega
  | ⟨1, _⟩ =>
    show win1_4.index ⟨(i 0).val / 2000, ht⟩ (1 : Fin 2) * 128 ≤ (i 1).val
      ∧ (i 1).val < win1_4.index ⟨(i 0).val / 2000, ht⟩ (1 : Fin 2) * 128 + 128
    rw [e41]; omega

theorem layer1_out (c : Dev nD) : (dat1 (F := Ideal) V c).arrAt 4 cfg1.N
    = Cert.Spec.layer1 (V c main_arg0) (V c main_v2) (V c main_v9) (V c main_v18) :=
  (dat1 (F := Ideal) V c).arrAt_eq_of_cover 4 _ (fun t _ => layer1_flushed_eq V c t) layer1_covered

end Cert.KernelIdeal.Val

end
-- ==== Proof.Layer2.lean ====
/-
  The second dense layer, block by block. At each of the 25 grid points the body reads 2000 rows of the input z
  and the whole 128 by 64 weight matrix w, and stores one 2000 by 64 block: every entry of a row is replaced by its
  sign times the row's mean absolute value (the row sum of |z| over the float 128), and the binarised rows are
  contracted with w. Read at an entry (p, q) that block is the sum over k of sign(z(r, k)) * (sum of |z(r, .)| / 128)
  * w(k, q), with r = 2000 t + p the row of the array the block's row p sits at. Since point t writes back exactly
  the rows 2000 t .. 2000 t + 1999 and every row r lies in the block of point r / 2000, the output array after the
  25 points is that function of z and w at every index, whatever the arrays held on entry.
-/
import proofs.«134459_j27161373180324_1_alg».proof.Proof.Gen.KernelIdeal.Frame
import proofs.«134459_j27161373180324_1_alg».proof.Proof.Spec
import proofs.«134459_j27161373180324_1_alg».proof.Proof.LibPlainDot
import Idealize.ShloMosaic.Lib.Pipeline.Value
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen
open Idealize.ShloMosaic.ValueIdx

/-- A vector of length a recast as a column reads, at row i, the vector's entry i. -/
theorem layer2_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The row sums of absolute values, kept as a column: entry (p, 0) is the sum over the row p of |x|. -/
theorem layer2_rowAbs_apply (x : FVec Ideal S2000x128 .f32) (h : S2000x128.Reduces [1] S2000)
    (hc : S2000.ShapeCasts S2000x1) (hacc : (0x00000000#32 : BitVec 32) = 0x00000000#32) (p : Fin 2000) (z : Fin 1) :
    shapeCast S2000x1 (multiReduction (F := Ideal) .add [1] S2000 (absf x) 0x00000000#32 h (.inl rfl) hacc) hc (ix2 p z)
      = ∑ k : Fin 128, max (x (ix2 p k)) (-(x (ix2 p k))) := by
  rw [layer2_col_apply]
  refine (Ideal.multiReduction_add_single (absf x) 0x00000000#32 h (.inl rfl) hacc (ix1 p)).trans ?_
  refine Finset.sum_congr rfl fun k _ => ?_
  have e : h.lift (ix1 p) k = ix2 p k := by
    funext a; match a with | ⟨0, _⟩ => rfl | ⟨1, _⟩ => rfl
  rw [e]
  rfl

/-- The row mean of absolute values spread back over the row: entry (p, k) is the row sum of |x| over the float 128. -/
theorem layer2_rowScale_apply (x : FVec Ideal S2000x128 .f32) (h : S2000x128.Reduces [1] S2000)
    (hc : S2000.ShapeCasts S2000x1) (hacc : (0x00000000#32 : BitVec 32) = 0x00000000#32) (hb : S2000x1.Broadcasts S2000x128)
    (p : Fin 2000) (k : Fin 128) :
    broadcastTo S2000x128
        (divf (shapeCast S2000x1 (multiReduction (F := Ideal) .add [1] S2000 (absf x) 0x00000000#32 h (.inl rfl) hacc) hc)
          (broadcast S2000x1 (FloatOps.ofBits (F := Ideal) .f32 0x43000000#32))) hb (ix2 p k)
      = Ideal.div (∑ k' : Fin 128, max (x (ix2 p k')) (-(x (ix2 p k')))) (Ideal.ofBits .f32 0x43000000#32) := by
  rw [broadcastTo_apply _ hb (ix2 p k) (ix2 p (0 : Fin 1)) (fun a => by match a with | ⟨0, _⟩ => rfl | ⟨1, _⟩ => rfl)]
  rw [divf_apply, broadcast_apply, layer2_rowAbs_apply]
  rfl

/-- The body's stored block at (p, q): the binarised row p of the first block contracted with column q of the second. -/
theorem layer2_pay_apply (x0 : Vec Ideal S2000x128 .f32) (x1 : Vec Ideal S128x64 .bf16) (p : Fin 2000) (q : Fin 64) :
    k2_pay1 (F := Ideal) x0 x1 (ix2 p q)
      = ∑ k : Fin 128, (Ideal.sign (x0 (ix2 p k)) * Ideal.div (∑ k' : Fin 128, max (x0 (ix2 p k')) (-(x0 (ix2 p k')))) (Ideal.ofBits .f32 0x43000000#32)) * x1 (ix2 k q) := by
  unfold k2_pay1
  dsimp only
  refine (Cert.PlainDot.matmul_zero_apply dot_S2000x128_S128x64_S2000x64_1_0_0_1_n_n rfl none _ _ p q).trans ?_
  refine Finset.sum_congr rfl fun k _ => ?_
  rw [shapeCast_self, shapeCast_self, truncf_apply, mulf_apply]
  refine congrArg₂ (· * ·) (congrArg₂ (· * ·) ?_ ?_) rfl
  · exact Ideal.jnp_sign_eq_sign_f32 (x0 (ix2 p k))
  · exact layer2_rowScale_apply x0 _ _ _ _ p k

variable (V : (c : Dev nD) → (b : Ref sig .tc) → Buf (Elt Ideal) ((c : Thread nD τ).loc b))

/-- What the body stores at (p, q), when row p of the first block is row r of z and the second block is w:
    entry (r, q) of the dense layer on the binarised z. -/
theorem layer2_pay_eq (z : Cert.Spec.Mat 50000 128) (w : Cert.Spec.Mat 128 64) (x0 : Vec Ideal S2000x128 .f32)
    (x1 : Vec Ideal S128x64 .bf16) (p : Fin 2000) (r : Fin 50000) (q : Fin 64)
    (h0 : ∀ k : Fin 128, x0 (ix2 p k) = z (ix2 r k)) (h1 : ∀ k : Fin 128, x1 (ix2 k q) = w (ix2 k q)) :
    k2_pay1 (F := Ideal) x0 x1 (ix2 p q) = Cert.Spec.layer2 z w (ix2 r q) := by
  rw [layer2_pay_apply]
  show _ = ∑ k : Fin 128, Cert.Spec.binActAt 0x43000000#32 z r k * w (ix2 k q)
  unfold Cert.Spec.binActAt
  simp only [h0, h1]

theorem layer2_zeros : (![0, 0] : Fin 2 → Nat) = fun _ => 0 := funext fun a => by fin_cases a <;> rfl

/-- The block index maps over the 25 points: the rows' windows sit at block (t, 0), the weights' at (0, 0). -/
theorem layer2_blockIdx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the first window's block at point t is row 2000 t + p of its array. -/
theorem layer2_zblk_apply (c : Dev nD) (t : Fin cfg2.N) (p : Fin 2000) (k : Fin 128) (r : Fin 50000) (hr : r.val = t.val * 2000 + p.val) :
    (iblk2 V c 0 t : Vec Ideal S2000x128 .f32) (ix2 p k) = (V c main_v67 : S50000x128.Idx → EReal) (ix2 r k) := by
  obtain ⟨e0, e1, -⟩ := layer2_blockIdx t
  unfold iblk2
  rw [View.read_apply]
  show V c main_v67 _ = V c main_v67 _
  congr 1
  funext a; apply Fin.ext
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

/-- The second window's block is its whole array at every point. -/
theorem layer2_wblk_apply (c : Dev nD) (t : Fin cfg2.N) (k : Fin 128) (q : Fin 64) :
    (iblk2 V c 1 t : Vec Ideal S128x64 .bf16) (ix2 k q) = (V c main_v76 : S128x64.Idx → EReal) (ix2 k q) := by
  obtain ⟨-, -, e2, e3, -⟩ := layer2_blockIdx t
  unfold iblk2
  rw [View.read_apply]
  show V c main_v76 _ = V c main_v76 _
  congr 1
  funext a; apply Fin.ext
  match a with
  | ⟨0, _⟩ => show win2_1.index t (0 : Fin 2) * 128 + 1 * k.val = k.val; rw [e2]; omega
  | ⟨1, _⟩ => show win2_1.index t (1 : Fin 2) * 64 + 1 * q.val = q.val; rw [e3]; omega

/-- What point t writes back is block t of the dense layer on the binarised input array. -/
theorem layer2_flushed_eq (c : Dev nD) (t : Fin cfg2.N) :
    (dat2 (F := Ideal) V c).flushed 2 t
      = ((cfg2.win 2).blk t).view.read (Elt Ideal) (Cert.Spec.layer2 (V c main_v67) (V c main_v76)) := by
  show (cfg2.win 2).cut (grid2.coords t) ((dat2 V c).after 2 t) = _
  rw [after2_2]
  unfold out2_2
  rw [View.canon_unit_zero layer2_zeros]
  simp only [View.ld_unit_zero (S := S2000x128) layer2_zeros, View.ld_unit_zero (S := S128x64) layer2_zeros]
  obtain ⟨-, -, -, -, e4, e5⟩ := layer2_blockIdx t
  have hN : cfg2.N = 25 := N_2
  funext j
  obtain ⟨p, q, rfl⟩ : ∃ (p : Fin 2000) (q : Fin 64), j = ix2 p q := ⟨j 0, j 1, eq_ix2 j⟩
  have hp : t.val * 2000 + p.val < 50000 := by have := t.isLt; have := p.isLt; omega
  have hemb : ((cfg2.win 2).blk t).view.emb (ix2 p q) = ix2 (⟨t.val * 2000 + p.val, hp⟩ : Fin 50000) q := by
    funext a; apply Fin.ext
    match a with
    | ⟨0, _⟩ => show win2_2.index t (0 : Fin 2) * 2000 + 1 * p.val = t.val * 2000 + p.val; rw [e4]; omega
    | ⟨1, _⟩ => show win2_2.index t (1 : Fin 2) * 64 + 1 * q.val = q.val; rw [e5]; omega
  show k2_pay1 (iblk2 V c 0 t) (iblk2 V c 1 t) (ix2 p q)
    = Cert.Spec.layer2 (V c main_v67) (V c main_v76) (((cfg2.win 2).blk t).view.emb (ix2 p q))
  rw [hemb]
  exact layer2_pay_eq _ _ _ _ p ⟨_, hp⟩ q (fun k => layer2_zblk_apply V c t p k _ rfl) (fun k => layer2_wblk_apply V c t k q)

/-- An index of the output array is in point t's block iff each coordinate is in the block's range. -/
theorem layer2_mem_blk (t : Fin cfg2.N) (i : S50000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v77).slice (win2_2.rect t)).set ↔ _
  rw [View.set_slice_whole, Rect.mem_set_unit]
  exact Iff.rfl

/-- Every row r of the output array is written back by the point r / 2000. -/
theorem layer2_covered (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, e4, e5⟩ := layer2_blockIdx t
  refine ⟨t, flush2_2 t, ?_⟩
  rw [layer2_mem_blk]
  intro a
  match a with
  | ⟨0, _⟩ =>
    show win2_2.index t (0 : Fin 2) * 2000 ≤ (i 0).val ∧ (i 0).val < win2_2.index t (0 : Fin 2) * 2000 + 2000
    rw [e4, ht]; omega
  | ⟨1, _⟩ =>
    show win2_2.index t (1 : Fin 2) * 64 ≤ (i 1).val ∧ (i 1).val < win2_2.index t (1 : Fin 2) * 64 + 64
    rw [e5]; omega

theorem layer2_out (c : Dev nD) : (dat2 (F := Ideal) V c).arrAt 2 cfg2.N = Cert.Spec.layer2 (V c main_v67) (V c main_v76) :=
  (dat2 (F := Ideal) V c).arrAt_eq_of_cover 2 (Cert.Spec.layer2 (V c main_v67) (V c main_v76))
    (fun t _ => layer2_flushed_eq V c t) layer2_covered

end Cert.KernelIdeal.Val

end
-- ==== Proof.Lsm.lean ====
/-
  The last kernel normalises each row of a 50000 by 64 array in log space: from every entry it takes away the
  row's maximum (a fold of max from minus infinity) and then the logarithm of the row's sum of exponentials of the
  entries so shifted. The rows are treated 2000 at a time, twenty-five blocks in all, every block written back once.
  Here: the value one block's computation leaves at (p, q) is the row-wise log-softmax of that block; block t of the
  array is rows 2000 t .. 2000 t + 1999, and a row's maximum and exponential sum only look along the row, so each
  written block is the matching block of the log-softmax of the whole array; the blocks tile the array (row r lies
  in block r / 2000), hence the array ends holding the log-softmax of what it was given.
-/
import proofs.«134459_j27161373180324_1_alg».proof.Proof.Gen.KernelIdeal.Frame
import proofs.«134459_j27161373180324_1_alg».proof.Proof.Spec
import Idealize.ShloMosaic.Lib.Pipeline.Value
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen
open Idealize.ShloMosaic.ValueIdx

variable (V : (c : Dev nD) → (b : Ref sig .tc) → Buf (Elt Ideal) ((c : Thread nD τ).loc b))

/-! ## One block: the value at (p, q) -/

section Column
variable {α : Type}

/-- A length-a vector recast as an a by 1 column reads, at (p, u), the vector at p. -/
theorem cast_col {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- An a by 1 column spread over b columns reads, at (p, q), the column at p. -/
theorem bcast_col {a b : ℕ} (w : (⟨2, ![a, 1]⟩ : Shape).Idx → α) (h : (⟨2, ![a, 1]⟩ : Shape).Broadcasts ⟨2, ![a, b]⟩)
    (p : Fin a) (q : Fin b) : broadcastTo ⟨2, ![a, b]⟩ w h (ix2 p q) = w (ix2 p (0 : Fin 1)) := by
  refine broadcastTo_apply w h (ix2 p q) (ix2 p (0 : Fin 1)) fun ax => ?_
  match ax with
  | ⟨0, _⟩ =>
    show p.val = if a = 1 then 0 else p.val
    split
    · have := p.isLt; omega
    · rfl
  | ⟨1, _⟩ => rfl

end Column

/-- Exponential and logarithm of a vector are taken entry by entry. -/
theorem exp_at {s : Shape} {φ : FTy} (a : FVec Ideal s φ) (i : s.Idx) : exp a i = Ideal.exp (a i) := rfl
theorem log_at {s : Shape} {φ : FTy} (a : FVec Ideal s φ) (i : s.Idx) : log a i = Ideal.log (a i) := rfl

/-- The index a reduction along the second axis inserts at row p and position k is (p, k). -/
theorem lift_row (p : Fin 2000) (k : Fin 64) : reduces_S2000x64_S2000.lift (ix1 p) k = ix2 p k := by
  funext a; apply Fin.ext
  match a with
  | ⟨0, _⟩ => rfl
  | ⟨1, _⟩ => rfl

/-- The block's maximum reduction at row p is the fold of max from minus infinity along the row. -/
theorem blk_max (x0 : Vec Ideal S2000x64 .f32) (p : Fin 2000) :
    multiReduction (F := Ideal) .maximumf [1] S2000 x0 0xFF800000#32 reduces_S2000x64_S2000 (.inl rfl) rfl (ix1 p)
      = Cert.Spec.rowMax (M := 2000) (N := 64) x0 p := by
  refine (Ideal.multiReduction_maximumf_single x0 _ reduces_S2000x64_S2000 (.inl rfl) rfl (ix1 p)).trans ?_
  exact Finset.fold_congr (fun k _ => congrArg x0 (lift_row p k))

/-- The block's sum reduction at row p is the sum along the row. -/
theorem blk_sum (y : FVec Ideal S2000x64 .f32) (p : Fin 2000) :
    multiReduction (F := Ideal) .add [1] S2000 y 0x00000000#32 reduces_S2000x64_S2000 (.inl rfl) rfl (ix1 p)
      = ∑ k : Fin 64, y (ix2 p k) := by
  refine (Ideal.multiReduction_add_single y _ reduces_S2000x64_S2000 (.inl rfl) rfl (ix1 p)).trans ?_
  exact Finset.sum_congr rfl (fun k _ => congrArg y (lift_row p k))

/-- What one block's computation leaves at (p, q): the log-softmax of the block's row p at q. -/
theorem pay_apply (x0 : Vec Ideal S2000x64 .f32) (p : Fin 2000) (q : Fin 64) :
    k3_pay1 (F := Ideal) x0 (ix2 p q) = Cert.Spec.lsm (M := 2000) (N := 64) x0 (ix2 p q) := by
  unfold k3_pay1 Cert.Spec.lsm
  dsimp only
  rw [shapeCast_self]
  rw [subf_apply, subf_apply, bcast_col, bcast_col, log_at, cast_col, cast_col, blk_max, blk_sum]
  show x0 (ix2 p q) - Spec.rowMax x0 p - Ideal.log (∑ k : Fin 64, exp (subf x0 (broadcastTo S2000x64 (shapeCast S2000x1 (multiReduction (F := Ideal) .maximumf [1] S2000 x0 0xFF800000#32 reduces_S2000x64_S2000 (.inl rfl) rfl) shapeCasts_S2000_S2000x1) broadcasts_S2000x1_S2000x64)) (ix2 p k))
      = x0 (ix2 p q) - Spec.rowMax x0 p - Ideal.log (∑ k : Fin 64, Ideal.exp (x0 (ix2 p k) - Spec.rowMax x0 p))
  refine congrArg (fun s => x0 (ix2 p q) - Spec.rowMax x0 p - Ideal.log s) (Finset.sum_congr rfl fun k _ => ?_)
  rw [exp_at, subf_apply, bcast_col, cast_col, blk_max]

/-! ## A row's log-softmax looks only along the row -/

/-- Two arrays that agree along a row of each have the same log-softmax along those rows. -/
theorem lsm_row_congr {M M' N : ℕ} (z : Cert.Spec.Mat M N) (z' : Cert.Spec.Mat M' N) (p : Fin M) (p' : Fin M')
    (h : ∀ k : Fin N, z (ix2 p k) = z' (ix2 p' k)) (q : Fin N) :
    Cert.Spec.lsm z (ix2 p q) = Cert.Spec.lsm z' (ix2 p' q) := by
  have hm : Cert.Spec.rowMax z p = Cert.Spec.rowMax z' p' := Finset.fold_congr (fun k _ => h k)
  show z (ix2 p q) - Cert.Spec.rowMax z p - Ideal.log (∑ k : Fin N, Ideal.exp (z (ix2 p k) - Cert.Spec.rowMax z p))
     = z' (ix2 p' q) - Cert.Spec.rowMax z' p' - Ideal.log (∑ k : Fin N, Ideal.exp (z' (ix2 p' k) - Cert.Spec.rowMax z' p'))
  rw [hm, h q]
  exact congrArg (fun s => z' (ix2 p' q) - Cert.Spec.rowMax z' p' - Ideal.log s) (Finset.sum_congr rfl fun k _ => by rw [h k])

/-! ## From the blocks to the array -/

theorem hz : (![0, 0] : Fin 2 → Nat) = fun _ => 0 := funext fun a => by fin_cases a <;> rfl

/-- Block t of either window starts at row block t and column block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- Row p of the block loaded at point t is row 2000 t + p of the array given. -/
theorem iblk_row (c : Dev nD) (t : Fin cfg3.N) (p : Fin 2000) (k : Fin 64) (r : Fin 50000) (hr : r.val = 2000 * t.val + p.val) :
    (iblk3 (F := Ideal) V c 0 t : Vec Ideal S2000x64 .f32) (ix2 p k) = (V c main_v93 : S50000x64.Idx → EReal) (ix2 r k) := by
  obtain ⟨e0, e1, e2, e3⟩ := idx_facts t
  show V c main_v93 (((cfg3.win 0).blk t).view.emb (ix2 p k)) = V c main_v93 (ix2 r k)
  congr 1
  funext a; apply Fin.ext
  match a with
  | ⟨0, _⟩ => show win3_0.index t (0 : Fin 2) * 2000 + 1 * p.val = r.val; omega
  | ⟨1, _⟩ => show win3_0.index t (1 : Fin 2) * 64 + 1 * k.val = k.val; omega

/-- Entry (p, q) of the block written at point t sits at (2000 t + p, q) in the array. -/
theorem oblk_emb (t : Fin cfg3.N) (p : Fin 2000) (q : Fin 64) (r : Fin 50000) (hr : r.val = 2000 * t.val + p.val) :
    ((cfg3.win 1).blk t).view.emb (ix2 p q) = (ix2 r q : S50000x64.Idx) := by
  obtain ⟨e0, e1, e2, e3⟩ := idx_facts t
  funext a; apply Fin.ext
  match a with
  | ⟨0, _⟩ => show win3_1.index t (0 : Fin 2) * 2000 + 1 * p.val = r.val; omega
  | ⟨1, _⟩ => show win3_1.index t (1 : Fin 2) * 64 + 1 * q.val = q.val; omega

/-- What point t writes back is block t of the log-softmax of the array given. -/
theorem flushed_eq (c : Dev nD) (t : Fin cfg3.N) :
    (dat3 (F := Ideal) V c).flushed 1 t = ((cfg3.win 1).blk t).view.read (Elt Ideal) (Cert.Spec.lsm (V c main_v93)) := by
  show (cfg3.win 1).cut (grid3.coords t) ((dat3 (F := Ideal) V c).after 1 t) = _
  rw [after3_1]
  unfold out3_1
  rw [View.canon_unit_zero hz]
  simp only [View.ld_unit_zero (S := S2000x64) hz]
  funext j
  obtain ⟨p, q, rfl⟩ : ∃ (p : Fin 2000) (q : Fin 64), j = ix2 p q := ⟨j 0, j 1, eq_ix2 j⟩
  have hN : grid3.N = 25 := N_3
  have ht : t.val < 25 := hN ▸ t.isLt
  have hr : 2000 * t.val + p.val < 50000 := by have := p.isLt; omega
  show k3_pay1 (F := Ideal) (iblk3 (F := Ideal) V c 0 t) (ix2 p q) = Cert.Spec.lsm (V c main_v93) (((cfg3.win 1).blk t).view.emb (ix2 p q))
  rw [pay_apply, oblk_emb t p q ⟨2000 * t.val + p.val, hr⟩ rfl]
  exact lsm_row_congr _ _ p ⟨2000 * t.val + p.val, hr⟩ (fun k => iblk_row V c t p k _ rfl) q

/-- An index of the array lies in point t's block iff each coordinate is in the block's range on its axis. -/
theorem mem_blk (t : Fin cfg3.N) (i : S50000x64.Idx) :
    i ∈ ((cfg3.win 1).blk t).view.set ↔ ∀ a : Fin 2, win3_1.index t a * S2000x64.size a ≤ (i a).val ∧ (i a).val < win3_1.index t a * S2000x64.size a + S2000x64.size a := by
  show i ∈ ((View.whole main_v94).slice (win3_1.rect t)).set ↔ _
  rw [View.set_slice_whole, Rect.mem_set_unit]
  exact Iff.rfl

/-- Every index of the array is in the block of the point its row falls to: row r in block r / 2000. -/
theorem covered (i : S50000x64.Idx) : ∃ t : Fin cfg3.N, (cfg3.win 1).flush t = true ∧ i ∈ ((cfg3.win 1).blk t).view.set := by
  have hi0 : (i 0).val < 50000 := (i 0).isLt
  have hi1 : (i 1).val < 64 := (i 1).isLt
  have hN : grid3.N = 25 := N_3
  have hlt : (i 0).val / 2000 < grid3.N := by rw [hN]; omega
  refine ⟨⟨(i 0).val / 2000, hlt⟩, flush3_1 _, ?_⟩
  obtain ⟨e0, e1, e2, e3⟩ := idx_facts ⟨(i 0).val / 2000, hlt⟩
  have e2' : win3_1.index ⟨(i 0).val / 2000, hlt⟩ (0 : Fin 2) = (i 0).val / 2000 := e2
  rw [mem_blk]
  intro a
  match a with
  | ⟨0, _⟩ => show win3_1.index ⟨(i 0).val / 2000, hlt⟩ (0 : Fin 2) * 2000 ≤ (i 0).val ∧ (i 0).val < win3_1.index ⟨(i 0).val / 2000, hlt⟩ (0 : Fin 2) * 2000 + 2000; omega
  | ⟨1, _⟩ => show win3_1.index ⟨(i 0).val / 2000, hlt⟩ (1 : Fin 2) * 64 ≤ (i 1).val ∧ (i 1).val < win3_1.index ⟨(i 0).val / 2000, hlt⟩ (1 : Fin 2) * 64 + 64; omega

theorem lsm_out (c : Dev nD) : (dat3 (F := Ideal) V c).arrAt 1 cfg3.N = Cert.Spec.lsm (V c main_v93) :=
  (dat3 (F := Ideal) V c).arrAt_eq_of_cover 1 (Cert.Spec.lsm (V c main_v93)) (fun t _ => flushed_eq V c t) covered

end Cert.KernelIdeal.Val

end
-- ==== Proof.KHost.lean ====
/-
  What the kernel's host computes between its four regions, as pure functions of what the preceding region left:
  the column mean and the reciprocal standard deviation from the two column sums, the binarised weight matrices
  (sign times the column's mean absolute value, narrowed), and the two graph convolutions (gather the source rows,
  scale by the symmetric edge normalisation, scatter-add onto the targets, add the bias). Each buffer a region reads
  is the named function of earlier buffers; buffers no host operation writes are read through unchanged. The mean and
  the reciprocal standard deviation are then read index by index: s/n and (ss/n - mean*mean + eps)^(-1/2).
-/
import proofs.«134459_j27161373180324_1_alg».proof.Proof.Gen.KernelIdeal.Frame
import proofs.«134459_j27161373180324_1_alg».proof.Proof.Spec
import proofs.«134459_j27161373180324_1_alg».proof.Proof.KFn
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.HostVal

open Cert.KernelIdeal Cert.KernelIdeal.Gen

/-! ## The first stretch (before the first dense region), over any contents `V` of the buffers -/

section Stretch1
variable (V : Valuation τ sig (Elt Ideal))

theorem s1_v2 : StableHlo.after hostOps1 V (Proc.devRef .tc main_v2) = Fn.meanK (V (Proc.devRef .tc main_v0_0)) := by
  after_results

theorem s1_v9 : StableHlo.after hostOps1 V (Proc.devRef .tc main_v9)
    = Fn.rstdK (V (Proc.devRef .tc main_v0_0)) (V (Proc.devRef .tc main_v0_1)) := by
  after_results

theorem s1_v18 : StableHlo.after hostOps1 V (Proc.devRef .tc main_v18) = Fn.wbin1 (V (Proc.devRef .tc main_arg2)) := by
  after_results

theorem s1_arg0 : StableHlo.after hostOps1 V (Proc.devRef .tc main_arg0) = V (Proc.devRef .tc main_arg0) := by
  after_results

end Stretch1

/-! ## The graph stretch: the edge lists with their self loops, the degrees, then (in the called function) the
    guarded reciprocal square root of the degrees -/

section Graph
variable (V : Valuation τ sig (Elt Ideal))

theorem s2_v23 : StableHlo.after hostOps2 V (Proc.devRef .tc main_v23) = Fn.row (V (Proc.devRef .tc main_arg1)) := by
  after_results
  rfl

theorem s2_v26 : StableHlo.after hostOps2 V (Proc.devRef .tc main_v26) = Fn.col (V (Proc.devRef .tc main_arg1)) := by
  after_results
  rfl

/-- The test "the degree is positive". -/
theorem s2_v32 : StableHlo.after hostOps2 V (Proc.devRef .tc main_v32)
    = cmpf .ogt (Fn.deg (V (Proc.devRef .tc main_arg1))) (broadcastInDim S50000 ![] bcast_S_S50000 (constant (F := Ideal) S_ .f32 0x00000000#32)) := by
  after_results
  rfl

/-- The reciprocal square root of the degree, the degree raised to at least one. -/
theorem s2_v35 : StableHlo.after hostOps2 V (Proc.devRef .tc main_v35)
    = Host.rsqrt (maximumf (Fn.deg (V (Proc.devRef .tc main_arg1))) (broadcastInDim S50000 ![] bcast_S_S50000 (constant (F := Ideal) S_ .f32 0x3F800000#32))) := by
  after_results
  rfl

theorem s2_cst8 : StableHlo.after hostOps2 V (Proc.devRef .tc main_cst_8) = constant (F := Ideal) S_ .f32 0x00000000#32 := by
  after_results

theorem s2_v19 : StableHlo.after hostOps2 V (Proc.devRef .tc main_v19) = V (Proc.devRef .tc main_v19) := by
  after_results
theorem s2_arg3 : StableHlo.after hostOps2 V (Proc.devRef .tc main_arg3) = V (Proc.devRef .tc main_arg3) := by
  after_results
theorem s2_arg4 : StableHlo.after hostOps2 V (Proc.devRef .tc main_arg4) = V (Proc.devRef .tc main_arg4) := by
  after_results

/-- The called function: where the test holds the reciprocal square root, elsewhere the zero it was handed. -/
theorem s21_v36 : StableHlo.after hostOps2_1 V (Proc.devRef .tc main_v36)
    = select (V (Proc.devRef .tc main_v32)) (V (Proc.devRef .tc main_v35))
        (broadcastInDim S50000 ![] bcast_S_S50000 (id (V (Proc.devRef .tc main_cst_8)))) := by
  after_results
  rfl

theorem s21_v23 : StableHlo.after hostOps2_1 V (Proc.devRef .tc main_v23) = V (Proc.devRef .tc main_v23) := by
  after_results
theorem s21_v26 : StableHlo.after hostOps2_1 V (Proc.devRef .tc main_v26) = V (Proc.devRef .tc main_v26) := by
  after_results
theorem s21_v19 : StableHlo.after hostOps2_1 V (Proc.devRef .tc main_v19) = V (Proc.devRef .tc main_v19) := by
  after_results
theorem s21_arg3 : StableHlo.after hostOps2_1 V (Proc.devRef .tc main_arg3) = V (Proc.devRef .tc main_arg3) := by
  after_results
theorem s21_arg4 : StableHlo.after hostOps2_1 V (Proc.devRef .tc main_arg4) = V (Proc.devRef .tc main_arg4) := by
  after_results

/-- Through both: the degree's guarded reciprocal square root. -/
theorem mid_v36 : StableHlo.after hostOps2_1 (StableHlo.after hostOps2 V) (Proc.devRef .tc main_v36) = Fn.dinv (V (Proc.devRef .tc main_arg1)) := by
  rw [s21_v36, s2_v32, s2_v35, s2_cst8]
theorem mid_v23 : StableHlo.after hostOps2_1 (StableHlo.after hostOps2 V) (Proc.devRef .tc main_v23) = Fn.row (V (Proc.devRef .tc main_arg1)) := by
  rw [s21_v23, s2_v23]
theorem mid_v26 : StableHlo.after hostOps2_1 (StableHlo.after hostOps2 V) (Proc.devRef .tc main_v26) = Fn.col (V (Proc.devRef .tc main_arg1)) := by
  rw [s21_v26, s2_v26]
theorem mid_v19 : StableHlo.after hostOps2_1 (StableHlo.after hostOps2 V) (Proc.devRef .tc main_v19) = V (Proc.devRef .tc main_v19) := by
  rw [s21_v19, s2_v19]
theorem mid_arg3 : StableHlo.after hostOps2_1 (StableHlo.after hostOps2 V) (Proc.devRef .tc main_arg3) = V (Proc.devRef .tc main_arg3) := by
  rw [s21_arg3, s2_arg3]
theorem mid_arg4 : StableHlo.after hostOps2_1 (StableHlo.after hostOps2 V) (Proc.devRef .tc main_arg4) = V (Proc.devRef .tc main_arg4) := by
  rw [s21_arg4, s2_arg4]

end Graph

/-! ## The long stretch before the second dense region and the one before the log-softmax region, over contents
    that already hold the edge lists and the per-node (or per-edge) normalisation of an edge array `ei` -/

section Conv
variable (V : Valuation τ sig (Elt Ideal)) (ei : Vec Ideal S2x800000 .i32)

theorem s22_v51 (h23 : V (Proc.devRef .tc main_v23) = Fn.row ei) (h26 : V (Proc.devRef .tc main_v26) = Fn.col ei)
    (h36 : V (Proc.devRef .tc main_v36) = Fn.dinv ei) :
    StableHlo.after hostOps2_2 V (Proc.devRef .tc main_v51) = Fn.norm ei := by
  after_results_simp
  rw [h23, h26, h36]

theorem s22_v23 : StableHlo.after hostOps2_2 V (Proc.devRef .tc main_v23) = V (Proc.devRef .tc main_v23) := by
  after_results_simp
theorem s22_v26 : StableHlo.after hostOps2_2 V (Proc.devRef .tc main_v26) = V (Proc.devRef .tc main_v26) := by
  after_results_simp

theorem s22_v67 (h23 : V (Proc.devRef .tc main_v23) = Fn.row ei) (h26 : V (Proc.devRef .tc main_v26) = Fn.col ei)
    (h36 : V (Proc.devRef .tc main_v36) = Fn.dinv ei) :
    StableHlo.after hostOps2_2 V (Proc.devRef .tc main_v67)
      = Fn.conv1 (V (Proc.devRef .tc main_v19)) ei (V (Proc.devRef .tc main_arg3)) := by
  after_results_simp
  rw [h23, h26, h36]

theorem s22_v76 : StableHlo.after hostOps2_2 V (Proc.devRef .tc main_v76) = Fn.wbin2 (V (Proc.devRef .tc main_arg4)) := by
  after_results_simp

theorem s3_v93 (h23 : V (Proc.devRef .tc main_v23) = Fn.row ei) (h26 : V (Proc.devRef .tc main_v26) = Fn.col ei)
    (h51 : V (Proc.devRef .tc main_v51) = Fn.norm ei) :
    StableHlo.after hostOps3 V (Proc.devRef .tc main_v93)
      = Fn.conv2 (V (Proc.devRef .tc main_v77)) ei (V (Proc.devRef .tc main_arg5)) := by
  after_results_simp
  rw [h23, h26, h51]

end Conv

/-! ## The run's buffers at the regions' entries -/

variable (m : (ℓ : Loc nD τ sig) → Buf (Elt Ideal) ℓ) (ρ : Dev nD → PrngReg)

theorem W2_v2 (c : Dev nD) : W2 m ρ c (Proc.devRef .tc main_v2) = Fn.meanK (W1 m ρ c (Proc.devRef .tc main_v0_0)) :=
  s1_v2 (W1 m ρ c)
theorem W2_v9 (c : Dev nD) : W2 m ρ c (Proc.devRef .tc main_v9) = Fn.rstdK (W1 m ρ c (Proc.devRef .tc main_v0_0)) (W1 m ρ c (Proc.devRef .tc main_v0_1)) :=
  s1_v9 (W1 m ρ c)
theorem W2_v18 (c : Dev nD) : W2 m ρ c (Proc.devRef .tc main_v18) = Fn.wbin1 (W1 m ρ c (Proc.devRef .tc main_arg2)) :=
  s1_v18 (W1 m ρ c)
theorem W2_arg0 (c : Dev nD) : W2 m ρ c (Proc.devRef .tc main_arg0) = W1 m ρ c (Proc.devRef .tc main_arg0) :=
  s1_arg0 (W1 m ρ c)

/-- Before the second dense region the edge sources, the edge targets and the edge normalisation are those of the
    edge array the first dense region left untouched. -/
theorem W6_v23 (c : Dev nD) : W6 m ρ c (Proc.devRef .tc main_v23) = Fn.row (W3 m ρ c (Proc.devRef .tc main_arg1)) :=
  (s22_v23 (W5 m ρ c)).trans (mid_v23 (W3 m ρ c))
theorem W6_v26 (c : Dev nD) : W6 m ρ c (Proc.devRef .tc main_v26) = Fn.col (W3 m ρ c (Proc.devRef .tc main_arg1)) :=
  (s22_v26 (W5 m ρ c)).trans (mid_v26 (W3 m ρ c))
theorem W6_v51 (c : Dev nD) : W6 m ρ c (Proc.devRef .tc main_v51) = Fn.norm (W3 m ρ c (Proc.devRef .tc main_arg1)) :=
  s22_v51 (W5 m ρ c) (W3 m ρ c (Proc.devRef .tc main_arg1)) (mid_v23 (W3 m ρ c)) (mid_v26 (W3 m ρ c)) (mid_v36 (W3 m ρ c))

/-- What the first dense region left in its result, in the first bias and in the second weight matrix is still there
    after the graph stretch. -/
theorem W5_v19 (c : Dev nD) : W5 m ρ c (Proc.devRef .tc main_v19) = W3 m ρ c (Proc.devRef .tc main_v19) := mid_v19 (W3 m ρ c)
theorem W5_arg3 (c : Dev nD) : W5 m ρ c (Proc.devRef .tc main_arg3) = W3 m ρ c (Proc.devRef .tc main_arg3) := mid_arg3 (W3 m ρ c)
theorem W5_arg4 (c : Dev nD) : W5 m ρ c (Proc.devRef .tc main_arg4) = W3 m ρ c (Proc.devRef .tc main_arg4) := mid_arg4 (W3 m ρ c)

theorem W6_v67 (c : Dev nD) : W6 m ρ c (Proc.devRef .tc main_v67) = Fn.conv1 (W3 m ρ c (Proc.devRef .tc main_v19)) (W3 m ρ c (Proc.devRef .tc main_arg1)) (W3 m ρ c (Proc.devRef .tc main_arg3)) := by
  have h := s22_v67 (W5 m ρ c) (W3 m ρ c (Proc.devRef .tc main_arg1)) (mid_v23 (W3 m ρ c)) (mid_v26 (W3 m ρ c)) (mid_v36 (W3 m ρ c))
  rw [W5_v19 m ρ c, W5_arg3 m ρ c] at h
  exact h
theorem W6_v76 (c : Dev nD) : W6 m ρ c (Proc.devRef .tc main_v76) = Fn.wbin2 (W3 m ρ c (Proc.devRef .tc main_arg4)) := by
  have h := s22_v76 (W5 m ρ c)
  rw [W5_arg4 m ρ c] at h
  exact h
theorem W8_v93 (c : Dev nD) : W8 m ρ c (Proc.devRef .tc main_v93) = Fn.conv2 (W7 m ρ c (Proc.devRef .tc main_v77)) (W3 m ρ c (Proc.devRef .tc main_arg1)) (W7 m ρ c (Proc.devRef .tc main_arg5)) :=
  s3_v93 (W7 m ρ c) (W3 m ρ c (Proc.devRef .tc main_arg1))
    ((W7_of_ne m ρ c main_v23 (by decide)).trans (W6_v23 m ρ c))
    ((W7_of_ne m ρ c main_v26 (by decide)).trans (W6_v26 m ρ c))
    ((W7_of_ne m ρ c main_v51 (by decide)).trans (W6_v51 m ρ c))

/-! ## The mean and the reciprocal standard deviation, index by index -/

theorem meanK_eq (s : Vec Ideal S1x512 .f32) : Fn.meanK s = Cert.Spec.mean s := by
  funext j
  simp only [Fn.meanK, Cert.Spec.mean, Host.divf, broadcast, broadcastInDim, constant, Ideal.hostDivf_def, Ideal.ofBits_def]

theorem rstdK_eq (s ss : Vec Ideal S1x512 .f32) : Fn.rstdK s ss = Cert.Spec.rstd s ss := by
  funext j
  simp only [Fn.rstdK, Fn.meanK, Cert.Spec.rstd, Cert.Spec.mean, Host.divf, Host.rsqrt, mulf, subf, addf, broadcast, broadcastInDim,
    constant, Ideal.hostDivf_def, Ideal.hostUnary_rsqrt_def, Ideal.mulf_def, Ideal.subf_def, Ideal.addf_def, Ideal.ofBits_def]

end Cert.KernelIdeal.HostVal

end
-- ==== Proof.KValue.lean ====
/-
  The kernel's result as one function of its six arguments. The buffer contents at the boundaries between the four
  regions and the host stretches are a fold from the launch memory; read backwards from the result buffer: the last
  region leaves the row-wise log-softmax of what the third host stretch computed (the second graph convolution of the
  third region's output), the third region leaves the second dense layer of the first graph convolution of the second
  region's output, the second region leaves the first dense layer of x with the mean and the reciprocal standard
  deviation the first host stretch made of the two column sums the first region left. An argument's buffer is written
  by no region and no host operation, so it reads back to the launch memory at every boundary.
-/
import proofs.«134459_j27161373180324_1_alg».proof.Proof.Gen.KernelIdeal.Frame
import proofs.«134459_j27161373180324_1_alg».proof.Proof.Spec
import proofs.«134459_j27161373180324_1_alg».proof.Proof.KFn
import proofs.«134459_j27161373180324_1_alg».proof.Proof.Stats
import proofs.«134459_j27161373180324_1_alg».proof.Proof.Layer1
import proofs.«134459_j27161373180324_1_alg».proof.Proof.Layer2
import proofs.«134459_j27161373180324_1_alg».proof.Proof.Lsm
import proofs.«134459_j27161373180324_1_alg».proof.Proof.KHost
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.HostVal

open Cert.KernelIdeal Cert.KernelIdeal.Gen

variable (m : (ℓ : Loc nD τ sig) → Buf (Elt Ideal) ℓ) (ρ : Dev nD → PrngReg)

/-! ## The arguments read back to the launch memory -/

/-- x is the first region's input array: the region leaves it as it found it. -/
theorem W1_arg0 (c : Dev nD) : W1 m ρ c (Proc.devRef .tc main_arg0) = m ((c : Thread nD τ).loc main_arg0) :=
  ((W1_arr m ρ c 0).trans (((dat0 (V0 m ρ) c).arrAt_in 0 rfl _).trans (A_eq0 (V0 m ρ) c 0))).trans rfl

/-- The first weight matrix is none of the first region's arrays. -/
theorem W1_arg2 (c : Dev nD) : W1 m ρ c (Proc.devRef .tc main_arg2) = m ((c : Thread nD τ).loc main_arg2) :=
  (W1_of_ne m ρ c main_arg2 (by decide)).trans rfl

/-- The edge list after the second region: neither region nor the first host stretch writes it. -/
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W0 m ρ c (Proc.devRef .tc main_arg1) := W1_of_ne m ρ c main_arg1 (by decide)
    _ = m ((c : Thread nD τ).loc main_arg1) := rfl

/-- The first bias after the second region. -/
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W0 m ρ c (Proc.devRef .tc main_arg3) := W1_of_ne m ρ c main_arg3 (by decide)
    _ = m ((c : Thread nD τ).loc main_arg3) := rfl

/-- The second weight matrix after the second region. -/
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W0 m ρ c (Proc.devRef .tc main_arg4) := W1_of_ne m ρ c main_arg4 (by decide)
    _ = m ((c : Thread nD τ).loc main_arg4) := rfl

/-- The second bias after the third region. -/
theorem W7_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := StableHlo.after_of_forall_not_mem (b := Proc.devRef .tc main_arg5) _ _ (List.forall_iff_forall_mem.mp (by
    simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W4 m ρ c (Proc.devRef .tc main_arg5) := StableHlo.after_of_forall_not_mem (b := Proc.devRef .tc main_arg5) _ _ (List.forall_iff_forall_mem.mp (by
    simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W3 m ρ c (Proc.devRef .tc main_arg5) := StableHlo.after_of_forall_not_mem (b := Proc.devRef .tc main_arg5) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W0 m ρ c (Proc.devRef .tc main_arg5) := W1_of_ne m ρ c main_arg5 (by decide)
    _ = m ((c : Thread nD τ).loc main_arg5) := rfl

/-! ## The regions' outputs at the boundaries -/

/-- After the first region: the column sums of x. -/
theorem W1_sum (c : Dev nD) : W1 m ρ c (Proc.devRef .tc main_v0_0) = Cert.Spec.colSum (m ((c : Thread nD τ).loc main_arg0)) :=
  (W1_arr m ρ c 1).trans (Val.stats_sum (V0 m ρ) c)

/-- After the first region: the column sums of squares of x. -/
theorem W1_sumsq (c : Dev nD) : W1 m ρ c (Proc.devRef .tc main_v0_1) = Cert.Spec.colSumSq (m ((c : Thread nD τ).loc main_arg0)) :=
  (W1_arr m ρ c 2).trans (Val.stats_sumsq (V0 m ρ) c)

/-- After the second region: the first dense layer. -/
theorem W3_v19 (c : Dev nD) : W3 m ρ c (Proc.devRef .tc main_v19)
    = Cert.Spec.layer1 (m ((c : Thread nD τ).loc main_arg0)) (Cert.Spec.mean (Cert.Spec.colSum (m ((c : Thread nD τ).loc main_arg0))))
        (Cert.Spec.rstd (Cert.Spec.colSum (m ((c : Thread nD τ).loc main_arg0))) (Cert.Spec.colSumSq (m ((c : Thread nD τ).loc main_arg0)))) (Fn.wbin1 (m ((c : Thread nD τ).loc main_arg2))) := by
  refine ((W3_arr m ρ c 4).trans (Val.layer1_out (V2 m ρ) c)).trans ?_
  show Cert.Spec.layer1 (W2 m ρ c (Proc.devRef .tc main_arg0)) (W2 m ρ c (Proc.devRef .tc main_v2)) (W2 m ρ c (Proc.devRef .tc main_v9))
    (W2 m ρ c (Proc.devRef .tc main_v18)) = _
  rw [W2_arg0, W2_v2, W2_v9, W2_v18, W1_arg0, W1_arg2, W1_sum, W1_sumsq, meanK_eq, rstdK_eq]

/-- After the third region: the second dense layer of the first graph convolution. -/
theorem W7_v77 (c : Dev nD) : W7 m ρ c (Proc.devRef .tc main_v77)
    = Cert.Spec.layer2 (Fn.conv1 (W3 m ρ c (Proc.devRef .tc main_v19)) (m ((c : Thread nD τ).loc main_arg1)) (m ((c : Thread nD τ).loc main_arg3)))
        (Fn.wbin2 (m ((c : Thread nD τ).loc main_arg4))) := by
  refine ((W7_arr m ρ c 2).trans (Val.layer2_out (V6 m ρ) c)).trans ?_
  show Cert.Spec.layer2 (W6 m ρ c (Proc.devRef .tc main_v67)) (W6 m ρ c (Proc.devRef .tc main_v76)) = _
  rw [W6_v67, W6_v76, W3_arg1, W3_arg3, W3_arg4]

/-- The kernel's result, of the launch memory. -/
theorem out_eq (c : Dev nD) : W9 m ρ c (Proc.devRef .tc main_v94)
    = Cert.Spec.lsm (Fn.conv2 (Cert.Spec.layer2 (Fn.conv1 (Cert.Spec.layer1 (m ((c : Thread nD τ).loc main_arg0))
          (Cert.Spec.mean (Cert.Spec.colSum (m ((c : Thread nD τ).loc main_arg0))))
          (Cert.Spec.rstd (Cert.Spec.colSum (m ((c : Thread nD τ).loc main_arg0))) (Cert.Spec.colSumSq (m ((c : Thread nD τ).loc main_arg0))))
          (Fn.wbin1 (m ((c : Thread nD τ).loc main_arg2))))
        (m ((c : Thread nD τ).loc main_arg1)) (m ((c : Thread nD τ).loc main_arg3)))
        (Fn.wbin2 (m ((c : Thread nD τ).loc main_arg4))))
        (m ((c : Thread nD τ).loc main_arg1)) (m ((c : Thread nD τ).loc main_arg5))) := by
  refine ((W9_arr m ρ c 1).trans (Val.lsm_out (V8 m ρ) c)).trans ?_
  show Cert.Spec.lsm (W8 m ρ c (Proc.devRef .tc main_v93)) = _
  rw [W8_v93, W7_v77, W3_v19, W3_arg1, W7_arg5]

end Cert.KernelIdeal.HostVal

end
-- ==== Proof.RFn.lean ====
/-
  The reference's @main cut into named pure functions of its arguments, each the composition of the printed host
  operations: the batch statistics and normalisation, the two binarisations, the weight binarisations, the two matrix
  products, the graph normalisation and the two graph convolutions, and the log-softmax. The result of @main is their
  composition `out`.
-/
import proofs.«134459_j27161373180324_1_alg».proof.ReferenceIdeal
import proofs.«134459_j27161373180324_1_alg».proof.Proof.Gen.ReferenceIdeal

noncomputable section

namespace Cert.ReferenceIdeal.Fn

open Idealize.ShloMosaic Cert.ReferenceIdeal
open Cert.ReferenceIdeal.Facts₀ Cert.ReferenceIdeal.Facts

variable {F : FTy → Type} [FloatOps F]

/-- Column means over the 50000 rows. -/
abbrev mu (x : Vec F S50000x512 .f32) : Vec F S512 .f32 :=
  Host.divf (Host.reduceAdd x (constant S_ .f32 0x00000000#32) reducesTo_S50000x512_S512_d0 h_S_)
    (broadcastInDim S512 ![] bcast_S_S512 (constant S_ .f32 0x47435000#32))

/-- The mean the variance centres on, kept as a row. -/
abbrev varMean (x : Vec F S50000x512 .f32) : Vec F S1x512 .f32 :=
  Host.divf (broadcastInDim S1x512 ![1] bcast_S512_S1x512_1 (Host.reduceAdd x (constant S_ .f32 0x00000000#32) reducesTo_S50000x512_S512_d0 h_S_))
    (broadcastInDim S1x512 ![] bcast_S_S1x512 (constant S_ .f32 0x47435000#32))

/-- x minus its column mean. -/
abbrev varCentered (x : Vec F S50000x512 .f32) : Vec F S50000x512 .f32 :=
  subf x (broadcastInDim S50000x512 ![0, 1] bcast_S1x512_S50000x512_0_1 (varMean x))

/-- The variance's divisor: 50000.0 minus the (zero) correction. -/
abbrev varN : Vec F S_ .f32 := subf (constant S_ .f32 0x47435000#32) (sitofp .f32 (constantI S_ 32 0#32))

/-- The biased column variance: the mean of the squared deviations, selected where the divisor is positive. -/
abbrev var (x : Vec F S50000x512 .f32) : Vec F S512 .f32 :=
  select (broadcastInDim S512 ![] bcast_S_S512 (cmpf .ogt (varN (F := F)) (constant S_ .f32 0x00000000#32)))
    (Host.divf (Host.reduceAdd (mulf (varCentered x) (varCentered x)) (constant S_ .f32 0x00000000#32) reducesTo_S50000x512_S512_d0 h_S_)
      (broadcastInDim S512 ![] bcast_S_S512 (varN (F := F))))
    (broadcastInDim S512 ![] bcast_S_S512 (id (constant S_ .f32 0x7FC00000#32)))

/-- Batch normalisation: (x - mean) * (var + eps)^(-1/2). -/
abbrev bn (x : Vec F S50000x512 .f32) : Vec F S50000x512 .f32 :=
  mulf (subf x (broadcastInDim S50000x512 ![0, 1] bcast_S1x512_S50000x512_0_1 (broadcastInDim S1x512 ![1] bcast_S512_S1x512_1 (mu x))))
    (broadcastInDim S50000x512 ![0, 1] bcast_S1x512_S50000x512_0_1 (broadcastInDim S1x512 ![1] bcast_S512_S1x512_1
      (Host.rsqrt (addf (var x) (broadcastInDim S512 ![] bcast_S_S512 (constant S_ .f32 0x3727C5AC#32))))))

/-- Sign times the row's mean absolute value, rows of 512. -/
abbrev binAct512 (z : Vec F S50000x512 .f32) : Vec F S50000x512 .f32 :=
  mulf (Host.sign z) (broadcastInDim S50000x512 ![0, 1] bcast_S50000x1_S50000x512_0_1
    (Host.divf (broadcastInDim S50000x1 ![0] bcast_S50000_S50000x1_0 (Host.reduceAdd (Host.absf z) (constant S_ .f32 0x00000000#32) reducesTo_S50000x512_S50000_d1 h_S_))
      (broadcastInDim S50000x1 ![] bcast_S_S50000x1 (constant S_ .f32 0x44000000#32))))

/-- Sign times the row's mean absolute value, rows of 128. -/
abbrev binAct128 (z : Vec F S50000x128 .f32) : Vec F S50000x128 .f32 :=
  mulf (Host.sign z) (broadcastInDim S50000x128 ![0, 1] bcast_S50000x1_S50000x128_0_1
    (Host.divf (broadcastInDim S50000x1 ![0] bcast_S50000_S50000x1_0 (Host.reduceAdd (Host.absf z) (constant S_ .f32 0x00000000#32) reducesTo_S50000x128_S50000_d1 h_S_))
      (broadcastInDim S50000x1 ![] bcast_S_S50000x1 (constant S_ .f32 0x43000000#32))))

/-- The first matrix product. -/
abbrev dot1 (l : Vec F S50000x512 .f32) (r : Vec F S512x128 .f32) : Vec F S50000x128 .f32 :=
  Host.dotGeneral dot_S50000x512_S512x128_S50000x128_1_0_0_1_n_n none l r

/-- The second matrix product. -/
abbrev dot2 (l : Vec F S50000x128 .f32) (r : Vec F S128x64 .f32) : Vec F S50000x64 .f32 :=
  Host.dotGeneral dot_S50000x128_S128x64_S50000x64_1_0_0_1_n_n none l r

/-- The row maxima as jax's log_softmax takes them: the max-reduce from -inf, then max with -inf. -/
abbrev lsmMax (z : Vec F S50000x64 .f32) : Vec F S50000 .f32 :=
  maximumf (broadcastInDim S50000 ![] bcast_S_S50000 (constant S_ .f32 0xFF800000#32))
    (Host.reduce FloatOps.maximumf z (constant S_ .f32 0xFF800000#32) reducesTo_S50000x64_S50000_d1 h_S_)

/-- z minus its row maximum. -/
abbrev lsmShift (z : Vec F S50000x64 .f32) : Vec F S50000x64 .f32 :=
  subf z (broadcastInDim S50000x64 ![0, 1] bcast_S50000x1_S50000x64_0_1 (broadcastInDim S50000x1 ![0] bcast_S50000_S50000x1_0 (lsmMax z)))

/-- Row-wise log-softmax. -/
abbrev lsm (z : Vec F S50000x64 .f32) : Vec F S50000x64 .f32 :=
  subf (lsmShift z) (broadcastInDim S50000x64 ![0, 1] bcast_S50000x1_S50000x64_0_1
    (Host.log (broadcastInDim S50000x1 ![0] bcast_S50000_S50000x1_0 (Host.reduceAdd (Host.exp (lsmShift z)) (constant S_ .f32 0x00000000#32) reducesTo_S50000x64_S50000_d1 h_S_))))

/-- Sign times the column's mean absolute value (over 512 rows): the binarised first weight matrix. -/
abbrev binW1 (w : Vec F S512x128 .f32) : Vec F S512x128 .f32 :=
  mulf (Host.sign w) (broadcastInDim S512x128 ![0, 1] bcast_S1x128_S512x128_0_1
    (Host.divf (broadcastInDim S1x128 ![1] bcast_S128_S1x128_1 (Host.reduceAdd (Host.absf w) (constant S_ .f32 0x00000000#32) reducesTo_S512x128_S128_d0 h_S_))
      (broadcastInDim S1x128 ![] bcast_S_S1x128 (constant S_ .f32 0x44000000#32))))

/-- The binarised second weight matrix (128 rows). -/
abbrev binW2 (w : Vec F S128x64 .f32) : Vec F S128x64 .f32 :=
  mulf (Host.sign w) (broadcastInDim S128x64 ![0, 1] bcast_S1x64_S128x64_0_1
    (Host.divf (broadcastInDim S1x64 ![1] bcast_S64_S1x64_1 (Host.reduceAdd (Host.absf w) (constant S_ .f32 0x00000000#32) reducesTo_S128x64_S64_d0 h_S_))
      (broadcastInDim S1x64 ![] bcast_S_S1x64 (constant S_ .f32 0x43000000#32))))

/-- The edges' source nodes, the self loops appended. -/
abbrev row (ei : Vec F S2x800000 .i32) : Vec F S850000 .i32 :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

/-- The edges' target nodes, the self loops appended. -/
abbrev col (ei : Vec F S2x800000 .i32) : Vec F S850000 .i32 :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

/-- In-degrees: ones scattered onto the targets. -/
abbrev deg (ei : Vec F S2x800000 .i32) : Vec F S50000 .f32 :=
  Host.scatterAdd scatter_S50000_S850000x1_S850000_n_0_0_1 (broadcastInDim S50000 ![] bcast_S_S50000 (constant S_ .f32 0x00000000#32))
    (broadcastInDim S850000x1 ![0] bcast_S850000_S850000x1_0 (col ei)) (broadcastInDim S850000 ![] bcast_S_S850000 (constant S_ .f32 0x3F800000#32))

/-- deg^(-1/2) where the degree is positive, else 0. -/
abbrev dinv (ei : Vec F S2x800000 .i32) : Vec F S50000 .f32 :=
  select (cmpf .ogt (deg ei) (broadcastInDim S50000 ![] bcast_S_S50000 (constant S_ .f32 0x00000000#32)))
    (Host.rsqrt (maximumf (deg ei) (broadcastInDim S50000 ![] bcast_S_S50000 (constant S_ .f32 0x3F800000#32))))
    (broadcastInDim S50000 ![] bcast_S_S50000 (id (constant S_ .f32 0x00000000#32)))

/-- A node index made ready for a gather: negative ones wrapped by the node count, as a column. -/
abbrev gidx (v : Vec F S850000 .i32) : Vec F S850000x1 .i32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The symmetric normalisation per edge: dinv at the source times dinv at the target. -/
abbrev norm (ei : Vec F S2x800000 .i32) : Vec F S850000 .f32 :=
  mulf (Host.gather gather_S50000_S850000x1_S850000_n_0_n_n_0_1_1 (dinv ei) (gidx (row ei)))
    (Host.gather gather_S50000_S850000x1_S850000_n_0_n_n_0_1_1 (dinv ei) (gidx (col ei)))

/-- Graph convolution on 128 features: gather the sources' rows, scale by the edge norm, scatter-add onto the targets,
    add the bias. -/
abbrev conv1 (h : Vec F S50000x128 .f32) (ei : Vec F S2x800000 .i32) (b : Vec F S128 .f32) : Vec F S50000x128 .f32 :=
  addf (Host.scatterAdd scatter_S50000x128_S850000x1_S850000x128_1_0_0_1 (broadcastInDim S50000x128 ![] bcast_S_S50000x128 (constant S_ .f32 0x00000000#32))
      (broadcastInDim S850000x1 ![0] bcast_S850000_S850000x1_0 (col ei))
      (mulf (broadcastInDim S850000x128 ![0, 1] bcast_S850000x1_S850000x128_0_1 (broadcastInDim S850000x1 ![0] bcast_S850000_S850000x1_0 (norm ei)))
        (Host.gather gather_S50000x128_S850000x1_S850000x128_1_0_n_n_0_1_1128 h (gidx (row ei)))))
    (broadcastInDim S50000x128 ![0, 1] bcast_S1x128_S50000x128_0_1 (broadcastInDim S1x128 ![1] bcast_S128_S1x128_1 b))

/-- Graph convolution on 64 features. -/
abbrev conv2 (h : Vec F S50000x64 .f32) (ei : Vec F S2x800000 .i32) (b : Vec F S64 .f32) : Vec F S50000x64 .f32 :=
  addf (Host.scatterAdd scatter_S50000x64_S850000x1_S850000x64_1_0_0_1 (broadcastInDim S50000x64 ![] bcast_S_S50000x64 (constant S_ .f32 0x00000000#32))
      (broadcastInDim S850000x1 ![0] bcast_S850000_S850000x1_0 (col ei))
      (mulf (broadcastInDim S850000x64 ![0, 1] bcast_S850000x1_S850000x64_0_1 (broadcastInDim S850000x1 ![0] bcast_S850000_S850000x1_0 (norm ei)))
        (Host.gather gather_S50000x64_S850000x1_S850000x64_1_0_n_n_0_1_164 h (gidx (row ei)))))
    (broadcastInDim S50000x64 ![0, 1] bcast_S1x64_S50000x64_0_1 (broadcastInDim S1x64 ![1] bcast_S64_S1x64_1 b))

/-- What @main returns, of its six arguments. -/
abbrev out (x : Vec F S50000x512 .f32) (ei : Vec F S2x800000 .i32) (w1 : Vec F S512x128 .f32) (b1 : Vec F S128 .f32)
    (w2 : Vec F S128x64 .f32) (b2 : Vec F S64 .f32) : Vec F S50000x64 .f32 :=
  lsm (conv2 (dot2 (binAct128 (conv1 (dot1 (binAct512 (bn x)) (binW1 w1)) ei b1)) (binW2 w2)) ei b2)

end Cert.ReferenceIdeal.Fn

end
-- ==== Proof.RRun.lean ====
/-
  The reference's entry function is a straight line of host operations once the called functions it calls (the
  column variance with its guarded select, the degree's guarded select, the row-wise log-softmax) are put in at
  their call sites over the buffers each call names. The line is listed in order and cut into five stretches, a
  cut standing before each of the two concatenations that build the edge lists; the stretches in sequence are the
  entry function. Running a line folds each operation's value into its result buffer and leaves every other
  buffer alone. Read stretch by stretch over arbitrary buffer contents, with what earlier stretches left (the
  edge lists, the edge normalisation, the normalised input) taken as known, the result buffer ends at the
  reference's named composition of the six arguments' launch contents, and the arguments hold what they held.
-/
import proofs.«134459_j27161373180324_1_alg».proof.ReferenceIdeal
import proofs.«134459_j27161373180324_1_alg».proof.Proof.Gen.ReferenceIdeal
import proofs.«134459_j27161373180324_1_alg».proof.Proof.RFn
import Idealize.ShloMosaic.PureOps.Ideal
import Idealize.ShloMosaic.Lib.StableHlo.Run
import Idealize.ShloMosaic.Lib.Pipeline.Regions
import Idealize.ShloMosaic.Lib.Tactic

set_option maxRecDepth 16384

noncomputable section

open Idealize.ShloMosaic Idealize.ShloMosaic.TcCoe Idealize.SL.Sem

namespace Cert.ReferenceIdeal.RVal

open Cert.ReferenceIdeal
open Cert.ReferenceIdeal.Facts₀ Cert.ReferenceIdeal.Facts

section Line

variable {F : FTy → Type} [FloatOps F]

/-- First stretch: the column means, the variance function's body (its own select-on-positive-divisor inlined), the normalised input, then the node counter and the first row of the edge table flattened. -/
abbrev run_opsA : List (HloOp τ sig (Elt F)) :=
  [ StableHlo.nullary main_cst (constant S_ .f32 0x00000000#32),
    StableHlo.binary main_arg0 main_cst main_v0 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_0 (constant S_ .f32 0x47435000#32),
    StableHlo.unary main_cst_0 main_v1 (broadcastInDim S512 ![] bcast_S_S512 : (⟨S_, .f32⟩ : BufTy).Contents (Elt F) → (⟨S512, .f32⟩ : BufTy).Contents (Elt F)),
    StableHlo.binary main_v0 main_v1 main_v2 (Host.divf : (⟨S512, .f32⟩ : BufTy).Contents (Elt F) → (⟨S512, .f32⟩ : BufTy).Contents (Elt F) → (⟨S512, .f32⟩ : BufTy).Contents (Elt F)),
    StableHlo.nullary main_c (constantI S_ 32 0#32),
    StableHlo.nullary main_call0_cst (constant S_ .f32 0x00000000#32),
    StableHlo.binary main_arg0 main_call0_cst main_call0_v0 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.unary main_call0_v0 main_call0_v1 (broadcastInDim S1x512 ![1] bcast_S512_S1x512_1 : (⟨S512, .f32⟩ : BufTy).Contents (Elt F) → (⟨S1x512, .f32⟩ : BufTy).Contents (Elt F)),
    StableHlo.nullary main_call0_cst_0 (constant S_ .f32 0x47435000#32),
    StableHlo.unary main_call0_cst_0 main_call0_v2 (broadcastInDim S1x512 ![] bcast_S_S1x512 : (⟨S_, .f32⟩ : BufTy).Contents (Elt F) → (⟨S1x512, .f32⟩ : BufTy).Contents (Elt F)),
    StableHlo.binary main_call0_v1 main_call0_v2 main_call0_v3 (Host.divf : (⟨S1x512, .f32⟩ : BufTy).Contents (Elt F) → (⟨S1x512, .f32⟩ : BufTy).Contents (Elt F) → (⟨S1x512, .f32⟩ : BufTy).Contents (Elt F)),
    StableHlo.unary main_call0_v3 main_call0_v4 (broadcastInDim S50000x512 ![0, 1] bcast_S1x512_S50000x512_0_1 : (⟨S1x512, .f32⟩ : BufTy).Contents (Elt F) → (⟨S50000x512, .f32⟩ : BufTy).Contents (Elt F)),
    StableHlo.binary main_arg0 main_call0_v4 main_call0_v5 (subf : (⟨S50000x512, .f32⟩ : BufTy).Contents (Elt F) → (⟨S50000x512, .f32⟩ : BufTy).Contents (Elt F) → (⟨S50000x512, .f32⟩ : BufTy).Contents (Elt F)),
    StableHlo.binary main_call0_v5 main_call0_v5 main_call0_v6 (mulf : (⟨S50000x512, .f32⟩ : BufTy).Contents (Elt F) → (⟨S50000x512, .f32⟩ : BufTy).Contents (Elt F) → (⟨S50000x512, .f32⟩ : BufTy).Contents (Elt F)),
    StableHlo.unary main_c main_call0_v7 (sitofp .f32 : (⟨S_, .i32⟩ : BufTy).Contents (Elt F) → (⟨S_, .f32⟩ : BufTy).Contents (Elt F)),
    StableHlo.nullary main_call0_cst_1 (constant S_ .f32 0x47435000#32),
    StableHlo.binary main_call0_cst_1 main_call0_v7 main_call0_v8 (subf : (⟨S_, .f32⟩ : BufTy).Contents (Elt F) → (⟨S_, .f32⟩ : BufTy).Contents (Elt F) → (⟨S_, .f32⟩ : BufTy).Contents (Elt F)),
    StableHlo.nullary main_call0_cst_2 (constant S_ .f32 0x00000000#32),
    StableHlo.binary main_call0_v6 main_call0_cst_2 main_call0_v9 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.unary main_call0_v8 main_call0_v10 (broadcastInDim S512 ![] bcast_S_S512 : (⟨S_, .f32⟩ : BufTy).Contents (Elt F) → (⟨S512, .f32⟩ : BufTy).Contents (Elt F)),
    StableHlo.binary main_call0_v9 main_call0_v10 main_call0_v11 (Host.divf : (⟨S512, .f32⟩ : BufTy).Contents (Elt F) → (⟨S512, .f32⟩ : BufTy).Contents (Elt F) → (⟨S512, .f32⟩ : BufTy).Contents (Elt F)),
    StableHlo.nullary main_call0_cst_3 (constant S_ .f32 0x00000000#32),
    StableHlo.binary main_call0_v8 main_call0_cst_3 main_call0_v12 (cmpf .ogt : (⟨S_, .f32⟩ : BufTy).Contents (Elt F) → (⟨S_, .f32⟩ : BufTy).Contents (Elt F) → (⟨S_, .i1⟩ : BufTy).Contents (Elt F)),
    StableHlo.nullary main_call0_cst_4 (constant S_ .f32 0x7FC00000#32),
    StableHlo.unary main_call0_cst_4 main_call0_call0_v0 (id : (⟨S_, .f32⟩ : BufTy).Contents (Elt F) → (⟨S_, .f32⟩ : BufTy).Contents (Elt F)),
    StableHlo.unary main_call0_call0_v0 main_call0_call0_v1 (broadcastInDim S512 ![] bcast_S_S512 : (⟨S_, .f32⟩ : BufTy).Contents (Elt F) → (⟨S512, .f32⟩ : BufTy).Contents (Elt F)),
    StableHlo.ternary main_call0_v12 main_call0_v11 main_call0_call0_v1 main_v3 ((fun p a b => select (broadcastInDim S512 ![] bcast_S_S512 p) a b) : (⟨S_, .i1⟩ : BufTy).Contents (Elt F) → (⟨S512, .f32⟩ : BufTy).Contents (Elt F) → (⟨S512, .f32⟩ : BufTy).Contents (Elt F) → (⟨S512, .f32⟩ : BufTy).Contents (Elt F)),
    StableHlo.unary main_v2 main_v4 (broadcastInDim S1x512 ![1] bcast_S512_S1x512_1 : (⟨S512, .f32⟩ : BufTy).Contents (Elt F) → (⟨S1x512, .f32⟩ : BufTy).Contents (Elt F)),
    StableHlo.unary main_v4 main_v5 (broadcastInDim S50000x512 ![0, 1] bcast_S1x512_S50000x512_0_1 : (⟨S1x512, .f32⟩ : BufTy).Contents (Elt F) → (⟨S50000x512, .f32⟩ : BufTy).Contents (Elt F)),
    StableHlo.binary main_arg0 main_v5 main_v6 (subf : (⟨S50000x512, .f32⟩ : BufTy).Contents (Elt F) → (⟨S50000x512, .f32⟩ : BufTy).Contents (Elt F) → (⟨S50000x512, .f32⟩ : BufTy).Contents (Elt F)),
    StableHlo.nullary main_cst_1 (constant S_ .f32 0x3727C5AC#32),
    StableHlo.unary main_cst_1 main_v7 (broadcastInDim S512 ![] bcast_S_S512 : (⟨S_, .f32⟩ : BufTy).Contents (Elt F) → (⟨S512, .f32⟩ : BufTy).Contents (Elt F)),
    StableHlo.binary main_v3 main_v7 main_v8 (addf : (⟨S512, .f32⟩ : BufTy).Contents (Elt F) → (⟨S512, .f32⟩ : BufTy).Contents (Elt F) → (⟨S512, .f32⟩ : BufTy).Contents (Elt F)),
    StableHlo.unary main_v8 main_v9 (Host.rsqrt : (⟨S512, .f32⟩ : BufTy).Contents (Elt F) → (⟨S512, .f32⟩ : BufTy).Contents (Elt F)),
    StableHlo.unary main_v9 main_v10 (broadcastInDim S1x512 ![1] bcast_S512_S1x512_1 : (⟨S512, .f32⟩ : BufTy).Contents (Elt F) → (⟨S1x512, .f32⟩ : BufTy).Contents (Elt F)),
    StableHlo.unary main_v10 main_v11 (broadcastInDim S50000x512 ![0, 1] bcast_S1x512_S50000x512_0_1 : (⟨S1x512, .f32⟩ : BufTy).Contents (Elt F) → (⟨S50000x512, .f32⟩ : BufTy).Contents (Elt F)),
    StableHlo.binary main_v6 main_v11 main_v12 (mulf : (⟨S50000x512, .f32⟩ : BufTy).Contents (Elt F) → (⟨S50000x512, .f32⟩ : BufTy).Contents (Elt F) → (⟨S50000x512, .f32⟩ : BufTy).Contents (Elt F)),
    StableHlo.nullary main_v13 (iotaInDim S50000 32 0),
    StableHlo.unary main_arg1 main_v14 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v14 main_v15 rfl shapeCasts_S1x800000_S800000 ]

/-- Second stretch: the source list (edges then self loops), and the second row of the edge table flattened. -/
abbrev run_opsB : List (HloOp τ sig (Elt F)) :=
  [ StableHlo.binary main_v15 main_v13 main_v16 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v17 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v17 main_v18 rfl shapeCasts_S1x800000_S800000 ]

/-- Third stretch: the target list; degrees by scatter-add of ones, their inverse square roots where positive (the select function's body inlined), the per-edge normalisation by two gathers, and the sign and absolute value of the normalised input. -/
abbrev run_opsC : List (HloOp τ sig (Elt F)) :=
  [ StableHlo.binary main_v18 main_v13 main_v19 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_2 (constant S_ .f32 0x3F800000#32),
    StableHlo.unary main_cst_2 main_v20 (broadcastInDim S850000 ![] bcast_S_S850000 : (⟨S_, .f32⟩ : BufTy).Contents (Elt F) → (⟨S850000, .f32⟩ : BufTy).Contents (Elt F)),
    StableHlo.nullary main_cst_3 (constant S_ .f32 0x00000000#32),
    StableHlo.unary main_cst_3 main_v21 (broadcastInDim S50000 ![] bcast_S_S50000 : (⟨S_, .f32⟩ : BufTy).Contents (Elt F) → (⟨S50000, .f32⟩ : BufTy).Contents (Elt F)),
    StableHlo.unary main_v19 main_v22 (broadcastInDim S850000x1 ![0] bcast_S850000_S850000x1_0 : (⟨S850000, .i32⟩ : BufTy).Contents (Elt F) → (⟨S850000x1, .i32⟩ : BufTy).Contents (Elt F)),
    StableHlo.ternary main_v21 main_v22 main_v20 main_v23 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_4 (constant S_ .f32 0x00000000#32),
    StableHlo.unary main_cst_4 main_v24 (broadcastInDim S50000 ![] bcast_S_S50000 : (⟨S_, .f32⟩ : BufTy).Contents (Elt F) → (⟨S50000, .f32⟩ : BufTy).Contents (Elt F)),
    StableHlo.binary main_v23 main_v24 main_v25 (cmpf .ogt : (⟨S50000, .f32⟩ : BufTy).Contents (Elt F) → (⟨S50000, .f32⟩ : BufTy).Contents (Elt F) → (⟨S50000, .i1⟩ : BufTy).Contents (Elt F)),
    StableHlo.nullary main_cst_5 (constant S_ .f32 0x3F800000#32),
    StableHlo.unary main_cst_5 main_v26 (broadcastInDim S50000 ![] bcast_S_S50000 : (⟨S_, .f32⟩ : BufTy).Contents (Elt F) → (⟨S50000, .f32⟩ : BufTy).Contents (Elt F)),
    StableHlo.binary main_v23 main_v26 main_v27 (maximumf : (⟨S50000, .f32⟩ : BufTy).Contents (Elt F) → (⟨S50000, .f32⟩ : BufTy).Contents (Elt F) → (⟨S50000, .f32⟩ : BufTy).Contents (Elt F)),
    StableHlo.unary main_v27 main_v28 (Host.rsqrt : (⟨S50000, .f32⟩ : BufTy).Contents (Elt F) → (⟨S50000, .f32⟩ : BufTy).Contents (Elt F)),
    StableHlo.nullary main_cst_6 (constant S_ .f32 0x00000000#32),
    StableHlo.unary main_cst_6 main_call1_v0 (id : (⟨S_, .f32⟩ : BufTy).Contents (Elt F) → (⟨S_, .f32⟩ : BufTy).Contents (Elt F)),
    StableHlo.unary main_call1_v0 main_call1_v1 (broadcastInDim S50000 ![] bcast_S_S50000 : (⟨S_, .f32⟩ : BufTy).Contents (Elt F) → (⟨S50000, .f32⟩ : BufTy).Contents (Elt F)),
    StableHlo.ternary main_v25 main_v28 main_call1_v1 main_v29 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    StableHlo.nullary main_c_7 (constantI S_ 32 0#32),
    StableHlo.unary main_c_7 main_v30 (broadcastInDim S850000 ![] bcast_S_S850000 : (⟨S_, .i32⟩ : BufTy).Contents (Elt F) → (⟨S850000, .i32⟩ : BufTy).Contents (Elt F)),
    StableHlo.binary main_v16 main_v30 main_v31 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v32 (broadcastInDim S850000 ![] bcast_S_S850000 : (⟨S_, .i32⟩ : BufTy).Contents (Elt F) → (⟨S850000, .i32⟩ : BufTy).Contents (Elt F)),
    StableHlo.binary main_v16 main_v32 main_v33 (addi : (⟨S850000, .i32⟩ : BufTy).Contents (Elt F) → (⟨S850000, .i32⟩ : BufTy).Contents (Elt F) → (⟨S850000, .i32⟩ : BufTy).Contents (Elt F)),
    StableHlo.ternary main_v31 main_v33 main_v16 main_v34 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v34 main_v35 (broadcastInDim S850000x1 ![0] bcast_S850000_S850000x1_0 : (⟨S850000, .i32⟩ : BufTy).Contents (Elt F) → (⟨S850000x1, .i32⟩ : BufTy).Contents (Elt F)),
    StableHlo.binary main_v29 main_v35 main_v36 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_9 (constantI S_ 32 0#32),
    StableHlo.unary main_c_9 main_v37 (broadcastInDim S850000 ![] bcast_S_S850000 : (⟨S_, .i32⟩ : BufTy).Contents (Elt F) → (⟨S850000, .i32⟩ : BufTy).Contents (Elt F)),
    StableHlo.binary main_v19 main_v37 main_v38 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v39 (broadcastInDim S850000 ![] bcast_S_S850000 : (⟨S_, .i32⟩ : BufTy).Contents (Elt F) → (⟨S850000, .i32⟩ : BufTy).Contents (Elt F)),
    StableHlo.binary main_v19 main_v39 main_v40 (addi : (⟨S850000, .i32⟩ : BufTy).Contents (Elt F) → (⟨S850000, .i32⟩ : BufTy).Contents (Elt F) → (⟨S850000, .i32⟩ : BufTy).Contents (Elt F)),
    StableHlo.ternary main_v38 main_v40 main_v19 main_v41 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v41 main_v42 (broadcastInDim S850000x1 ![0] bcast_S850000_S850000x1_0 : (⟨S850000, .i32⟩ : BufTy).Contents (Elt F) → (⟨S850000x1, .i32⟩ : BufTy).Contents (Elt F)),
    StableHlo.binary main_v29 main_v42 main_v43 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v36 main_v43 main_v44 (mulf : (⟨S850000, .f32⟩ : BufTy).Contents (Elt F) → (⟨S850000, .f32⟩ : BufTy).Contents (Elt F) → (⟨S850000, .f32⟩ : BufTy).Contents (Elt F)),
    StableHlo.unary main_v12 main_v45 (Host.sign : (⟨S50000x512, .f32⟩ : BufTy).Contents (Elt F) → (⟨S50000x512, .f32⟩ : BufTy).Contents (Elt F)),
    StableHlo.unary main_v12 main_v46 (Host.absf : (⟨S50000x512, .f32⟩ : BufTy).Contents (Elt F) → (⟨S50000x512, .f32⟩ : BufTy).Contents (Elt F)) ]

/-- Fourth stretch: both binarisations of layer one, the first product, its graph convolution and bias, the binarisation of layer two, the second product, and the edge weights as a column. -/
abbrev run_opsD : List (HloOp τ sig (Elt F)) :=
  [ StableHlo.nullary main_cst_11 (constant S_ .f32 0x00000000#32),
    StableHlo.binary main_v46 main_cst_11 main_v47 ((fun x v => Host.reduceAdd x v reducesTo_S50000x512_S50000_d1 h_S_) : (⟨S50000x512, .f32⟩ : BufTy).Contents (Elt F) → (⟨S_, .f32⟩ : BufTy).Contents (Elt F) → (⟨S50000, .f32⟩ : BufTy).Contents (Elt F)),
    StableHlo.unary main_v47 main_v48 (broadcastInDim S50000x1 ![0] bcast_S50000_S50000x1_0 : (⟨S50000, .f32⟩ : BufTy).Contents (Elt F) → (⟨S50000x1, .f32⟩ : BufTy).Contents (Elt F)),
    StableHlo.nullary main_cst_12 (constant S_ .f32 0x44000000#32),
    StableHlo.unary main_cst_12 main_v49 (broadcastInDim S50000x1 ![] bcast_S_S50000x1 : (⟨S_, .f32⟩ : BufTy).Contents (Elt F) → (⟨S50000x1, .f32⟩ : BufTy).Contents (Elt F)),
    StableHlo.binary main_v48 main_v49 main_v50 (Host.divf : (⟨S50000x1, .f32⟩ : BufTy).Contents (Elt F) → (⟨S50000x1, .f32⟩ : BufTy).Contents (Elt F) → (⟨S50000x1, .f32⟩ : BufTy).Contents (Elt F)),
    StableHlo.unary main_v50 main_v51 (broadcastInDim S50000x512 ![0, 1] bcast_S50000x1_S50000x512_0_1 : (⟨S50000x1, .f32⟩ : BufTy).Contents (Elt F) → (⟨S50000x512, .f32⟩ : BufTy).Contents (Elt F)),
    StableHlo.binary main_v45 main_v51 main_v52 (mulf : (⟨S50000x512, .f32⟩ : BufTy).Contents (Elt F) → (⟨S50000x512, .f32⟩ : BufTy).Contents (Elt F) → (⟨S50000x512, .f32⟩ : BufTy).Contents (Elt F)),
    StableHlo.unary main_arg2 main_v53 (Host.sign : (⟨S512x128, .f32⟩ : BufTy).Contents (Elt F) → (⟨S512x128, .f32⟩ : BufTy).Contents (Elt F)),
    StableHlo.unary main_arg2 main_v54 (Host.absf : (⟨S512x128, .f32⟩ : BufTy).Contents (Elt F) → (⟨S512x128, .f32⟩ : BufTy).Contents (Elt F)),
    StableHlo.nullary main_cst_13 (constant S_ .f32 0x00000000#32),
    StableHlo.binary main_v54 main_cst_13 main_v55 ((fun x v => Host.reduceAdd x v reducesTo_S512x128_S128_d0 h_S_) : (⟨S512x128, .f32⟩ : BufTy).Contents (Elt F) → (⟨S_, .f32⟩ : BufTy).Contents (Elt F) → (⟨S128, .f32⟩ : BufTy).Contents (Elt F)),
    StableHlo.unary main_v55 main_v56 (broadcastInDim S1x128 ![1] bcast_S128_S1x128_1 : (⟨S128, .f32⟩ : BufTy).Contents (Elt F) → (⟨S1x128, .f32⟩ : BufTy).Contents (Elt F)),
    StableHlo.nullary main_cst_14 (constant S_ .f32 0x44000000#32),
    StableHlo.unary main_cst_14 main_v57 (broadcastInDim S1x128 ![] bcast_S_S1x128 : (⟨S_, .f32⟩ : BufTy).Contents (Elt F) → (⟨S1x128, .f32⟩ : BufTy).Contents (Elt F)),
    StableHlo.binary main_v56 main_v57 main_v58 (Host.divf : (⟨S1x128, .f32⟩ : BufTy).Contents (Elt F) → (⟨S1x128, .f32⟩ : BufTy).Contents (Elt F) → (⟨S1x128, .f32⟩ : BufTy).Contents (Elt F)),
    StableHlo.unary main_v58 main_v59 (broadcastInDim S512x128 ![0, 1] bcast_S1x128_S512x128_0_1 : (⟨S1x128, .f32⟩ : BufTy).Contents (Elt F) → (⟨S512x128, .f32⟩ : BufTy).Contents (Elt F)),
    StableHlo.binary main_v53 main_v59 main_v60 (mulf : (⟨S512x128, .f32⟩ : BufTy).Contents (Elt F) → (⟨S512x128, .f32⟩ : BufTy).Contents (Elt F) → (⟨S512x128, .f32⟩ : BufTy).Contents (Elt F)),
    StableHlo.binary main_v52 main_v60 main_v61 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    StableHlo.unary main_v44 main_v62 (broadcastInDim S850000x1 ![0] bcast_S850000_S850000x1_0 : (⟨S850000, .f32⟩ : BufTy).Contents (Elt F) → (⟨S850000x1, .f32⟩ : BufTy).Contents (Elt F)),
    StableHlo.nullary main_c_15 (constantI S_ 32 0#32),
    StableHlo.unary main_c_15 main_v63 (broadcastInDim S850000 ![] bcast_S_S850000 : (⟨S_, .i32⟩ : BufTy).Contents (Elt F) → (⟨S850000, .i32⟩ : BufTy).Contents (Elt F)),
    StableHlo.binary main_v16 main_v63 main_v64 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v65 (broadcastInDim S850000 ![] bcast_S_S850000 : (⟨S_, .i32⟩ : BufTy).Contents (Elt F) → (⟨S850000, .i32⟩ : BufTy).Contents (Elt F)),
    StableHlo.binary main_v16 main_v65 main_v66 (addi : (⟨S850000, .i32⟩ : BufTy).Contents (Elt F) → (⟨S850000, .i32⟩ : BufTy).Contents (Elt F) → (⟨S850000, .i32⟩ : BufTy).Contents (Elt F)),
    StableHlo.ternary main_v64 main_v66 main_v16 main_v67 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v67 main_v68 (broadcastInDim S850000x1 ![0] bcast_S850000_S850000x1_0 : (⟨S850000, .i32⟩ : BufTy).Contents (Elt F) → (⟨S850000x1, .i32⟩ : BufTy).Contents (Elt F)),
    StableHlo.binary main_v61 main_v68 main_v69 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v62 main_v70 (broadcastInDim S850000x128 ![0, 1] bcast_S850000x1_S850000x128_0_1 : (⟨S850000x1, .f32⟩ : BufTy).Contents (Elt F) → (⟨S850000x128, .f32⟩ : BufTy).Contents (Elt F)),
    StableHlo.binary main_v70 main_v69 main_v71 (mulf : (⟨S850000x128, .f32⟩ : BufTy).Contents (Elt F) → (⟨S850000x128, .f32⟩ : BufTy).Contents (Elt F) → (⟨S850000x128, .f32⟩ : BufTy).Contents (Elt F)),
    StableHlo.nullary main_cst_17 (constant S_ .f32 0x00000000#32),
    StableHlo.unary main_cst_17 main_v72 (broadcastInDim S50000x128 ![] bcast_S_S50000x128 : (⟨S_, .f32⟩ : BufTy).Contents (Elt F) → (⟨S50000x128, .f32⟩ : BufTy).Contents (Elt F)),
    StableHlo.unary main_v19 main_v73 (broadcastInDim S850000x1 ![0] bcast_S850000_S850000x1_0 : (⟨S850000, .i32⟩ : BufTy).Contents (Elt F) → (⟨S850000x1, .i32⟩ : BufTy).Contents (Elt F)),
    StableHlo.ternary main_v72 main_v73 main_v71 main_v74 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg3 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v76 main_v77 (addf : (⟨S50000x128, .f32⟩ : BufTy).Contents (Elt F) → (⟨S50000x128, .f32⟩ : BufTy).Contents (Elt F) → (⟨S50000x128, .f32⟩ : BufTy).Contents (Elt F)),
    StableHlo.unary main_v77 main_v78 (Host.sign : (⟨S50000x128, .f32⟩ : BufTy).Contents (Elt F) → (⟨S50000x128, .f32⟩ : BufTy).Contents (Elt F)),
    StableHlo.unary main_v77 main_v79 (Host.absf : (⟨S50000x128, .f32⟩ : BufTy).Contents (Elt F) → (⟨S50000x128, .f32⟩ : BufTy).Contents (Elt F)),
    StableHlo.nullary main_cst_18 (constant S_ .f32 0x00000000#32),
    StableHlo.binary main_v79 main_cst_18 main_v80 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v80 main_v81 (broadcastInDim S50000x1 ![0] bcast_S50000_S50000x1_0 : (⟨S50000, .f32⟩ : BufTy).Contents (Elt F) → (⟨S50000x1, .f32⟩ : BufTy).Contents (Elt F)),
    StableHlo.nullary main_cst_19 (constant S_ .f32 0x43000000#32),
    StableHlo.unary main_cst_19 main_v82 (broadcastInDim S50000x1 ![] bcast_S_S50000x1 : (⟨S_, .f32⟩ : BufTy).Contents (Elt F) → (⟨S50000x1, .f32⟩ : BufTy).Contents (Elt F)),
    StableHlo.binary main_v81 main_v82 main_v83 (Host.divf : (⟨S50000x1, .f32⟩ : BufTy).Contents (Elt F) → (⟨S50000x1, .f32⟩ : BufTy).Contents (Elt F) → (⟨S50000x1, .f32⟩ : BufTy).Contents (Elt F)),
    StableHlo.unary main_v83 main_v84 (broadcastInDim S50000x128 ![0, 1] bcast_S50000x1_S50000x128_0_1 : (⟨S50000x1, .f32⟩ : BufTy).Contents (Elt F) → (⟨S50000x128, .f32⟩ : BufTy).Contents (Elt F)),
    StableHlo.binary main_v78 main_v84 main_v85 (mulf : (⟨S50000x128, .f32⟩ : BufTy).Contents (Elt F) → (⟨S50000x128, .f32⟩ : BufTy).Contents (Elt F) → (⟨S50000x128, .f32⟩ : BufTy).Contents (Elt F)),
    StableHlo.unary main_arg4 main_v86 (Host.sign : (⟨S128x64, .f32⟩ : BufTy).Contents (Elt F) → (⟨S128x64, .f32⟩ : BufTy).Contents (Elt F)),
    StableHlo.unary main_arg4 main_v87 (Host.absf : (⟨S128x64, .f32⟩ : BufTy).Contents (Elt F) → (⟨S128x64, .f32⟩ : BufTy).Contents (Elt F)),
    StableHlo.nullary main_cst_20 (constant S_ .f32 0x00000000#32),
    StableHlo.binary main_v87 main_cst_20 main_v88 ((fun x v => Host.reduceAdd x v reducesTo_S128x64_S64_d0 h_S_) : (⟨S128x64, .f32⟩ : BufTy).Contents (Elt F) → (⟨S_, .f32⟩ : BufTy).Contents (Elt F) → (⟨S64, .f32⟩ : BufTy).Contents (Elt F)),
    StableHlo.unary main_v88 main_v89 (broadcastInDim S1x64 ![1] bcast_S64_S1x64_1 : (⟨S64, .f32⟩ : BufTy).Contents (Elt F) → (⟨S1x64, .f32⟩ : BufTy).Contents (Elt F)),
    StableHlo.nullary main_cst_21 (constant S_ .f32 0x43000000#32),
    StableHlo.unary main_cst_21 main_v90 (broadcastInDim S1x64 ![] bcast_S_S1x64 : (⟨S_, .f32⟩ : BufTy).Contents (Elt F) → (⟨S1x64, .f32⟩ : BufTy).Contents (Elt F)),
    StableHlo.binary main_v89 main_v90 main_v91 (Host.divf : (⟨S1x64, .f32⟩ : BufTy).Contents (Elt F) → (⟨S1x64, .f32⟩ : BufTy).Contents (Elt F) → (⟨S1x64, .f32⟩ : BufTy).Contents (Elt F)),
    StableHlo.unary main_v91 main_v92 (broadcastInDim S128x64 ![0, 1] bcast_S1x64_S128x64_0_1 : (⟨S1x64, .f32⟩ : BufTy).Contents (Elt F) → (⟨S128x64, .f32⟩ : BufTy).Contents (Elt F)),
    StableHlo.binary main_v86 main_v92 main_v93 (mulf : (⟨S128x64, .f32⟩ : BufTy).Contents (Elt F) → (⟨S128x64, .f32⟩ : BufTy).Contents (Elt F) → (⟨S128x64, .f32⟩ : BufTy).Contents (Elt F)),
    StableHlo.binary main_v85 main_v93 main_v94 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_v44 main_v95 (broadcastInDim S850000x1 ![0] bcast_S850000_S850000x1_0 : (⟨S850000, .f32⟩ : BufTy).Contents (Elt F) → (⟨S850000x1, .f32⟩ : BufTy).Contents (Elt F)) ]

/-- Fifth stretch: the second graph convolution and bias, then the log-softmax function's body inlined: row maxima, shift, exponentials' row sums, their logarithm subtracted. -/
abbrev run_opsE : List (HloOp τ sig (Elt F)) :=
  [ StableHlo.nullary main_c_22 (constantI S_ 32 0#32),
    StableHlo.unary main_c_22 main_v96 (broadcastInDim S850000 ![] bcast_S_S850000 : (⟨S_, .i32⟩ : BufTy).Contents (Elt F) → (⟨S850000, .i32⟩ : BufTy).Contents (Elt F)),
    StableHlo.binary main_v16 main_v96 main_v97 (cmpi .slt : (⟨S850000, .i32⟩ : BufTy).Contents (Elt F) → (⟨S850000, .i32⟩ : BufTy).Contents (Elt F) → (⟨S850000, .i1⟩ : BufTy).Contents (Elt F)),
    StableHlo.nullary main_c_23 (constantI S_ 32 50000#32),
    StableHlo.unary main_c_23 main_v98 (broadcastInDim S850000 ![] bcast_S_S850000 : (⟨S_, .i32⟩ : BufTy).Contents (Elt F) → (⟨S850000, .i32⟩ : BufTy).Contents (Elt F)),
    StableHlo.binary main_v16 main_v98 main_v99 (addi : (⟨S850000, .i32⟩ : BufTy).Contents (Elt F) → (⟨S850000, .i32⟩ : BufTy).Contents (Elt F) → (⟨S850000, .i32⟩ : BufTy).Contents (Elt F)),
    StableHlo.ternary main_v97 main_v99 main_v16 main_v100 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v100 main_v101 (broadcastInDim S850000x1 ![0] bcast_S850000_S850000x1_0 : (⟨S850000, .i32⟩ : BufTy).Contents (Elt F) → (⟨S850000x1, .i32⟩ : BufTy).Contents (Elt F)),
    StableHlo.binary main_v94 main_v101 main_v102 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v95 main_v103 (broadcastInDim S850000x64 ![0, 1] bcast_S850000x1_S850000x64_0_1 : (⟨S850000x1, .f32⟩ : BufTy).Contents (Elt F) → (⟨S850000x64, .f32⟩ : BufTy).Contents (Elt F)),
    StableHlo.binary main_v103 main_v102 main_v104 (mulf : (⟨S850000x64, .f32⟩ : BufTy).Contents (Elt F) → (⟨S850000x64, .f32⟩ : BufTy).Contents (Elt F) → (⟨S850000x64, .f32⟩ : BufTy).Contents (Elt F)),
    StableHlo.nullary main_cst_24 (constant S_ .f32 0x00000000#32),
    StableHlo.unary main_cst_24 main_v105 (broadcastInDim S50000x64 ![] bcast_S_S50000x64 : (⟨S_, .f32⟩ : BufTy).Contents (Elt F) → (⟨S50000x64, .f32⟩ : BufTy).Contents (Elt F)),
    StableHlo.unary main_v19 main_v106 (broadcastInDim S850000x1 ![0] bcast_S850000_S850000x1_0 : (⟨S850000, .i32⟩ : BufTy).Contents (Elt F) → (⟨S850000x1, .i32⟩ : BufTy).Contents (Elt F)),
    StableHlo.ternary main_v105 main_v106 main_v104 main_v107 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg5 main_v108 (broadcastInDim S1x64 ![1] bcast_S64_S1x64_1 : (⟨S64, .f32⟩ : BufTy).Contents (Elt F) → (⟨S1x64, .f32⟩ : BufTy).Contents (Elt F)),
    StableHlo.unary main_v108 main_v109 (broadcastInDim S50000x64 ![0, 1] bcast_S1x64_S50000x64_0_1 : (⟨S1x64, .f32⟩ : BufTy).Contents (Elt F) → (⟨S50000x64, .f32⟩ : BufTy).Contents (Elt F)),
    StableHlo.binary main_v107 main_v109 main_v110 (addf : (⟨S50000x64, .f32⟩ : BufTy).Contents (Elt F) → (⟨S50000x64, .f32⟩ : BufTy).Contents (Elt F) → (⟨S50000x64, .f32⟩ : BufTy).Contents (Elt F)),
    StableHlo.nullary main_call2_cst (constant S_ .f32 0xFF800000#32),
    StableHlo.binary main_v110 main_call2_cst main_call2_v0 ((fun x v => Host.reduce FloatOps.maximumf x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.nullary main_call2_cst_0 (constant S_ .f32 0xFF800000#32),
    StableHlo.unary main_call2_cst_0 main_call2_v1 (broadcastInDim S50000 ![] bcast_S_S50000 : (⟨S_, .f32⟩ : BufTy).Contents (Elt F) → (⟨S50000, .f32⟩ : BufTy).Contents (Elt F)),
    StableHlo.binary main_call2_v1 main_call2_v0 main_call2_v2 (maximumf : (⟨S50000, .f32⟩ : BufTy).Contents (Elt F) → (⟨S50000, .f32⟩ : BufTy).Contents (Elt F) → (⟨S50000, .f32⟩ : BufTy).Contents (Elt F)),
    StableHlo.unary main_call2_v2 main_call2_v3 (broadcastInDim S50000x1 ![0] bcast_S50000_S50000x1_0 : (⟨S50000, .f32⟩ : BufTy).Contents (Elt F) → (⟨S50000x1, .f32⟩ : BufTy).Contents (Elt F)),
    StableHlo.unary main_call2_v3 main_call2_v4 (broadcastInDim S50000x64 ![0, 1] bcast_S50000x1_S50000x64_0_1 : (⟨S50000x1, .f32⟩ : BufTy).Contents (Elt F) → (⟨S50000x64, .f32⟩ : BufTy).Contents (Elt F)),
    StableHlo.binary main_v110 main_call2_v4 main_call2_v5 (subf : (⟨S50000x64, .f32⟩ : BufTy).Contents (Elt F) → (⟨S50000x64, .f32⟩ : BufTy).Contents (Elt F) → (⟨S50000x64, .f32⟩ : BufTy).Contents (Elt F)),
    StableHlo.unary main_call2_v5 main_call2_v6 (Host.exp : (⟨S50000x64, .f32⟩ : BufTy).Contents (Elt F) → (⟨S50000x64, .f32⟩ : BufTy).Contents (Elt F)),
    StableHlo.nullary main_call2_cst_1 (constant S_ .f32 0x00000000#32),
    StableHlo.binary main_call2_v6 main_call2_cst_1 main_call2_v7 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_call2_v7 main_call2_v8 (broadcastInDim S50000x1 ![0] bcast_S50000_S50000x1_0 : (⟨S50000, .f32⟩ : BufTy).Contents (Elt F) → (⟨S50000x1, .f32⟩ : BufTy).Contents (Elt F)),
    StableHlo.unary main_call2_v8 main_call2_v9 (Host.log : (⟨S50000x1, .f32⟩ : BufTy).Contents (Elt F) → (⟨S50000x1, .f32⟩ : BufTy).Contents (Elt F)),
    StableHlo.unary main_call2_v9 main_call2_v10 (broadcastInDim S50000x64 ![0, 1] bcast_S50000x1_S50000x64_0_1 : (⟨S50000x1, .f32⟩ : BufTy).Contents (Elt F) → (⟨S50000x64, .f32⟩ : BufTy).Contents (Elt F)),
    StableHlo.binary main_call2_v5 main_call2_v10 main_v111 (subf : (⟨S50000x64, .f32⟩ : BufTy).Contents (Elt F) → (⟨S50000x64, .f32⟩ : BufTy).Contents (Elt F) → (⟨S50000x64, .f32⟩ : BufTy).Contents (Elt F)) ]

/-- The whole line: the five stretches in order. -/
abbrev run_ops : List (HloOp τ sig (Elt F)) := (run_opsA ++ (run_opsB ++ run_opsC)) ++ (run_opsD ++ run_opsE)

/-- Folding a joined line is folding its parts in turn. -/
theorem run_after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by
    rw [List.cons_append, StableHlo.after_cons, StableHlo.after_cons, run_after_app l₁ l₂]

theorem run_after_ops (V : Valuation τ sig (Elt F)) :
    StableHlo.after run_ops V
      = StableHlo.after run_opsE (StableHlo.after run_opsD (StableHlo.after run_opsC (StableHlo.after run_opsB (StableHlo.after run_opsA V)))) := by
  show StableHlo.after ((run_opsA ++ (run_opsB ++ run_opsC)) ++ (run_opsD ++ run_opsE)) V = _
  rw [run_after_app, run_after_app, run_after_app, run_after_app]

/-- The first third of the entry function is the line of the first three stretches: the two called functions' bodies
    unfold at their calls, and moving a value between a buffer and its own type is the identity. -/
theorem run_part0_eq (c : Dev nD) : main_part0 (F := F) c = StableHlo.seq (run_opsA ++ (run_opsB ++ run_opsC)) := by
  chain_rfl

theorem run_part1_eq (c : Dev nD) : main_part1 (F := F) c = StableHlo.seq run_opsD := by
  chain_rfl

theorem run_part2_eq (c : Dev nD) : main_part2 (F := F) c = StableHlo.seq run_opsE := by
  chain_rfl

/-- The entry function runs its three parts in order; lines in sequence are the line of the joined list. -/
theorem run_main_eq (c : Dev nD) : main (F := F) c = StableHlo.seq run_ops :=
  calc main (F := F) c
      = (main_part0 c >>= fun _ => main_part1 c >>= fun _ => main_part2 c) := rfl
    _ = (StableHlo.seq (run_opsA ++ (run_opsB ++ run_opsC)) >>= fun _ => StableHlo.seq run_opsD >>= fun _ => StableHlo.seq run_opsE) := by
        rw [run_part0_eq, run_part1_eq, run_part2_eq]
    _ = StableHlo.seq run_ops := by
        show _ = StableHlo.seq ((run_opsA ++ (run_opsB ++ run_opsC)) ++ (run_opsD ++ run_opsE))
        rw [StableHlo.seq_append (run_opsA ++ (run_opsB ++ run_opsC)) (run_opsD ++ run_opsE), StableHlo.seq_append run_opsD run_opsE]

theorem run_scopedRefs_eq : (Finset.univ.filter fun b : Ref sig .tc => b.isScoped) = ∅ := by decide
theorem run_scopedSems_eq : (Finset.univ.filter fun sm : SemLoc sig => sm.isScoped .tc) = ∅ := by decide

theorem run_opsA_sub : (run_opsA : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub ..,
    StableHlo.nullary_bufs_sub .., StableHlo.binary_bufs_sub .., StableHlo.unary_bufs_sub .., StableHlo.nullary_bufs_sub .., StableHlo.unary_bufs_sub .., StableHlo.binary_bufs_sub ..,
    StableHlo.unary_bufs_sub .., StableHlo.binary_bufs_sub .., StableHlo.binary_bufs_sub .., StableHlo.unary_bufs_sub .., StableHlo.nullary_bufs_sub .., StableHlo.binary_bufs_sub ..,
    StableHlo.nullary_bufs_sub .., StableHlo.binary_bufs_sub .., StableHlo.unary_bufs_sub .., StableHlo.binary_bufs_sub .., StableHlo.nullary_bufs_sub .., StableHlo.binary_bufs_sub ..,
    StableHlo.nullary_bufs_sub .., StableHlo.unary_bufs_sub .., StableHlo.unary_bufs_sub .., StableHlo.ternary_bufs_sub .., StableHlo.unary_bufs_sub .., StableHlo.unary_bufs_sub ..,
    StableHlo.binary_bufs_sub .., StableHlo.nullary_bufs_sub .., StableHlo.unary_bufs_sub .., StableHlo.binary_bufs_sub .., StableHlo.unary_bufs_sub .., StableHlo.unary_bufs_sub ..,
    StableHlo.unary_bufs_sub .., StableHlo.binary_bufs_sub .., StableHlo.nullary_bufs_sub .., StableHlo.unary_bufs_sub .., StableHlo.reshape_bufs_sub ..⟩

theorem run_opsB_sub : (run_opsB : List (HloOp τ sig (Elt F))).Forall fun op => op.bufs ⊆ StableHlo.tcRefs τ sig :=
  ⟨StableHlo.binary_bufs_sub .., StableHlo.unary_bufs_sub .., StableHlo.reshape_bufs_sub ..⟩

theorem run_opsC_sub : (run_opsC : List (HloOp τ sig (Elt F))).Forall fun op => op.bufs ⊆ StableHlo.tcRefs τ sig :=
  ⟨StableHlo.binary_bufs_sub .., StableHlo.nullary_bufs_sub .., StableHlo.unary_bufs_sub .., StableHlo.nullary_bufs_sub .., StableHlo.unary_bufs_sub .., StableHlo.unary_bufs_sub ..,
    StableHlo.ternary_bufs_sub .., StableHlo.nullary_bufs_sub .., StableHlo.unary_bufs_sub .., StableHlo.binary_bufs_sub .., StableHlo.nullary_bufs_sub .., StableHlo.unary_bufs_sub ..,
    StableHlo.binary_bufs_sub .., StableHlo.unary_bufs_sub .., StableHlo.nullary_bufs_sub .., StableHlo.unary_bufs_sub .., StableHlo.unary_bufs_sub .., StableHlo.ternary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.binary_bufs_sub ..,
    StableHlo.binary_bufs_sub .., StableHlo.unary_bufs_sub .., StableHlo.unary_bufs_sub ..⟩

theorem run_opsD_sub : (run_opsD : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub ..,
    StableHlo.unary_bufs_sub .., StableHlo.binary_bufs_sub .., StableHlo.unary_bufs_sub .., StableHlo.unary_bufs_sub .., StableHlo.nullary_bufs_sub .., StableHlo.binary_bufs_sub ..,
    StableHlo.unary_bufs_sub .., StableHlo.nullary_bufs_sub .., StableHlo.unary_bufs_sub .., StableHlo.binary_bufs_sub .., StableHlo.unary_bufs_sub .., StableHlo.binary_bufs_sub ..,
    StableHlo.binary_bufs_sub .., StableHlo.unary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub .., StableHlo.unary_bufs_sub ..,
    StableHlo.binary_bufs_sub .., StableHlo.nullary_bufs_sub .., StableHlo.unary_bufs_sub .., StableHlo.unary_bufs_sub .., StableHlo.ternary_bufs_sub .., StableHlo.unary_bufs_sub ..,
    StableHlo.unary_bufs_sub .., StableHlo.binary_bufs_sub .., StableHlo.unary_bufs_sub .., StableHlo.unary_bufs_sub .., StableHlo.nullary_bufs_sub .., StableHlo.binary_bufs_sub ..,
    StableHlo.unary_bufs_sub .., StableHlo.nullary_bufs_sub .., StableHlo.unary_bufs_sub .., StableHlo.binary_bufs_sub .., StableHlo.unary_bufs_sub .., StableHlo.binary_bufs_sub ..,
    StableHlo.unary_bufs_sub .., StableHlo.unary_bufs_sub .., StableHlo.nullary_bufs_sub .., StableHlo.binary_bufs_sub .., StableHlo.unary_bufs_sub .., StableHlo.nullary_bufs_sub ..,
    StableHlo.unary_bufs_sub .., StableHlo.binary_bufs_sub .., StableHlo.unary_bufs_sub .., StableHlo.binary_bufs_sub .., StableHlo.binary_bufs_sub .., StableHlo.unary_bufs_sub ..⟩

theorem run_opsE_sub : (run_opsE : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.unary_bufs_sub .., StableHlo.binary_bufs_sub .., StableHlo.nullary_bufs_sub ..,
    StableHlo.unary_bufs_sub .., StableHlo.unary_bufs_sub .., StableHlo.ternary_bufs_sub .., StableHlo.unary_bufs_sub .., StableHlo.unary_bufs_sub .., StableHlo.binary_bufs_sub ..,
    StableHlo.nullary_bufs_sub .., StableHlo.binary_bufs_sub .., StableHlo.nullary_bufs_sub .., StableHlo.unary_bufs_sub .., StableHlo.binary_bufs_sub .., StableHlo.unary_bufs_sub ..,
    StableHlo.unary_bufs_sub .., StableHlo.binary_bufs_sub .., StableHlo.unary_bufs_sub .., StableHlo.nullary_bufs_sub .., StableHlo.binary_bufs_sub .., StableHlo.unary_bufs_sub ..,
    StableHlo.unary_bufs_sub .., StableHlo.unary_bufs_sub .., StableHlo.binary_bufs_sub ..⟩

theorem run_opsA_fresh : (run_opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl⟩

theorem run_opsB_fresh : (run_opsB : List (HloOp τ sig (Elt F))).Forall fun op => op.fresh = ∅ :=
  ⟨rfl, rfl, rfl⟩

theorem run_opsC_fresh : (run_opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl⟩

theorem run_opsD_fresh : (run_opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

theorem run_opsE_fresh : (run_opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

theorem run_ops_sub : (run_ops : List (HloOp τ sig (Elt F))).Forall fun op => op.bufs ⊆ StableHlo.tcRefs τ sig :=
  List.forall_append.mpr ⟨List.forall_append.mpr ⟨run_opsA_sub, List.forall_append.mpr ⟨run_opsB_sub, run_opsC_sub⟩⟩,
    List.forall_append.mpr ⟨run_opsD_sub, run_opsE_sub⟩⟩

theorem run_ops_fresh : ∀ op ∈ (run_ops : List (HloOp τ sig (Elt F))), op.fresh = ∅ :=
  List.forall_iff_forall_mem.mp
    (List.forall_append.mpr ⟨List.forall_append.mpr ⟨run_opsA_fresh, List.forall_append.mpr ⟨run_opsB_fresh, run_opsC_fresh⟩⟩,
      List.forall_append.mpr ⟨run_opsD_fresh, run_opsE_fresh⟩⟩)

/-! ## What each stretch leaves, over any contents `V` of the buffers -/

section Stretches
variable (V : Valuation τ sig (Elt F)) (ei : Vec F S2x800000 .i32) (z : Vec F S50000x512 .f32)

attribute [local irreducible] Host.reduceAdd Host.reduce Host.gather Host.scatterAdd concatenate broadcastInDim extractStridedSlice

/-- The first stretch: the input normalised by its column mean and variance. -/
theorem run_sA_v12 : StableHlo.after run_opsA V (main_v12 : DevRef τ sig) = Fn.bn (V (main_arg0 : DevRef τ sig)) := by
  after_results_simp
  first | done | rfl

theorem run_sA_v13 : StableHlo.after run_opsA V (main_v13 : DevRef τ sig) = iotaInDim S50000 32 0 := by after_results_simp

theorem run_sA_v15 : StableHlo.after run_opsA V (main_v15 : DevRef τ sig) = shapeCast S800000 (extractStridedSlice S1x800000 ![0, 0] (V (main_arg1 : DevRef τ sig)) slices_S2x800000_S1x800000_0_0) shapeCasts_S1x800000_S800000 := by
  after_results_simp
  first | done | rfl

theorem run_sA_arg1 : StableHlo.after run_opsA V (main_arg1 : DevRef τ sig) = V (main_arg1 : DevRef τ sig) := by after_results_simp
theorem run_sA_arg2 : StableHlo.after run_opsA V (main_arg2 : DevRef τ sig) = V (main_arg2 : DevRef τ sig) := by after_results_simp
theorem run_sA_arg3 : StableHlo.after run_opsA V (main_arg3 : DevRef τ sig) = V (main_arg3 : DevRef τ sig) := by after_results_simp
theorem run_sA_arg4 : StableHlo.after run_opsA V (main_arg4 : DevRef τ sig) = V (main_arg4 : DevRef τ sig) := by after_results_simp
theorem run_sA_arg5 : StableHlo.after run_opsA V (main_arg5 : DevRef τ sig) = V (main_arg5 : DevRef τ sig) := by after_results_simp

/-- The second stretch: the source list from the flattened first edge row and the node counter. -/
theorem run_sB_v16 (h15 : V (main_v15 : DevRef τ sig) = shapeCast S800000 (extractStridedSlice S1x800000 ![0, 0] ei slices_S2x800000_S1x800000_0_0) shapeCasts_S1x800000_S800000) (h13 : V (main_v13 : DevRef τ sig) = iotaInDim S50000 32 0) :
    StableHlo.after run_opsB V (main_v16 : DevRef τ sig) = Fn.row ei := by
  after_results_simp
  rw [h15, h13]

theorem run_sB_v18 : StableHlo.after run_opsB V (main_v18 : DevRef τ sig) = shapeCast S800000 (extractStridedSlice S1x800000 ![1, 0] (V (main_arg1 : DevRef τ sig)) slices_S2x800000_S1x800000_1_0) shapeCasts_S1x800000_S800000 := by
  after_results_simp
  first | done | rfl

theorem run_sB_v13 : StableHlo.after run_opsB V (main_v13 : DevRef τ sig) = V (main_v13 : DevRef τ sig) := by after_results_simp
theorem run_sB_v12 : StableHlo.after run_opsB V (main_v12 : DevRef τ sig) = V (main_v12 : DevRef τ sig) := by after_results_simp
theorem run_sB_arg2 : StableHlo.after run_opsB V (main_arg2 : DevRef τ sig) = V (main_arg2 : DevRef τ sig) := by after_results_simp
theorem run_sB_arg3 : StableHlo.after run_opsB V (main_arg3 : DevRef τ sig) = V (main_arg3 : DevRef τ sig) := by after_results_simp
theorem run_sB_arg4 : StableHlo.after run_opsB V (main_arg4 : DevRef τ sig) = V (main_arg4 : DevRef τ sig) := by after_results_simp
theorem run_sB_arg5 : StableHlo.after run_opsB V (main_arg5 : DevRef τ sig) = V (main_arg5 : DevRef τ sig) := by after_results_simp

/-- The third stretch: the target list, the per-edge normalisation, the sign and the size of the normalised input. -/
theorem run_sC_v19 (h18 : V (main_v18 : DevRef τ sig) = shapeCast S800000 (extractStridedSlice S1x800000 ![1, 0] ei slices_S2x800000_S1x800000_1_0) shapeCasts_S1x800000_S800000) (h13 : V (main_v13 : DevRef τ sig) = iotaInDim S50000 32 0) :
    StableHlo.after run_opsC V (main_v19 : DevRef τ sig) = Fn.col ei := by
  after_results_simp
  rw [h18, h13]

theorem run_sC_v44 (h16 : V (main_v16 : DevRef τ sig) = Fn.row ei) (h18 : V (main_v18 : DevRef τ sig) = shapeCast S800000 (extractStridedSlice S1x800000 ![1, 0] ei slices_S2x800000_S1x800000_1_0) shapeCasts_S1x800000_S800000)
    (h13 : V (main_v13 : DevRef τ sig) = iotaInDim S50000 32 0) :
    StableHlo.after run_opsC V (main_v44 : DevRef τ sig) = Fn.norm ei := by
  after_results_simp
  rw [h16, h18, h13]
  first | done | rfl

theorem run_sC_v45 : StableHlo.after run_opsC V (main_v45 : DevRef τ sig) = Host.sign (V (main_v12 : DevRef τ sig)) := by after_results_simp
theorem run_sC_v46 : StableHlo.after run_opsC V (main_v46 : DevRef τ sig) = Host.absf (V (main_v12 : DevRef τ sig)) := by after_results_simp

theorem run_sC_v16 : StableHlo.after run_opsC V (main_v16 : DevRef τ sig) = V (main_v16 : DevRef τ sig) := by after_results_simp
theorem run_sC_arg2 : StableHlo.after run_opsC V (main_arg2 : DevRef τ sig) = V (main_arg2 : DevRef τ sig) := by after_results_simp
theorem run_sC_arg3 : StableHlo.after run_opsC V (main_arg3 : DevRef τ sig) = V (main_arg3 : DevRef τ sig) := by after_results_simp
theorem run_sC_arg4 : StableHlo.after run_opsC V (main_arg4 : DevRef τ sig) = V (main_arg4 : DevRef τ sig) := by after_results_simp
theorem run_sC_arg5 : StableHlo.after run_opsC V (main_arg5 : DevRef τ sig) = V (main_arg5 : DevRef τ sig) := by after_results_simp

/-- The fourth stretch: both layers' binarisations and products around the first graph convolution. -/
theorem run_sD_v94 (h16 : V (main_v16 : DevRef τ sig) = Fn.row ei) (h19 : V (main_v19 : DevRef τ sig) = Fn.col ei) (h44 : V (main_v44 : DevRef τ sig) = Fn.norm ei)
    (h45 : V (main_v45 : DevRef τ sig) = Host.sign z) (h46 : V (main_v46 : DevRef τ sig) = Host.absf z) :
    StableHlo.after run_opsD V (main_v94 : DevRef τ sig)
      = Fn.dot2 (Fn.binAct128 (Fn.conv1 (Fn.dot1 (Fn.binAct512 z) (Fn.binW1 (V (main_arg2 : DevRef τ sig)))) ei (V (main_arg3 : DevRef τ sig))))
          (Fn.binW2 (V (main_arg4 : DevRef τ sig))) := by
  after_results_simp
  rw [h16, h19, h44, h45, h46]

theorem run_sD_v95 : StableHlo.after run_opsD V (main_v95 : DevRef τ sig) = broadcastInDim S850000x1 ![0] bcast_S850000_S850000x1_0 (V (main_v44 : DevRef τ sig)) := by after_results_simp

theorem run_sD_v16 : StableHlo.after run_opsD V (main_v16 : DevRef τ sig) = V (main_v16 : DevRef τ sig) := by after_results_simp
theorem run_sD_v19 : StableHlo.after run_opsD V (main_v19 : DevRef τ sig) = V (main_v19 : DevRef τ sig) := by after_results_simp
theorem run_sD_arg5 : StableHlo.after run_opsD V (main_arg5 : DevRef τ sig) = V (main_arg5 : DevRef τ sig) := by after_results_simp

/-- The fifth stretch: the second graph convolution, then the row-wise log-softmax. -/
theorem run_sE_v111 (h16 : V (main_v16 : DevRef τ sig) = Fn.row ei) (h19 : V (main_v19 : DevRef τ sig) = Fn.col ei)
    (h95 : V (main_v95 : DevRef τ sig) = broadcastInDim S850000x1 ![0] bcast_S850000_S850000x1_0 (Fn.norm ei)) :
    StableHlo.after run_opsE V (main_v111 : DevRef τ sig) = Fn.lsm (Fn.conv2 (V (main_v94 : DevRef τ sig)) ei (V (main_arg5 : DevRef τ sig))) := by
  after_results_simp
  rw [h16, h19, h95]
  first | done | rfl

end Stretches

section ReadBack
variable (V : Valuation τ sig (Elt F))

/-- At the end of the line the result buffer holds the reference's composition of the six arguments' contents:
    each stretch's results are carried to the next as what its buffers hold. -/
theorem run_out_eq :
    StableHlo.after run_ops V (main_v111 : DevRef τ sig)
      = Fn.out (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [run_after_ops]
  have hB16 : StableHlo.after run_opsB (StableHlo.after run_opsA V) (main_v16 : DevRef τ sig) = Fn.row (V (main_arg1 : DevRef τ sig)) :=
    run_sB_v16 (StableHlo.after run_opsA V) (V (main_arg1 : DevRef τ sig)) (run_sA_v15 V) (run_sA_v13 V)
  have hB18 : StableHlo.after run_opsB (StableHlo.after run_opsA V) (main_v18 : DevRef τ sig) = shapeCast S800000 (extractStridedSlice S1x800000 ![1, 0] (V (main_arg1 : DevRef τ sig)) slices_S2x800000_S1x800000_1_0) shapeCasts_S1x800000_S800000 :=
    (run_sB_v18 (StableHlo.after run_opsA V)).trans (by rw [run_sA_arg1 V])
  have hB13 : StableHlo.after run_opsB (StableHlo.after run_opsA V) (main_v13 : DevRef τ sig) = iotaInDim S50000 32 0 := (run_sB_v13 (StableHlo.after run_opsA V)).trans (run_sA_v13 V)
  have hB12 : StableHlo.after run_opsB (StableHlo.after run_opsA V) (main_v12 : DevRef τ sig) = (Fn.bn (V (main_arg0 : DevRef τ sig))) := (run_sB_v12 (StableHlo.after run_opsA V)).trans (run_sA_v12 V)
  have hB2 : StableHlo.after run_opsB (StableHlo.after run_opsA V) (main_arg2 : DevRef τ sig) = (V (main_arg2 : DevRef τ sig)) := (run_sB_arg2 (StableHlo.after run_opsA V)).trans (run_sA_arg2 V)
  have hB3 : StableHlo.after run_opsB (StableHlo.after run_opsA V) (main_arg3 : DevRef τ sig) = (V (main_arg3 : DevRef τ sig)) := (run_sB_arg3 (StableHlo.after run_opsA V)).trans (run_sA_arg3 V)
  have hB4 : StableHlo.after run_opsB (StableHlo.after run_opsA V) (main_arg4 : DevRef τ sig) = (V (main_arg4 : DevRef τ sig)) := (run_sB_arg4 (StableHlo.after run_opsA V)).trans (run_sA_arg4 V)
  have hB5 : StableHlo.after run_opsB (StableHlo.after run_opsA V) (main_arg5 : DevRef τ sig) = (V (main_arg5 : DevRef τ sig)) := (run_sB_arg5 (StableHlo.after run_opsA V)).trans (run_sA_arg5 V)
  generalize StableHlo.after run_opsB (StableHlo.after run_opsA V) = WB at hB16 hB18 hB13 hB12 hB2 hB3 hB4 hB5 ⊢
  have hC16 : StableHlo.after run_opsC WB (main_v16 : DevRef τ sig) = Fn.row (V (main_arg1 : DevRef τ sig)) := (run_sC_v16 WB).trans hB16
  have hC19 : StableHlo.after run_opsC WB (main_v19 : DevRef τ sig) = Fn.col (V (main_arg1 : DevRef τ sig)) := run_sC_v19 WB (V (main_arg1 : DevRef τ sig)) hB18 hB13
  have hC44 : StableHlo.after run_opsC WB (main_v44 : DevRef τ sig) = Fn.norm (V (main_arg1 : DevRef τ sig)) := run_sC_v44 WB (V (main_arg1 : DevRef τ sig)) hB16 hB18 hB13
  have hC45 : StableHlo.after run_opsC WB (main_v45 : DevRef τ sig) = Host.sign (Fn.bn (V (main_arg0 : DevRef τ sig))) := (run_sC_v45 WB).trans (by rw [hB12])
  have hC46 : StableHlo.after run_opsC WB (main_v46 : DevRef τ sig) = Host.absf (Fn.bn (V (main_arg0 : DevRef τ sig))) := (run_sC_v46 WB).trans (by rw [hB12])
  have hC2 : StableHlo.after run_opsC WB (main_arg2 : DevRef τ sig) = (V (main_arg2 : DevRef τ sig)) := (run_sC_arg2 WB).trans hB2
  have hC3 : StableHlo.after run_opsC WB (main_arg3 : DevRef τ sig) = (V (main_arg3 : DevRef τ sig)) := (run_sC_arg3 WB).trans hB3
  have hC4 : StableHlo.after run_opsC WB (main_arg4 : DevRef τ sig) = (V (main_arg4 : DevRef τ sig)) := (run_sC_arg4 WB).trans hB4
  have hC5 : StableHlo.after run_opsC WB (main_arg5 : DevRef τ sig) = (V (main_arg5 : DevRef τ sig)) := (run_sC_arg5 WB).trans hB5
  generalize StableHlo.after run_opsC WB = WC at hC16 hC19 hC44 hC45 hC46 hC2 hC3 hC4 hC5 ⊢
  have hD94 : StableHlo.after run_opsD WC (main_v94 : DevRef τ sig)
      = Fn.dot2 (Fn.binAct128 (Fn.conv1 (Fn.dot1 (Fn.binAct512 (Fn.bn (V (main_arg0 : DevRef τ sig)))) (Fn.binW1 (V (main_arg2 : DevRef τ sig)))) (V (main_arg1 : DevRef τ sig)) (V (main_arg3 : DevRef τ sig)))) (Fn.binW2 (V (main_arg4 : DevRef τ sig))) :=
    (run_sD_v94 WC (V (main_arg1 : DevRef τ sig)) (Fn.bn (V (main_arg0 : DevRef τ sig))) hC16 hC19 hC44 hC45 hC46).trans (by rw [hC2, hC3, hC4])
  have hD95 : StableHlo.after run_opsD WC (main_v95 : DevRef τ sig) = broadcastInDim S850000x1 ![0] bcast_S850000_S850000x1_0 (Fn.norm (V (main_arg1 : DevRef τ sig))) := (run_sD_v95 WC).trans (by rw [hC44])
  have hD16 : StableHlo.after run_opsD WC (main_v16 : DevRef τ sig) = Fn.row (V (main_arg1 : DevRef τ sig)) := (run_sD_v16 WC).trans hC16
  have hD19 : StableHlo.after run_opsD WC (main_v19 : DevRef τ sig) = Fn.col (V (main_arg1 : DevRef τ sig)) := (run_sD_v19 WC).trans hC19
  have hD5 : StableHlo.after run_opsD WC (main_arg5 : DevRef τ sig) = (V (main_arg5 : DevRef τ sig)) := (run_sD_arg5 WC).trans hC5
  generalize StableHlo.after run_opsD WC = WD at hD94 hD95 hD16 hD19 hD5 ⊢
  exact (run_sE_v111 WD (V (main_arg1 : DevRef τ sig)) hD16 hD19 hD95).trans (by rw [hD94, hD5])

/-- No operation of the line writes argument 0. -/
theorem run_arg0_eq : StableHlo.after run_ops V (main_arg0 : DevRef τ sig) = V (main_arg0 : DevRef τ sig) := by
  rw [run_after_ops]
  after_results_simp

/-- No operation of the line writes argument 1. -/
theorem run_arg1_eq : StableHlo.after run_ops V (main_arg1 : DevRef τ sig) = V (main_arg1 : DevRef τ sig) := by
  rw [run_after_ops]
  after_results_simp

/-- No operation of the line writes argument 2. -/
theorem run_arg2_eq : StableHlo.after run_ops V (main_arg2 : DevRef τ sig) = V (main_arg2 : DevRef τ sig) := by
  rw [run_after_ops]
  after_results_simp

/-- No operation of the line writes argument 3. -/
theorem run_arg3_eq : StableHlo.after run_ops V (main_arg3 : DevRef τ sig) = V (main_arg3 : DevRef τ sig) := by
  rw [run_after_ops]
  after_results_simp

/-- No operation of the line writes argument 4. -/
theorem run_arg4_eq : StableHlo.after run_ops V (main_arg4 : DevRef τ sig) = V (main_arg4 : DevRef τ sig) := by
  rw [run_after_ops]
  after_results_simp

/-- No operation of the line writes argument 5. -/
theorem run_arg5_eq : StableHlo.after run_ops V (main_arg5 : DevRef τ sig) = V (main_arg5 : DevRef τ sig) := by
  rw [run_after_ops]
  after_results_simp

end ReadBack

end Line

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v111) = Fn.out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v111).trans (run_out_eq _),
      (h c main_arg0).trans (run_arg0_eq _), (h c main_arg1).trans (run_arg1_eq _), (h c main_arg2).trans (run_arg2_eq _),
      (h c main_arg3).trans (run_arg3_eq _), (h c main_arg4).trans (run_arg4_eq _), (h c main_arg5).trans (run_arg5_eq _)⟩)
    (StableHlo.run_seq run_scopedRefs_eq run_scopedSems_eq defs main (fun _ => run_ops) run_main_eq (fun _ => run_ops_sub) m ρ
      (fun _ => run_ops_fresh))

end Cert.ReferenceIdeal.RVal

end
-- ==== Proof.VarLaw.lean ====
/- The mathematics of this module. Two facts on the extended reals, both free of any program.
   First: the single-precision word 0x47435000 has sign 0, exponent field 142 and fraction field 4411392, so it
   denotes (2^23 + 4411392) * 2^(142 - 127 - 23) = 12800000 / 256 = 50000.
   Second: for finitely many real entries a_r and a positive count n, the mean of the squared deviations from the
   mean equals the mean of the squares minus the square of the mean. Every quotient is a division of an extended
   real by the nonzero real n, which is multiplication by the real 1/n; sums, products and differences of real
   entries stay real, so the whole statement is one identity between reals, namely
   sum (a_r - m)^2 = sum a_r^2 - 2 m sum a_r + n m^2 with m = (sum a_r)/n. -/
import Idealize.ShloMosaic.PureOps.Ideal.Laws
import Mathlib.Algebra.BigOperators.Fin

noncomputable section

namespace Cert.VarLaw

open Idealize.ShloMosaic

/-- The float word of 50000.0 denotes the real 50000. -/
theorem ofBits_50000 : Ideal.ofBits .f32 0x47435000#32 = ((50000 : ℝ) : EReal) := by
  simp [Ideal.ofBits, Ideal.ieee, -EReal.coe_mul]; norm_num

/-- A finite sum of reals, each read as an extended real, is the real sum read as an extended real. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert x s hx ih => rw [Finset.sum_insert hx, Finset.sum_insert hx, ih, EReal.coe_add]

/-- The real identity behind the variance law: with m the mean, the mean of (a_r - m)^2 is the mean of a_r^2
    minus m^2. -/
theorem var_real {n : ℕ} (hn : 0 < n) (a : Fin n → ℝ) :
    (∑ r, (a r - (∑ r', a r') * (1 / (n : ℝ))) * (a r - (∑ r', a r') * (1 / (n : ℝ)))) * (1 / (n : ℝ))
      = (∑ r, a r * a r) * (1 / (n : ℝ))
        - ((∑ r', a r') * (1 / (n : ℝ))) * ((∑ r', a r') * (1 / (n : ℝ))) := by
  have hn' : (n : ℝ) ≠ 0 := by exact_mod_cast hn.ne'
  generalize hm : (∑ r', a r') * (1 / (n : ℝ)) = m
  have hS : (∑ r', a r') = (n : ℝ) * m := by rw [← hm]; field_simp
  have hexp : ∀ r, (a r - m) * (a r - m) = a r * a r - 2 * m * a r + m * m := fun r => by ring
  simp only [hexp, Finset.sum_add_distrib, Finset.sum_sub_distrib, ← Finset.mul_sum, Finset.sum_const,
    Finset.card_univ, Fintype.card_fin, nsmul_eq_mul, hS]
  field_simp
  ring

/-- The mean of squared deviations is the mean of squares minus the squared mean, for real entries, with the
    quotients taken on the extended reals by the real n. -/
theorem var_law {n : ℕ} (hn : 0 < n) (a : Fin n → ℝ) :
    Ideal.div (∑ r, (((a r : ℝ) : EReal) - Ideal.div (∑ r', ((a r' : ℝ) : EReal)) ((n : ℝ) : EReal))
        * (((a r : ℝ) : EReal) - Ideal.div (∑ r', ((a r' : ℝ) : EReal)) ((n : ℝ) : EReal))) ((n : ℝ) : EReal)
      = Ideal.div (∑ r, ((a r : ℝ) : EReal) * ((a r : ℝ) : EReal)) ((n : ℝ) : EReal)
        - Ideal.div (∑ r, ((a r : ℝ) : EReal)) ((n : ℝ) : EReal) * Ideal.div (∑ r, ((a r : ℝ) : EReal)) ((n : ℝ) : EReal) := by
  have hn' : (n : ℝ) ≠ 0 := by exact_mod_cast hn.ne'
  have hmean : Ideal.div (∑ r', ((a r' : ℝ) : EReal)) ((n : ℝ) : EReal)
      = (((∑ r', a r') * (1 / (n : ℝ)) : ℝ) : EReal) := by
    rw [coe_sum, Ideal.div_coe hn', ← EReal.coe_mul]
  rw [hmean]
  simp only [← EReal.coe_sub, ← EReal.coe_mul]
  rw [coe_sum, coe_sum, Ideal.div_coe hn', Ideal.div_coe hn', ← EReal.coe_mul, ← EReal.coe_mul, ← EReal.coe_sub,
    var_real hn a]

end Cert.VarLaw

end
-- ==== Proof.RDense1.lean ====
/-
  The reference's first dense layer, read entry by entry over the extended reals.
  Entry (p, q) of the matrix product is the sum over k of the left factor at (p, k) times the weight at (k, q).
  The left factor is the binarised normalised input: at (p, k) it is the sign of the entry times the mean absolute
  value of row p, the row sum of absolute values divided by the float 512.0; this holds for any matrix put in.
  The normalised input at (p, j) is (x - mean_j) * (var_j + eps)^(-1/2), where mean_j is the column sum over the
  50000 rows divided by the float 50000.0, and var_j, which the program computes as the mean of the squared
  deviations from mean_j (kept because its divisor 50000 - 0 is positive), is for real entries the mean of the
  squares minus the squared mean. So the whole is the index-level layer applied to the column sums' mean and
  reciprocal standard deviation.
-/
import proofs.«134459_j27161373180324_1_alg».proof.Proof.RFn
import proofs.«134459_j27161373180324_1_alg».proof.Proof.Spec
import proofs.«134459_j27161373180324_1_alg».proof.Proof.LibPlainDot
import proofs.«134459_j27161373180324_1_alg».proof.Proof.VarLaw
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.ReferenceIdeal.RVal

open Cert.ReferenceIdeal
open Idealize.ShloMosaic.ValueIdx

section Layout

variable {α : Type}

/-- A column [a, 1] copied along b columns reads, at (p, k), the column's entry of row p. -/
theorem bcast_col_apply {a b : ℕ} (h : (⟨2, ![a, 1]⟩ : Shape).BroadcastsInDim ⟨2, ![a, b]⟩ ![0, 1])
    (y : (⟨2, ![a, 1]⟩ : Shape).Idx → α) (p : Fin a) (k : Fin b) :
    broadcastInDim ⟨2, ![a, b]⟩ ![0, 1] h y (ix2 p k) = y (ix2 p (0 : Fin 1)) := by
  refine broadcastInDim_apply ![0, 1] h y (ix2 p k) (ix2 p (0 : Fin 1)) ?_
  intro c
  match c with
  | ⟨0, _⟩ =>
    show p.val = if a = 1 then 0 else p.val
    split_ifs with ha
    · have := p.isLt; omega
    · rfl
  | ⟨1, _⟩ =>
    show (0 : ℕ) = if (1 : ℕ) = 1 then 0 else k.val
    rw [if_pos rfl]

/-- A vector [a] stood up as a column [a, 1] reads, at (p, 0), the vector's entry p. -/
theorem bcast_vec_col_apply {a : ℕ} (h : (⟨1, ![a]⟩ : Shape).BroadcastsInDim ⟨2, ![a, 1]⟩ ![0])
    (y : (⟨1, ![a]⟩ : Shape).Idx → α) (p : Fin a) (c : Fin 1) :
    broadcastInDim ⟨2, ![a, 1]⟩ ![0] h y (ix2 p c) = y (ix1 p) := by
  refine broadcastInDim_apply ![0] h y (ix2 p c) (ix1 p) ?_
  intro d
  match d with
  | ⟨0, _⟩ =>
    show p.val = if a = 1 then 0 else p.val
    split_ifs with ha
    · have := p.isLt; omega
    · rfl

/-- A vector [b] laid down as a row [1, b] reads, at (0, j), the vector's entry j. -/
theorem bcast_vec_row_apply {b : ℕ} (h : (⟨1, ![b]⟩ : Shape).BroadcastsInDim ⟨2, ![1, b]⟩ ![1])
    (y : (⟨1, ![b]⟩ : Shape).Idx → α) (c : Fin 1) (j : Fin b) :
    broadcastInDim ⟨2, ![1, b]⟩ ![1] h y (ix2 c j) = y (ix1 j) := by
  refine broadcastInDim_apply ![1] h y (ix2 c j) (ix1 j) ?_
  intro d
  match d with
  | ⟨0, _⟩ =>
    show j.val = if b = 1 then 0 else j.val
    split_ifs with hb
    · have := j.isLt; omega
    · rfl

end Layout

/-- The host's sum along a row, from the zero initial value: at row p the sum over the 512 columns. -/
theorem rowSum_apply (h' : S50000x512.ReducesTo [1] S50000) (hu : 0 < S_.numel)
    (x : Vec Ideal S50000x512 .f32) (p : Fin 50000) :
    Host.reduceAdd x (constant (F := Ideal) S_ .f32 0x00000000#32) h' hu (ix1 p) = ∑ k : Fin 512, x (ix2 p k) := by
  have h : (⟨2, ![50000, 512]⟩ : Shape).Reduces [1] ⟨1, ![50000]⟩ := by decide
  refine (hostReduceAdd_apply x _ h' hu (ix1 p)).trans ?_
  refine (Ideal.hostReduceAdd_single h' h x _ (ix1 p)).trans ?_
  rw [constant_apply, Ideal.ofBits_zero_f32, zero_add]
  refine Finset.sum_congr rfl fun k _ => congrArg x (funext fun c => Fin.ext ?_)
  match c with
  | ⟨0, _⟩ => rfl
  | ⟨1, _⟩ => rfl

/-- The host's sum down a column, from the zero initial value: at column j the sum over the 50000 rows. -/
theorem colSum_apply (h' : S50000x512.ReducesTo [0] S512) (hu : 0 < S_.numel)
    (x : Vec Ideal S50000x512 .f32) (j : Fin 512) :
    Host.reduceAdd x (constant (F := Ideal) S_ .f32 0x00000000#32) h' hu (ix1 j) = ∑ r : Fin 50000, x (ix2 r j) := by
  have h : (⟨2, ![50000, 512]⟩ : Shape).Reduces [0] ⟨1, ![512]⟩ := by decide
  refine (hostReduceAdd_apply x _ h' hu (ix1 j)).trans ?_
  refine (Ideal.hostReduceAdd_single h' h x _ (ix1 j)).trans ?_
  rw [constant_apply, Ideal.ofBits_zero_f32, zero_add]
  refine Finset.sum_congr rfl fun r _ => congrArg x (funext fun c => Fin.ext ?_)
  match c with
  | ⟨0, _⟩ => rfl
  | ⟨1, _⟩ => rfl

/-- Binarisation at an entry, for any matrix: the sign times the row's mean absolute value. -/
theorem binAct512_apply (z : Vec Ideal S50000x512 .f32) (p : Fin 50000) (k : Fin 512) :
    Fn.binAct512 z (ix2 p k) = Cert.Spec.binActAt 0x44000000#32 z p k := by
  unfold Cert.Spec.binActAt
  refine (mulf_apply _ _ _).trans ?_
  rw [bcast_col_apply, hostDivf_apply, bcast_vec_col_apply, broadcastInDim_scalar_apply, constant_apply, rowSum_apply]
  rfl

/-- The column mean at column j: the column sum divided by the float 50000.0. -/
theorem mu_apply (x : Vec Ideal S50000x512 .f32) (j : Fin 512) :
    Fn.mu x (ix1 j) = Ideal.div (∑ r : Fin 50000, x (ix2 r j)) (Ideal.ofBits .f32 0x47435000#32) := by
  refine (hostDivf_apply _ _ _).trans ?_
  rw [colSum_apply, broadcastInDim_scalar_apply, constant_apply]

/-- The same mean kept as a row, at (0, j). -/
theorem varMean_apply (x : Vec Ideal S50000x512 .f32) (c : Fin 1) (j : Fin 512) :
    Fn.varMean x (ix2 c j) = Ideal.div (∑ r : Fin 50000, x (ix2 r j)) (Ideal.ofBits .f32 0x47435000#32) := by
  refine (hostDivf_apply _ _ _).trans ?_
  rw [bcast_vec_row_apply, colSum_apply, broadcastInDim_scalar_apply, constant_apply]

/-- The deviation from the column mean at (r, j). -/
theorem varCentered_apply (x : Vec Ideal S50000x512 .f32) (r : Fin 50000) (j : Fin 512) :
    Fn.varCentered x (ix2 r j)
      = x (ix2 r j) - Ideal.div (∑ r' : Fin 50000, x (ix2 r' j)) (Ideal.ofBits .f32 0x47435000#32) := by
  refine (subf_apply _ _ _).trans ?_
  rw [broadcastInDim_oneRow_apply, varMean_apply]

/-- The variance's divisor, 50000.0 minus the integer 0 read as a float, is the real 50000. -/
theorem varN_apply : Fn.varN (F := Ideal) ix0 = ((50000 : ℝ) : EReal) := by
  refine (subf_apply _ _ _).trans ?_
  rw [constant_apply, Cert.VarLaw.ofBits_50000]
  show ((50000 : ℝ) : EReal) - ((((0#32 : BitVec 32).toInt : ℤ) : ℝ) : EReal) = _
  have h0 : (0#32 : BitVec 32).toInt = 0 := by decide
  rw [h0, Int.cast_zero, EReal.coe_zero, sub_zero]

/-- The divisor is positive, so the select keeps the computed variance everywhere. -/
theorem varCond_apply (h : S_.BroadcastsInDim S512 ![]) (j : Fin 512) :
    broadcastInDim S512 ![] h (cmpf .ogt (Fn.varN (F := Ideal)) (constant (F := Ideal) S_ .f32 0x00000000#32)) (ix1 j) = 1#1 := by
  rw [broadcastInDim_scalar_apply, cmpf_apply, varN_apply, constant_apply, Ideal.ofBits_zero_f32]
  show Ideal.cmp .ogt ((50000 : ℝ) : EReal) 0 = 1#1
  have hpos : (0 : EReal) < ((50000 : ℝ) : EReal) := by
    rw [← EReal.coe_zero, EReal.coe_lt_coe_iff]; norm_num
  unfold Ideal.cmp
  simp [hpos]

/-- The column variance at column j, for real entries: the mean of the squares minus the squared mean. -/
theorem var_apply (x : Vec Ideal S50000x512 .f32) (hx : ∀ i, ∃ r : ℝ, x i = (r : EReal)) (j : Fin 512) :
    Fn.var x (ix1 j)
      = Ideal.div (∑ r : Fin 50000, x (ix2 r j) * x (ix2 r j)) (Ideal.ofBits .f32 0x47435000#32)
        - Ideal.div (∑ r : Fin 50000, x (ix2 r j)) (Ideal.ofBits .f32 0x47435000#32)
          * Ideal.div (∑ r : Fin 50000, x (ix2 r j)) (Ideal.ofBits .f32 0x47435000#32) := by
  refine (select_apply _ _ _ _).trans ?_
  rw [varCond_apply, select_one, hostDivf_apply, colSum_apply, broadcastInDim_scalar_apply, varN_apply]
  simp only [mulf_apply, varCentered_apply]
  rw [Cert.VarLaw.ofBits_50000]
  choose a ha using fun r : Fin 50000 => hx (ix2 r j)
  simp only [ha]
  have h := Cert.VarLaw.var_law (n := 50000) (by norm_num) a
  simp only [Nat.cast_ofNat] at h
  exact h

/-- The reciprocal standard deviation at column j. -/
theorem rstd_apply (h : S_.BroadcastsInDim S512 ![]) (x : Vec Ideal S50000x512 .f32)
    (hx : ∀ i, ∃ r : ℝ, x i = (r : EReal)) (j : Fin 512) :
    Host.rsqrt (addf (Fn.var x) (broadcastInDim S512 ![] h (constant (F := Ideal) S_ .f32 0x3727C5AC#32))) (ix1 j)
      = Ideal.rsqrt ((Ideal.div (∑ r : Fin 50000, x (ix2 r j) * x (ix2 r j)) (Ideal.ofBits .f32 0x47435000#32)
          - Ideal.div (∑ r : Fin 50000, x (ix2 r j)) (Ideal.ofBits .f32 0x47435000#32)
            * Ideal.div (∑ r : Fin 50000, x (ix2 r j)) (Ideal.ofBits .f32 0x47435000#32))
          + Ideal.ofBits .f32 0x3727C5AC#32) := by
  show Ideal.rsqrt (Fn.var x (ix1 j) + broadcastInDim S512 ![] h (constant (F := Ideal) S_ .f32 0x3727C5AC#32) (ix1 j)) = _
  rw [var_apply x hx, broadcastInDim_scalar_apply, constant_apply]

/-- Normalisation at an entry: the program's batch norm is the index-level one on the column sums' mean and
    reciprocal standard deviation. -/
theorem bn_apply (x : Vec Ideal S50000x512 .f32) (hx : ∀ i, ∃ r : ℝ, x i = (r : EReal)) (a : S50000x512.Idx) :
    Fn.bn x a = Cert.Spec.bn x (Cert.Spec.mean (Cert.Spec.colSum x))
      (Cert.Spec.rstd (Cert.Spec.colSum x) (Cert.Spec.colSumSq x)) a := by
  obtain ⟨r, j, rfl⟩ : ∃ (r : Fin 50000) (j : Fin 512), a = ix2 r j := ⟨a 0, a 1, eq_ix2 a⟩
  refine (mulf_apply _ _ _).trans ?_
  rw [subf_apply, broadcastInDim_oneRow_apply, bcast_vec_row_apply, mu_apply, broadcastInDim_oneRow_apply,
    bcast_vec_row_apply, rstd_apply _ x hx]
  rfl

theorem dense1_eq (x : Vec Ideal S50000x512 .f32) (hx : ∀ i, ∃ r : ℝ, x i = (r : EReal)) (w : Vec Ideal S512x128 .f32) :
    Fn.dot1 (Fn.binAct512 (Fn.bn x)) w
      = Cert.Spec.layer1 x (Cert.Spec.mean (Cert.Spec.colSum x)) (Cert.Spec.rstd (Cert.Spec.colSum x) (Cert.Spec.colSumSq x)) w := by
  have hbn : Fn.bn x = Cert.Spec.bn x (Cert.Spec.mean (Cert.Spec.colSum x))
      (Cert.Spec.rstd (Cert.Spec.colSum x) (Cert.Spec.colSumSq x)) := funext fun a => bn_apply x hx a
  funext i
  obtain ⟨p, q, rfl⟩ : ∃ (p : Fin 50000) (q : Fin 128), i = ix2 p q := ⟨i 0, i 1, eq_ix2 i⟩
  refine (Cert.PlainDot.dotGeneral_apply dot_S50000x512_S512x128_S50000x128_1_0_0_1_n_n rfl none _ _ p q).trans ?_
  unfold Cert.Spec.layer1 Cert.Spec.dense
  refine Finset.sum_congr rfl fun k _ => ?_
  rw [binAct512_apply, hbn]

end Cert.ReferenceIdeal.RVal

end
-- ==== Proof.RDense2.lean ====
/-
  The reference's second dense layer, entry by entry. Its input is binarised row by row: every entry is replaced by
  its sign times the mean absolute value of its row (the sum of |z| over the 128 entries of the row, divided by the
  float 128.0); the binarised rows are then contracted with the 128 by 64 weight matrix. Read at the entry (p, q) this
  is the sum over k of sign(z(p,k)) * (sum over k' of |z(p,k')|) / 128 * w(k,q), which is the index-level layer 2.
-/
import proofs.«134459_j27161373180324_1_alg».proof.Proof.RFn
import proofs.«134459_j27161373180324_1_alg».proof.Proof.Spec
import proofs.«134459_j27161373180324_1_alg».proof.Proof.LibPlainDot
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.ReferenceIdeal.RVal

open Cert.ReferenceIdeal
open Idealize.ShloMosaic.ValueIdx

/-- Inserting the column k into the one-coordinate index (p) gives the entry (p, k). -/
theorem lift_row (h : S50000x128.Reduces [1] S50000) (p : Fin 50000) (k : Fin 128) :
    h.lift (ix1 p) k = ix2 p k := by
  funext a
  match a with
  | ⟨0, _⟩ => exact Fin.ext rfl
  | ⟨1, _⟩ => exact Fin.ext rfl

/-- The sum of |z| over row p, as the host's reduction from the zero initial value computes it. -/
theorem rowAbsSum_apply (z : FVec Ideal S50000x128 .f32) (p : Fin 50000) :
    Host.reduceAdd (F := Ideal) (Host.absf z) (constant (F := Ideal) S_ .f32 0x00000000#32)
        Facts₀.reducesTo_S50000x128_S50000_d1 Facts₀.h_S_ (ix1 p)
      = ∑ k' : Fin 128, max (z (ix2 p k')) (-(z (ix2 p k'))) := by
  have h : S50000x128.Reduces [1] S50000 := by decide
  show Ideal.hostReduceAdd Facts₀.reducesTo_S50000x128_S50000_d1 (Host.absf z) (Ideal.ofBits .f32 0x00000000#32) (ix1 p) = _
  refine (Ideal.hostReduceAdd_single Facts₀.reducesTo_S50000x128_S50000_d1 h (Host.absf z) _ (ix1 p)).trans ?_
  rw [Ideal.ofBits_zero_f32, zero_add]
  refine Finset.sum_congr rfl fun k' _ => ?_
  rw [lift_row h p k']
  rfl

/-- The binarised entry (p, k): the sign of z(p,k) times the row's mean absolute value. -/
theorem binAct128_apply (z : FVec Ideal S50000x128 .f32) (p : Fin 50000) (k : Fin 128) :
    Fn.binAct128 (F := Ideal) z (ix2 p k) = Cert.Spec.binActAt 0x43000000#32 z p k := by
  unfold Cert.Spec.binActAt
  refine (mulf_apply _ _ _).trans ?_
  refine congrArg₂ (· * ·) rfl ?_
  refine (broadcastInDim_apply _ _ _ (ix2 p k) (ix2 p (0 : Fin 1))
    (fun a => match a with | ⟨0, _⟩ => rfl | ⟨1, _⟩ => rfl)).trans ?_
  show Ideal.div _ _ = _
  refine congrArg₂ Ideal.div ?_ ?_
  · refine (broadcastInDim_apply _ _ _ (ix2 p (0 : Fin 1)) (ix1 p)
      (fun a => match a with | ⟨0, _⟩ => rfl)).trans ?_
    exact rowAbsSum_apply z p
  · refine (broadcastInDim_apply _ _ _ (ix2 p (0 : Fin 1)) ix0 (fun a => a.elim0)).trans ?_
    rfl

theorem dense2_eq (z : Vec Ideal S50000x128 .f32) (w : Vec Ideal S128x64 .f32) :
    Fn.dot2 (Fn.binAct128 z) w = Cert.Spec.layer2 z w := by
  funext i
  obtain ⟨p, q, rfl⟩ : ∃ (p : Fin 50000) (q : Fin 64), i = ix2 p q := ⟨i 0, i 1, eq_ix2 i⟩
  refine (Cert.PlainDot.dotGeneral_apply (dot_S50000x128_S128x64_S50000x64_1_0_0_1_n_n) rfl none _ _ p q).trans ?_
  unfold Cert.Spec.layer2 Cert.Spec.dense
  refine Finset.sum_congr rfl fun k _ => ?_
  refine congrArg₂ (· * ·) ?_ rfl
  exact binAct128_apply z p k

end Cert.ReferenceIdeal.RVal

end
-- ==== Proof.RLsm.lean ====
/-
  The reference's row-wise log-softmax, read entry by entry over the extended reals.

  The row maximum is a fold of max over the 64 entries of the row, started from minus infinity; taking the maximum of
  that with minus infinity once more changes nothing, since minus infinity is the least extended real. The shifted entry
  is the entry minus its row's maximum, and the result is the shifted entry minus the logarithm of the row's sum of
  exponentials of shifted entries. The column and row broadcasts in between only repeat the per-row value along the row,
  and the sum's initial value is the float zero, the extended real zero.
-/
import proofs.«134459_j27161373180324_1_alg».proof.Proof.RFn
import proofs.«134459_j27161373180324_1_alg».proof.Proof.Spec
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.ReferenceIdeal.RVal

open Cert.ReferenceIdeal
open Idealize.ShloMosaic.ValueIdx

/-- The float word of minus infinity is the least extended real: the maximum of it and y is y. -/
theorem max_negInf (y : EReal) : max (Ideal.ofBits .f32 0xFF800000#32) y = y := by
  simp [Ideal.ofBits, Ideal.ieee]

/-- Row p's index with a column coordinate k put back on axis 1 is the entry (p, k). -/
theorem lsm_lift_row (h : S50000x64.Reduces [1] S50000) (p : Fin 50000) (k : Fin (S50000x64.size 1)) :
    h.lift (ix1 p) k = ix2 p (⟨k.val, k.isLt⟩ : Fin 64) := by
  funext c; apply Fin.ext
  fin_cases c <;> rfl

/-- A scalar repeated along a vector reads the scalar at every place. -/
theorem bcast_scalar_apply (hb : S_.BroadcastsInDim S50000 ![]) (x : S_.Idx → EReal) (j : S50000.Idx) :
    broadcastInDim S50000 ![] hb x j = x ix0 := by
  unfold broadcastInDim; exact congrArg x (funext fun a => a.elim0)

/-- A vector stood up as a column: its entry (p, 0) is the vector's entry p. -/
theorem lsm_bcast_col_apply (hb : S50000.BroadcastsInDim S50000x1 ![0]) (x : S50000.Idx → EReal) (p : Fin 50000) (q : Fin 1) :
    broadcastInDim S50000x1 ![0] hb x (ix2 p q) = x (ix1 p) :=
  broadcastInDim_apply _ hb x _ (ix1 p) (fun c => by fin_cases c; rfl)

/-- A column repeated along the 64 places of each row: its entry (p, q) is the column's entry (p, 0). -/
theorem bcast_row_apply (hb : S50000x1.BroadcastsInDim S50000x64 ![0, 1]) (x : S50000x1.Idx → EReal) (p : Fin 50000) (q : Fin 64) :
    broadcastInDim S50000x64 ![0, 1] hb x (ix2 p q) = x (ix2 p (0 : Fin 1)) :=
  broadcastInDim_apply _ hb x _ (ix2 p (0 : Fin 1)) (fun c => by fin_cases c <;> rfl)

/-- The host exponential at an entry is the extended-real exponential of the entry. -/
theorem hostExp_apply {s : Shape} (x : FVec Ideal s .f32) (i : s.Idx) : Host.exp x i = Ideal.exp (x i) := rfl

/-- The host logarithm at an entry is the extended-real logarithm of the entry. -/
theorem hostLog_apply {s : Shape} (x : FVec Ideal s .f32) (i : s.Idx) : Host.log x i = Ideal.log (x i) := rfl

/-- The host sum over axis 1 from the float zero, at row p, is the sum of the row's 64 entries. -/
theorem reduceAdd_row (x : FVec Ideal S50000x64 .f32) (h' : S50000x64.ReducesTo [1] S50000) (hu : 0 < S_.numel) (p : Fin 50000) :
    Host.reduceAdd x (constant (F := Ideal) S_ .f32 0x00000000#32) h' hu (ix1 p) = ∑ k : Fin 64, x (ix2 p k) := by
  have h : S50000x64.Reduces [1] S50000 := by decide
  show Ideal.hostReduceAdd h' x (Ideal.ofBits .f32 0x00000000#32) (ix1 p) = _
  rw [Ideal.hostReduceAdd_single h' h, Ideal.ofBits_zero_f32, zero_add]
  exact Finset.sum_congr rfl (fun k _ => congrArg x (lsm_lift_row h p k))

/-- The host maximum over axis 1 from minus infinity, at row p, is the fold of max over the row's 64 entries. -/
theorem reduceMax_row (x : FVec Ideal S50000x64 .f32) (h' : S50000x64.ReducesTo [1] S50000) (hu : 0 < S_.numel) (p : Fin 50000) :
    Host.reduce (FloatOps.maximumf (F := Ideal) (φ := .f32)) x (constant (F := Ideal) S_ .f32 0xFF800000#32) h' hu (ix1 p)
      = (Finset.univ : Finset (Fin 64)).fold max (Ideal.ofBits .f32 0xFF800000#32) (fun k => x (ix2 p k)) := by
  have h : S50000x64.Reduces [1] S50000 := by decide
  rw [Host.reduce_eq_fold_single (FloatOps.maximumf (F := Ideal) (φ := .f32)) x _ h' h hu]
  have hf : (x ∘ h.lift (ix1 p)) = fun k : Fin 64 => x (ix2 p k) := funext fun k => congrArg x (lsm_lift_row h p k)
  exact congrArg (fun f => Finset.fold max (Ideal.ofBits .f32 0xFF800000#32) f (Finset.univ : Finset (Fin 64))) hf

/-- The row maximum as the reference takes it is the fold of max from minus infinity over the row. -/
theorem lsmMax_apply (z : Vec Ideal S50000x64 .f32) (p : Fin 50000) :
    Fn.lsmMax z (ix1 p) = Cert.Spec.rowMax z p := by
  unfold Fn.lsmMax
  rw [maximumf_apply, bcast_scalar_apply, constant_apply, max_negInf]
  exact reduceMax_row z _ _ p

/-- The shifted entry (p, q) is the entry minus row p's maximum. -/
theorem lsmShift_apply (z : Vec Ideal S50000x64 .f32) (p : Fin 50000) (q : Fin 64) :
    Fn.lsmShift z (ix2 p q) = z (ix2 p q) - Cert.Spec.rowMax z p := by
  unfold Fn.lsmShift
  rw [subf_apply, bcast_row_apply, lsm_bcast_col_apply, lsmMax_apply]

theorem lsm_eq (z : Vec Ideal S50000x64 .f32) : Fn.lsm z = Cert.Spec.lsm z := by
  funext i
  obtain ⟨p, q, rfl⟩ : ∃ (p : Fin 50000) (q : Fin 64), i = ix2 p q := ⟨i 0, i 1, eq_ix2 i⟩
  unfold Fn.lsm Cert.Spec.lsm
  rw [subf_apply, lsmShift_apply, bcast_row_apply, hostLog_apply, lsm_bcast_col_apply, reduceAdd_row]
  simp only [hostExp_apply, lsmShift_apply]

end Cert.ReferenceIdeal.RVal

end
-- ==== Proof.Finite.lean ====
/-
  Three bridges between the two programs, all at exact arithmetic over the extended reals.
  First and second: the reference's binarised weight matrices (the sign of each entry times its column's mean absolute
  value) are the very matrices the kernel hands to its dense stages, because narrowing to a shorter float format changes
  nothing when floats are extended reals. Third: the precondition says that every float input has all its absolute
  values strictly below plus infinity; read back at the node-feature matrix, each of its entries is therefore a real
  number (neither infinity can have an absolute value below plus infinity).
-/
import proofs.«134459_j27161373180324_1_alg».proof.Defs
import proofs.«134459_j27161373180324_1_alg».proof.Proof.Gen.Pre_finite_inputs
import proofs.«134459_j27161373180324_1_alg».proof.Proof.Gen.KernelIdeal
import proofs.«134459_j27161373180324_1_alg».proof.Proof.Gen.ReferenceIdeal
import proofs.«134459_j27161373180324_1_alg».proof.Proof.RFn
import proofs.«134459_j27161373180324_1_alg».proof.Proof.KFn
import Idealize.ShloMosaic.Lib.ReduceAll
import Idealize.ShloMosaic.PureOps.Ideal.Laws

set_option maxRecDepth 16384

noncomputable section

open Idealize.ShloMosaic Idealize.ShloMosaic.TcCoe Idealize.SL.Sem

namespace Cert.Bridge

/-- The binarised first weight matrix is the same on both sides: narrowing is the identity on extended reals. -/
theorem binW1_eq (w : Vec Ideal Cert.ReferenceIdeal.S512x128 .f32) : Cert.ReferenceIdeal.Fn.binW1 w = Cert.KernelIdeal.Fn.wbin1 w := rfl

/-- The binarised second weight matrix is the same on both sides. -/
theorem binW2_eq (w : Vec Ideal Cert.ReferenceIdeal.S128x64 .f32) : Cert.ReferenceIdeal.Fn.binW2 w = Cert.KernelIdeal.Fn.wbin2 w := rfl

/-- The word 0x7F800000 encodes plus infinity. -/
private theorem ofBits_inf : Ideal.ofBits .f32 0x7F800000#32 = (⊤ : EReal) := by simp [Ideal.ofBits, Ideal.ieee]

/-- An extended real whose absolute value lies strictly below plus infinity is a real number. -/
private theorem real_of_abs_lt_top (x : EReal) (h : max x (-x) < ⊤) : ∃ r : ℝ, x = (r : EReal) := by
  induction x using EReal.rec with
  | bot => simp at h
  | coe r => exact ⟨r, rfl⟩
  | top => simp at h

/-- One entry of the printed test |x| < +inf, read back: where it holds, the entry is a real number. -/
private theorem elt_real {s : Shape} (hb : Cert.Pre_finite_inputs.S_.BroadcastsInDim s (![] : Fin 0 → Fin s.rank))
    (x : FVec Ideal s .f32) (i : s.Idx)
    (h : cmpf .olt (Host.absf x) (broadcastInDim s ![] hb (constant (F := Ideal) Cert.Pre_finite_inputs.S_ .f32 0x7F800000#32)) i = 1#1) :
    ∃ r : ℝ, x i = (r : EReal) := by
  have h' : Ideal.cmp .olt (max (x i) (-(x i))) (Ideal.ofBits .f32 0x7F800000#32) = 1#1 := h
  rw [ofBits_inf] at h'
  refine real_of_abs_lt_top (x i) ?_
  by_contra hn
  simp [Ideal.cmp, hn] at h'

/-- Under the precondition every entry of the node-feature matrix is a real number: the conjunction of the five
    all-tests yields the first one, which yields the strict bound on each entry's absolute value. -/
theorem real_x (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) := by
  intro i
  -- the rank-0 shape has exactly one index
  haveI : Subsingleton Cert.Pre_finite_inputs.S_.Idx := ⟨fun a b => funext fun d => d.elim0⟩
  have h0 := congrFun (h c) (fun a => a.elim0 : Cert.Pre_finite_inputs.S_.Idx)
  dsimp only [Cert.Pre_finite_inputs.fn, Cert.Pre_finite_inputs.fn_part1] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  exact elt_real _ _ i (Host.reduce_andi_all _ _ _ _ _ h4 i)

end Cert.Bridge

end
-- ==== Proof.Shared.lean ====
/-
  The graph convolutions are the same operations in both programs: the reference's composition of its printed host
  operations and the kernel's are one term once each program's own shape records, which are equal structures, are
  opened. Nothing of a scatter or a gather is evaluated.
-/
import proofs.«134459_j27161373180324_1_alg».proof.Proof.RFn
import proofs.«134459_j27161373180324_1_alg».proof.Proof.KFn
import Idealize.ShloMosaic.PureOps.Ideal

noncomputable section

namespace Cert.Bridge

open Idealize.ShloMosaic

/-- The first graph convolution (128 features): gather, scale by the edge norm, scatter-add, add the bias. -/
theorem conv1_eq (h : Vec Ideal Cert.ReferenceIdeal.S50000x128 .f32) (ei : Vec Ideal Cert.ReferenceIdeal.S2x800000 .i32)
    (b : Vec Ideal Cert.ReferenceIdeal.S128 .f32) :
    Cert.ReferenceIdeal.Fn.conv1 h ei b = Cert.KernelIdeal.Fn.conv1 h ei b := rfl

/-- The second graph convolution (64 features). -/
theorem conv2_eq (h : Vec Ideal Cert.ReferenceIdeal.S50000x64 .f32) (ei : Vec Ideal Cert.ReferenceIdeal.S2x800000 .i32)
    (b : Vec Ideal Cert.ReferenceIdeal.S64 .f32) :
    Cert.ReferenceIdeal.Fn.conv2 h ei b = Cert.KernelIdeal.Fn.conv2 h ei b := rfl

end Cert.Bridge

end
-- ==== Proof.lean ====
/-
  A two-layer binarised graph network on 50000 nodes: batch-normalise the 512 input features over the nodes, then
  twice (binarise each row to its sign times its mean absolute value; multiply by a column-binarised weight matrix;
  convolve over the graph: gather the sources' rows, scale by the symmetric degree normalisation, scatter-add onto the
  targets, add the bias), then a row-wise log-softmax.

  The kernel runs four tiled device regions over 25 blocks of 2000 rows — the column sums of x and of x*x, the two
  dense layers, the log-softmax — with the graph operations on the host between them; the reference is plain host
  code. Over the extended reals, for finite inputs, both end with the same array:
  * the kernel's variance E[x^2] - (E x)^2 from the two column sums is the reference's mean of squared deviations
    (real algebra: this is where the inputs' finiteness is used);
  * a dense layer computed block of rows by block of rows, the rows binarised with the device's sign idiom, is the
    host's one matrix product of the binarised array, entry by entry the same sum;
  * the graph convolutions are literally the same host operations in both programs, applied to equal arrays;
  * the log-softmax of a block of rows is the block of the log-softmax.
  The kernel at the word level is idealised by reading its sign-bit idiom as a comparison with zero, at the two shapes
  where it occurs.
-/
import proofs.«134459_j27161373180324_1_alg».proof.Defs
import proofs.«134459_j27161373180324_1_alg».proof.Proof.Gen.Kernel
import proofs.«134459_j27161373180324_1_alg».proof.Proof.Gen.Kernel.Frame
import proofs.«134459_j27161373180324_1_alg».proof.Proof.Gen.KernelIdeal
import proofs.«134459_j27161373180324_1_alg».proof.Proof.Gen.KernelIdeal.Frame
import proofs.«134459_j27161373180324_1_alg».proof.Proof.Gen.ReferenceIdeal
import proofs.«134459_j27161373180324_1_alg».proof.Proof.Gen.Pre_finite_inputs
import proofs.«134459_j27161373180324_1_alg».proof.Proof.KRun
import proofs.«134459_j27161373180324_1_alg».proof.Proof.KValue
import proofs.«134459_j27161373180324_1_alg».proof.Proof.RRun
import proofs.«134459_j27161373180324_1_alg».proof.Proof.RDense1
import proofs.«134459_j27161373180324_1_alg».proof.Proof.RDense2
import proofs.«134459_j27161373180324_1_alg».proof.Proof.RLsm
import proofs.«134459_j27161373180324_1_alg».proof.Proof.Finite
import proofs.«134459_j27161373180324_1_alg».proof.Proof.Shared
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- The idealised kernel runs and leaves its arguments as launched. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.RVal.run m ρ)

/-- The two sites where the device's sign idiom (1.0 carrying the operand's sign bit) is read as a comparison with zero. -/
theorem preserves : Cert.preserves_Kernel_KernelIdeal :=
  ⟨IdealRules.sign_bit.statement Cert.KernelIdeal.S2000x512 .f32, IdealRules.sign_bit.statement Cert.KernelIdeal.S2000x128 .f32⟩

/-- From arguments that agree, with x finite, both programs end with the same result array. -/
theorem algebraic : Cert.algebraic_KernelIdeal_ReferenceIdeal := by
  intro m ρ m' ρ' hpre hagree
  refine ⟨fun c => Cert.KernelIdeal.Gen.W9 m ρ c (Proc.devRef .tc Cert.KernelIdeal.main_v94),
    Cert.KernelIdeal.ValueRun.run (F := Ideal) m ρ, ?_⟩
  refine (θ_run Cert.ReferenceIdeal.defs _ _).mono (fun _ h c => ⟨(h c).1.trans ?_, (h c).2⟩)
    (Cert.ReferenceIdeal.RVal.run m' ρ')
  obtain ⟨h0, h1, h2, h3, h4, h5⟩ := hagree c
  rw [h0, h1, h2, h3, h4, h5]
  refine Eq.trans ?_ (Cert.KernelIdeal.HostVal.out_eq m ρ c).symm
  show Cert.ReferenceIdeal.Fn.lsm (Cert.ReferenceIdeal.Fn.conv2 (Cert.ReferenceIdeal.Fn.dot2 (Cert.ReferenceIdeal.Fn.binAct128
      (Cert.ReferenceIdeal.Fn.conv1 (Cert.ReferenceIdeal.Fn.dot1 (Cert.ReferenceIdeal.Fn.binAct512 (Cert.ReferenceIdeal.Fn.bn (m ((c.tc : Thread Cert.KernelIdeal.nD Cert.KernelIdeal.τ).loc Cert.KernelIdeal.main_arg0))))
        (Cert.ReferenceIdeal.Fn.binW1 (m ((c.tc : Thread Cert.KernelIdeal.nD Cert.KernelIdeal.τ).loc Cert.KernelIdeal.main_arg2)))) (m ((c.tc : Thread Cert.KernelIdeal.nD Cert.KernelIdeal.τ).loc Cert.KernelIdeal.main_arg1)) (m ((c.tc : Thread Cert.KernelIdeal.nD Cert.KernelIdeal.τ).loc Cert.KernelIdeal.main_arg3))))
      (Cert.ReferenceIdeal.Fn.binW2 (m ((c.tc : Thread Cert.KernelIdeal.nD Cert.KernelIdeal.τ).loc Cert.KernelIdeal.main_arg4)))) (m ((c.tc : Thread Cert.KernelIdeal.nD Cert.KernelIdeal.τ).loc Cert.KernelIdeal.main_arg1)) (m ((c.tc : Thread Cert.KernelIdeal.nD Cert.KernelIdeal.τ).loc Cert.KernelIdeal.main_arg5))) = _
  rw [Cert.ReferenceIdeal.RVal.lsm_eq, Cert.Bridge.conv2_eq, Cert.ReferenceIdeal.RVal.dense2_eq, Cert.Bridge.conv1_eq,
    Cert.ReferenceIdeal.RVal.dense1_eq _ (Cert.Bridge.real_x m hpre c), Cert.Bridge.binW1_eq, Cert.Bridge.binW2_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
